-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S_ : Shape := ⟨0, ![]⟩
abbrev S1 : Shape := ⟨1, ![1]⟩
abbrev S65536 : Shape := ⟨1, ![65536]⟩

class Facts : Prop where
  bcast_S_S1 : S_.BroadcastsInDim S1 (![] : Fin 0 → Fin S1.rank)
  bcast_S_S65536 : S_.BroadcastsInDim S65536 (![] : Fin 0 → Fin S65536.rank)
  reducesTo_S65536x512_S65536_d1 : S65536x512.ReducesTo [1] S65536
  h_S_ : 0 < S_.numel
  reducesTo_S65536_S_d0 : S65536.ReducesTo [0] S_
  bcast_S_S65536x512 : S_.BroadcastsInDim S65536x512 (![] : Fin 0 → Fin S65536x512.rank)
  reducesTo_S65536x512_S_d0_1 : S65536x512.ReducesTo [0, 1] S_
  scatter_S65536x512_S1_S65536_0_1_1_0_wf : ScatterDims.WF S65536x512 S1 S65536 [0] [1] [1] 0

variable [Facts]

def scatter_S65536x512_S1_S65536_0_1_1_0 : ScatterDims S65536x512 S1 S65536 where
  updateWindowDims := [0]
  insertedWindowDims := [1]
  scatterDimsToOperandDims := [1]
  indexVectorDim := 0
  wf := scatter_S65536x512_S1_S65536_0_1_1_0_wf
def fn_part1 {F : FTy → Type} [FloatOps F] (main_v10 : FVec F S_ .f32) (main_v14 : IVec S_ 1) (main_v15 : FVec F S65536x512 .f32) : IVec S_ 1 :=
  let main_cst_6 : FVec F S_ .f32 := constant S_ .f32 0x7F800000#32
  let main_v16 : FVec F S65536x512 .f32 := broadcastInDim S65536x512 ![] bcast_S_S65536x512 main_cst_6
  let main_v17 : IVec S65536x512 1 := cmpf .olt main_v15 main_v16
  let main_c_7 : IVec S_ 1 := constantI S_ 1 1#1
  let main_v18 : IVec S_ 1 := (fun x v => Host.reduce IntOp.andi x v reducesTo_S65536x512_S_d0_1 h_S_) main_v17 main_c_7
  let main_v19 : IVec S_ 1 := andi main_v14 main_v18
  let main_cst_8 : FVec F S_ .f32 := constant S_ .f32 0x00000000#32
  let main_v20 : IVec S_ 1 := cmpf .une main_v10 main_cst_8
  let main_v21 : IVec S_ 1 := andi main_v19 main_v20
  main_v21

def fn {F : FTy → Type} [FloatOps F] (main_arg0 : FVec F S65536x512 .f32) (main_arg1 : FVec F S65536x512 .f32) : IVec S_ 1 :=
  let main_c : IVec S_ 32 := constantI S_ 32 0#32
  let main_v0 : IVec S1 32 := broadcastInDim S1 ![] bcast_S_S1 main_c
  let main_cst : FVec F S_ .f32 := constant S_ .f32 0x00000000#32
  let main_v1 : FVec F S65536 .f32 := broadcastInDim S65536 ![] bcast_S_S65536 main_cst
  let main_v2 : FVec F S65536x512 .f32 := (fun x i u => Host.scatter scatter_S65536x512_S1_S65536_0_1_1_0 (fun _ b => b) x i u) main_arg1 main_v0 main_v1
  let main_cst_0 : FVec F S_ .f32 := constant S_ .f32 0x00000000#32
  let main_v3 : FVec F S65536 .f32 := (fun x v => Host.reduceAdd x v reducesTo_S65536x512_S65536_d1 h_S_) main_v2 main_cst_0
  let main_cst_1 : FVec F S_ .f32 := constant S_ .f32 0x00000000#32
  let main_v4 : FVec F S65536 .f32 := broadcastInDim S65536 ![] bcast_S_S65536 main_cst_1
  let main_v5 : IVec S65536 1 := cmpf .ogt main_v3 main_v4
  let main_v6 : FVec F S65536 .f32 := uitofp .f32 main_v5
  let main_cst_2 : FVec F S_ .f32 := constant S_ .f32 0x3F800000#32
  let main_v7 : FVec F S65536 .f32 := broadcastInDim S65536 ![] bcast_S_S65536 main_cst_2
  let main_v8 : FVec F S65536 .f32 := addf main_v7 main_v3
  let main_v9 : FVec F S65536 .f32 := mulf main_v6 main_v8
  let main_cst_3 : FVec F S_ .f32 := constant S_ .f32 0x00000000#32
  let main_v10 : FVec F S_ .f32 := (fun x v => Host.reduceAdd x v reducesTo_S65536_S_d0 h_S_) main_v9 main_cst_3
  let main_v11 : FVec F S65536x512 .f32 := Host.absf main_arg0
  let main_cst_4 : FVec F S_ .f32 := constant S_ .f32 0x7F800000#32
  let main_v12 : FVec F S65536x512 .f32 := broadcastInDim S65536x512 ![] bcast_S_S65536x512 main_cst_4
  let main_v13 : IVec S65536x512 1 := cmpf .olt main_v11 main_v12
  let main_c_5 : IVec S_ 1 := constantI S_ 1 1#1
  let main_v14 : IVec S_ 1 := (fun x v => Host.reduce IntOp.andi x v reducesTo_S65536x512_S_d0_1 h_S_) main_v13 main_c_5
  let main_v15 : FVec F S65536x512 .f32 := Host.absf main_arg1
  fn_part1 (F := F) main_v10 main_v14 main_v15
-- ==== Kernel.lean ====
abbrev S65536x512 : Shape := ⟨2, ![65536, 512]⟩
abbrev S2x1x1 : Shape := ⟨3, ![2, 1, 1]⟩
abbrev S1024x512 : Shape := ⟨2, ![1024, 512]⟩
abbrev S1x1x1 : Shape := ⟨3, ![1, 1, 1]⟩
abbrev S1x1 : Shape := ⟨2, ![1, 1]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 16
  | .vmem => 13
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S2x1x1, .f32⟩
  | .hbm, ⟨3, _⟩ => ⟨S2x1x1, .f32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v98 : BitVec 1 := Scalar.cmpi .eq arg1 c31_i32
  let v99 : BitVec 32 := Scalar.extui v98
  let c0_i32_36 : BitVec 32 := 0#32
  let v100 : BitVec 1 := Scalar.cmpi .ne v99 c0_i32_36
  v100

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  iota_S1024x512_d1_w32 : S1024x512.Iotas .tc 32 [1]
  reduces_S1024x512_S1024 : S1024x512.Reduces [1] S1024
  shapeCasts_S1024_S1024x1 : S1024.ShapeCasts S1024x1
  natLt_1_32 : 1 < 32
  slices_S1024x512_o0_0_S1024x1 : S1024x512.Slices ![0, 0] S1024x1
  reduces_S1024x1_S1 : S1024x1.Reduces [0] S1
  shapeCasts_S1_S1x1 : S1.ShapeCasts S1x1
  broadcasts_S1024x1_S1024x512 : S1024x1.Broadcasts S1024x512
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S65536x512 : Shape := ⟨2, ![65536, 512]⟩
abbrev S_ : Shape := ⟨0, ![]⟩
abbrev S1 : Shape := ⟨1, ![1]⟩
abbrev S65536 : Shape := ⟨1, ![65536]⟩
abbrev S65536x1 : Shape := ⟨2, ![65536, 1]⟩

abbrev nBuf : Space → Nat
  | .hbm => 90
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S_, .i32⟩
  | .hbm, ⟨3, _⟩ => ⟨S1, .i32⟩
  | .hbm, ⟨4, _⟩ => ⟨S_, .f32⟩
  | .hbm, ⟨5, _⟩ => ⟨S65536, .f32⟩
  | .hbm, ⟨6, _⟩ => ⟨S65536x512, .f32⟩
  | .hbm, ⟨7, _⟩ => ⟨S_, .f32⟩
  | .hbm, ⟨8, _⟩ => ⟨S65536, .f32⟩
  | .hbm, ⟨9, _⟩ => ⟨S_, .f32⟩
  | .hbm, ⟨10, _⟩ => ⟨S65536, .f32⟩
  | .hbm, ⟨11, _⟩ => ⟨S65536, .i1⟩
  | .hbm, ⟨12, _⟩ => ⟨S65536, .f32⟩
  | .hbm, ⟨13, _⟩ => ⟨S65536x1, .f32⟩
  | .hbm, ⟨14, _⟩ => ⟨S65536, .f32⟩
  | .hbm, ⟨15, _⟩ => ⟨S65536, .f32⟩
  | .hbm, ⟨16, _⟩ => ⟨S65536, .f32⟩
  | .hbm, ⟨17, _⟩ => ⟨S_, .f32⟩
  | .hbm, ⟨18, _⟩ => ⟨S65536, .f32⟩
  | .hbm, ⟨19, _⟩ => ⟨S65536, .f32⟩
  | .hbm, ⟨20, _⟩ => ⟨S65536, .f32⟩
  | .hbm, ⟨21, _⟩ => ⟨S65536, .f32⟩
  | .hbm, ⟨22, _⟩ => ⟨S65536, .i1⟩
  | .hbm, ⟨23, _⟩ => ⟨S65536, .f32⟩
  | .hbm, ⟨24, _⟩ => ⟨S65536, .f32⟩
  | .hbm, ⟨25, _⟩ => ⟨S65536, .f32⟩
  | .hbm, ⟨26, _⟩ => ⟨S65536, .f32⟩
  | .hbm, ⟨27, _⟩ => ⟨S65536, .f32⟩
  | .hbm, ⟨28, _⟩ => ⟨S65536, .f32⟩
  | .hbm, ⟨29, _⟩ => ⟨S65536, .f32⟩
  | .hbm, ⟨30, _⟩ => ⟨S65536, .f32⟩
  | .hbm, ⟨31, _⟩ => ⟨S65536, .f32⟩
  | .hbm, ⟨32, _⟩ => ⟨S65536x512, .f32⟩
  | .hbm, ⟨33, _⟩ => ⟨S_, .f32⟩
  | .hbm, ⟨34, _⟩ => ⟨S65536x512, .f32⟩
  | .hbm, ⟨35, _⟩ => ⟨S65536x512, .f32⟩
  | .hbm, ⟨36, _⟩ => ⟨S65536x512, .f32⟩
  | .hbm, ⟨37, _⟩ => ⟨S65536x512, .f32⟩
  | .hbm, ⟨38, _⟩ => ⟨S65536x512, .i1⟩
  | .hbm, ⟨39, _⟩ => ⟨S65536x512, .f32⟩
  | .hbm, ⟨40, _⟩ => ⟨S65536x512, .f32⟩
  | .hbm, ⟨41, _⟩ => ⟨S65536x512, .f32⟩
  | .hbm, ⟨42, _⟩ => ⟨S65536x512, .f32⟩
  | .hbm, ⟨43, _⟩ => ⟨S65536x512, .f32⟩
  | .hbm, ⟨44, _⟩ => ⟨S65536x512, .f32⟩
  | .hbm, ⟨45, _⟩ => ⟨S65536x512, .f32⟩
  | .hbm, ⟨46, _⟩ => ⟨S65536x512, .f32⟩
  | .hbm, ⟨47, _⟩ => ⟨S65536x512, .f32⟩
  | .hbm, ⟨48, _⟩ => ⟨S65536x512, .f32⟩
  | .hbm, ⟨49, _⟩ => ⟨S_, .f32⟩
  | .hbm, ⟨50, _⟩ => ⟨S65536, .f32⟩
  | .hbm, ⟨51, _⟩ => ⟨S65536, .f32⟩
  | .hbm, ⟨52, _⟩ => ⟨S_, .f32⟩
  | .hbm, ⟨53, _⟩ => ⟨S65536, .f32⟩
  | .hbm, ⟨54, _⟩ => ⟨S65536, .f32⟩
  | .hbm, ⟨55, _⟩ => ⟨S65536, .f32⟩
  | .hbm, ⟨56, _⟩ => ⟨S_, .f32⟩
  | .hbm, ⟨57, _⟩ => ⟨S_, .f32⟩
  | .hbm, ⟨58, _⟩ => ⟨S65536, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S65536x512, .f32⟩
  | .hbm, ⟨65, _⟩ => ⟨S65536x512, .f32⟩
  | .hbm, ⟨66, _⟩ => ⟨S65536x512, .f32⟩
  | .hbm, ⟨67, _⟩ => ⟨S_, .f32⟩
  | .hbm, ⟨68, _⟩ => ⟨S65536, .f32⟩
  | .hbm, ⟨69, _⟩ => ⟨S_, .f32⟩
  | .hbm, ⟨70, _⟩ => ⟨S65536, .f32⟩
  | .hbm, ⟨71, _⟩ => ⟨S65536, .f32⟩
  | .hbm, ⟨72, _⟩ => ⟨S65536x1, .f32⟩
  | .hbm, ⟨73, _⟩ => ⟨S65536x512, .f32⟩
  | .hbm, ⟨74, _⟩ => ⟨S65536x512, .f32⟩
  | .hbm, ⟨75, _⟩ => ⟨S65536x512, .f32⟩
  | .hbm, ⟨76, _⟩ => ⟨S_, .f32⟩
  | .hbm, ⟨77, _⟩ => ⟨S65536, .f32⟩
  | .hbm, ⟨78, _⟩ => ⟨S65536x1, .f32⟩
  | .hbm, ⟨79, _⟩ => ⟨S65536x1, .f32⟩
  | .hbm, ⟨80, _⟩ => ⟨S65536x512, .f32⟩
  | .hbm, ⟨81, _⟩ => ⟨S65536x512, .f32⟩
  | .hbm, ⟨82, _⟩ => ⟨S65536x1, .f32⟩
  | .hbm, ⟨83, _⟩ => ⟨S65536, .f32⟩
  | .hbm, ⟨84, _⟩ => ⟨S65536, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v10 : Ref sig .tc := ⟨.hbm, 31, rfl⟩
abbrev main_call1_v0 : Ref sig .tc := ⟨.hbm, 32, rfl⟩
abbrev main_call1_call0_cst : Ref sig .tc := ⟨.hbm, 33, rfl⟩
abbrev main_call1_call0_v0 : Ref sig .tc := ⟨.hbm, 34, rfl⟩
abbrev main_call1_call0_v1 : Ref sig .tc := ⟨.hbm, 35, rfl⟩
abbrev main_call1_call0_v2 : Ref sig .tc := ⟨.hbm, 36, rfl⟩
abbrev main_call1_call0_v3 : Ref sig .tc := ⟨.hbm, 37, rfl⟩
abbrev main_call1_call0_v4 : Ref sig .tc := ⟨.hbm, 38, rfl⟩
abbrev main_call1_call0_v5 : Ref sig .tc := ⟨.hbm, 39, rfl⟩
abbrev main_call1_call0_v6 : Ref sig .tc := ⟨.hbm, 40, rfl⟩
abbrev main_call1_call0_v7 : Ref sig .tc := ⟨.hbm, 41, rfl⟩
abbrev main_call1_call0_v8 : Ref sig .tc := ⟨.hbm, 42, rfl⟩
abbrev main_call1_call0_v9 : Ref sig .tc := ⟨.hbm, 43, rfl⟩
abbrev main_call1_call0_v10 : Ref sig .tc := ⟨.hbm, 44, rfl⟩
abbrev main_call1_call0_v11 : Ref sig .tc := ⟨.hbm, 45, rfl⟩
abbrev main_call1_v1 : Ref sig .tc := ⟨.hbm, 46, rfl⟩
abbrev main_v11 : Ref sig .tc := ⟨.hbm, 47, rfl⟩
abbrev main_v12 : Ref sig .tc := ⟨.hbm, 48, rfl⟩
abbrev main_cst_2 : Ref sig .tc := ⟨.hbm, 49, rfl⟩
abbrev main_v13 : Ref sig .tc := ⟨.hbm, 50, rfl⟩
abbrev main_v14 : Ref sig .tc := ⟨.hbm, 51, rfl⟩
abbrev main_cst_3 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_cst_4 : Ref sig .tc := ⟨.hbm, 56, rfl⟩
abbrev main_v18 : Ref sig .tc := ⟨.hbm, 57, rfl⟩
abbrev main_v19 : Ref sig .tc := ⟨.hbm, 58, rfl⟩
abbrev main_cst_5 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_6 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_call2_cst : Ref sig .tc := ⟨.hbm, 67, rfl⟩
abbrev main_call2_v0 : Ref sig .tc := ⟨.hbm, 68, rfl⟩
abbrev main_call2_cst_0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_cst_1 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_cst_7 : Ref sig .tc := ⟨.hbm, 85, rfl⟩
abbrev main_v30 : Ref sig .tc := ⟨.hbm, 86, rfl⟩
abbrev main_cst_8 : Ref sig .tc := ⟨.hbm, 87, rfl⟩
abbrev main_v31 : Ref sig .tc := ⟨.hbm, 88, rfl⟩
abbrev main_v32 : Ref sig .tc := ⟨.hbm, 89, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S_S65536 : S_.BroadcastsInDim S65536 (![] : Fin 0 → Fin S65536.rank)
  reducesTo_S65536x512_S65536_d1 : S65536x512.ReducesTo [1] S65536
  h_S_ : 0 < S_.numel
  slices_S65536x512_S65536x1_0_0 : S65536x512.Slices ![0, 0] S65536x1
  shapeCasts_S65536x1_S65536 : S65536x1.ShapeCasts S65536
  bcast_S_S65536x512 : S_.BroadcastsInDim S65536x512 (![] : Fin 0 → Fin S65536x512.rank)
  reducesTo_S65536_S_d0 : S65536.ReducesTo [0] S_
  bcast_S65536_S65536x1_0 : S65536.BroadcastsInDim S65536x1 (![0] : Fin 1 → Fin S65536x1.rank)
  bcast_S65536x1_S65536x512_0_1 : S65536x1.BroadcastsInDim S65536x512 (![0, 1] : Fin 2 → Fin S65536x512.rank)
  scatter_S65536x512_S1_S65536_0_1_1_0_wf : ScatterDims.WF S65536x512 S1 S65536 [0] [1] [1] 0

variable [Facts₀]

def scatter_S65536x512_S1_S65536_0_1_1_0 : ScatterDims S65536x512 S1 S65536 where
  updateWindowDims := [0]
  insertedWindowDims := [1]
  scatterDimsToOperandDims := [1]
  indexVectorDim := 0
  wf := scatter_S65536x512_S1_S65536_0_1_1_0_wf

class Facts : Prop extends Facts₀ where

variable [Facts]
-- ==== Proof.Spec.lean ====
/-
  The multi-label adaptive-threshold loss as ONE function of the two argument arrays, on the extended reals,
  and the algebra that joins the two programs.

  A row is 512 logits x and 512 labels y; column 0 is the threshold class and its label is cleared (clip).
  pos is the row's label mass, mask whether it is positive. term = logsig(-x0) + sum_j clip(y)_j * logsig(x_j),
  with logsig(a) = -softplus(-a) and softplus(a) = max(a,0) + log1p(exp(-|a - 0|)) as both programs spell it.
  z_j = x_j - clip(y)_j * BIG masks the positive classes out of a log-sum-exp whose value at column 0 is the
  row's second loss. The kernel writes that as (m + L) - z0, the reference as -((z0 - m) - L), with m the row's
  maximum and L the log of the shifted exponentials' sum: equal once z0 and m are real.

  loss = -(S1 / Cnt) + S2 / 65536 for the kernel, (-S1) / Cnt + S2 / 65536 for the reference, S1, Cnt, S2 the
  sums over all rows. The quotient is x * y^-1 off a zero divisor, where negation moves through the product;
  at Cnt = 0 the two spellings differ (0/0 is the junk value, and its negation is not itself), which is the
  point the precondition's last conjunct keeps away.
-/
import Idealize.ShloMosaic.PureOps.Ideal
import Idealize.ShloMosaic.Lib.ValueIdx

noncomputable section

open scoped BigOperators

namespace Cert.Spec

open Idealize.ShloMosaic

/-- The penalty both programs subtract at a positive class: the f32 word of 1e30, read at its binary value. -/
abbrev BIG : EReal := Ideal.ofBits .f32 0x7149F2CA#32

/-- The batch size 65536 as both programs carry it. -/
abbrev NB : EReal := Ideal.ofBits .f32 0x47800000#32

/-! ## One row -/

/-- A row of labels with the threshold class (column 0) cleared. -/
def clip (y : Fin 512 → EReal) (j : Fin 512) : EReal := if j.val = 0 then 0 else y j

/-- softplus as both programs spell it: max(a, 0) + log1p(exp(-|a - 0|)), with |b| = max b (-b). -/
def sp (a : EReal) : EReal := max a 0 + Ideal.log1p (Ideal.exp (-(max (a - 0) (-(a - 0)))))

/-- log-sigmoid: -softplus(-a). -/
def ls (a : EReal) : EReal := -(sp (-a))

/-- The row's label mass off the threshold class. -/
def pos (y : Fin 512 → EReal) : EReal := ∑ j, clip y j

/-- Whether the row has positive label mass, as 0 or 1. -/
def mask (y : Fin 512 → EReal) : EReal := if 0 < pos y then 1 else 0

/-- The row's first-loss term before masking. -/
def term (x y : Fin 512 → EReal) : EReal := ls (-(x 0)) + ∑ j, clip y j * ls (x j)

/-- The row's contribution to the first loss's numerator. -/
def r1 (x y : Fin 512 → EReal) : EReal := mask y * term x y

/-- The row's contribution to the first loss's denominator. -/
def rc (y : Fin 512 → EReal) : EReal := mask y * (1 + pos y)

/-- The logits with the positive classes pushed down by BIG. -/
def z (x y : Fin 512 → EReal) (j : Fin 512) : EReal := x j - clip y j * BIG

/-- The row's maximum of z (from the bottom element, as both programs start it). -/
def mx (x y : Fin 512 → EReal) : EReal := Finset.univ.fold max ⊥ (z x y)

/-- log of the sum of the shifted exponentials. -/
def lse (x y : Fin 512 → EReal) : EReal := Ideal.log (∑ j, Ideal.exp (z x y j - mx x y))

/-- The row's second loss as the kernel writes it. -/
def r2k (x y : Fin 512 → EReal) : EReal := (mx x y + lse x y) - z x y 0

/-- The row's second loss as the reference writes it. -/
def r2r (x y : Fin 512 → EReal) : EReal := -((z x y 0 - mx x y) - lse x y)

/-! ## Rows of an array and of a tile -/

/-- An argument array [65536, 512] as its rows. -/
def rowsA (A : (⟨2, ![65536, 512]⟩ : Shape).Idx → EReal) : Fin 65536 → Fin 512 → EReal :=
  fun r j => A (ValueIdx.ix2 r j)

/-- Row i of a [1024, 512] tile. -/
def brow (x : (⟨2, ![1024, 512]⟩ : Shape).Idx → EReal) (i : Fin 1024) : Fin 512 → EReal :=
  fun j => x (ValueIdx.ix2 i j)

/-! ## All rows -/

variable (X Y : Fin 65536 → Fin 512 → EReal)

def S1 : EReal := ∑ r, r1 (X r) (Y r)
def Cnt : EReal := ∑ r, rc (Y r)
def S2k : EReal := ∑ r, r2k (X r) (Y r)
def S2r : EReal := ∑ r, r2r (X r) (Y r)

/-- The kernel's result. -/
def kernelVal : EReal := -(Ideal.div (S1 X Y) (Cnt Y)) + Ideal.div (S2k X Y) NB

/-- The reference's result. -/
def refVal : EReal := Ideal.div (-(S1 X Y)) (Cnt Y) + Ideal.div (S2r X Y) NB

/-! ## The kernel's grouping of the rows: 2 cores x 32 steps x 1024 rows -/

/-- Row i of tile t. -/
def rowOf (t : Fin 64) (i : Fin 1024) : Fin 65536 := ⟨1024 * t.val + i.val, by omega⟩

/-- Tile s of core p. -/
def tileOf (p : Fin 2) (s : Fin 32) : Fin 64 := ⟨32 * p.val + s.val, by omega⟩

/-- A sum over `Fin N` with `N = m * n`, read through any map whose value at `(a, b)` is `n * a + b`, is the
    iterated sum: the map is the standard bijection `Fin m × Fin n ≃ Fin (m * n)`, and a sum in a commutative monoid
    may be reindexed along a bijection. Nothing here lists the elements of `Fin N`. -/
theorem sum_fin_mul {M : Type*} [AddCommMonoid M] {m n N : ℕ} (hN : m * n = N) (e : Fin m → Fin n → Fin N)
    (he : ∀ a b, (e a b).val = n * a.val + b.val) (g : Fin N → M) :
    ∑ a : Fin m, ∑ b : Fin n, g (e a b) = ∑ r, g r := by
  subst hN
  rw [← Fintype.sum_prod_type']
  refine Fintype.sum_equiv finProdFinEquiv _ _ (fun x => ?_)
  congr 1
  apply Fin.ext
  rw [he]
  simp only [finProdFinEquiv, Equiv.coe_fn_mk]
  omega

/-- A sum over all rows is the sum over cores of the sum over steps of the sum over a tile's rows: addition on the
    extended reals is commutative and associative, so no finiteness is needed. -/
theorem regroup (f : Fin 65536 → EReal) :
    ∑ p : Fin 2, ∑ s : Fin 32, ∑ i : Fin 1024, f (rowOf (tileOf p s) i) = ∑ r, f r := by
  have h1 : ∑ t : Fin 64, ∑ i : Fin 1024, f (rowOf t i) = ∑ r, f r :=
    sum_fin_mul (by norm_num) rowOf (fun _ _ => rfl) f
  rw [← h1]
  exact sum_fin_mul (by norm_num) tileOf (fun _ _ => rfl) (fun t => ∑ i : Fin 1024, f (rowOf t i))

/-! ## The two spellings agree -/

/-- The word of 1e30 has a finite exponent field, so it denotes a real number. -/
theorem BIG_real : ∃ b : ℝ, BIG = (b : EReal) := by
  simp [BIG, Ideal.ofBits, Ideal.ieee, -EReal.coe_mul]

/-- A cleared label row is real wherever the labels are. -/
theorem clip_real (y : Fin 512 → EReal) (hy : ∀ j, ∃ a : ℝ, y j = (a : EReal)) (j : Fin 512) :
    ∃ c : ℝ, clip y j = (c : EReal) := by
  unfold clip
  split
  · exact ⟨0, EReal.coe_zero.symm⟩
  · exact hy j

/-- With real entries every masked logit is real: a real minus a product of reals. -/
theorem z_real (x y : Fin 512 → EReal) (hx : ∀ j, ∃ a : ℝ, x j = (a : EReal))
    (hy : ∀ j, ∃ a : ℝ, y j = (a : EReal)) (j : Fin 512) : ∃ a : ℝ, z x y j = (a : EReal) := by
  obtain ⟨a, ha⟩ := hx j
  obtain ⟨c, hc⟩ := clip_real y hy j
  obtain ⟨b, hb⟩ := BIG_real
  refine ⟨a - c * b, ?_⟩
  unfold z
  rw [ha, hc, hb, EReal.coe_sub, EReal.coe_mul]

/-- The running maximum, started at the bottom element, of a nonempty family of reals is a real: at each step
    it is the larger of two reals. -/
theorem fold_max_real (f : Fin 512 → EReal) (hf : ∀ j, ∃ a : ℝ, f j = (a : EReal)) (s : Finset (Fin 512))
    (hs : s.Nonempty) : ∃ a : ℝ, s.fold max ⊥ f = (a : EReal) := by
  induction hs using Finset.Nonempty.cons_induction with
  | singleton a =>
    obtain ⟨r, hr⟩ := hf a
    exact ⟨r, by rw [Finset.fold_singleton, hr, max_bot_right]⟩
  | cons a s ha hs ih =>
    obtain ⟨r, hr⟩ := hf a
    obtain ⟨t, ht⟩ := ih
    rw [Finset.fold_cons, hr, ht]
    rcases le_total r t with h | h
    · exact ⟨t, max_eq_right (EReal.coe_le_coe_iff.2 h)⟩
    · exact ⟨r, max_eq_left (EReal.coe_le_coe_iff.2 h)⟩

/-- The two spellings of the shifted difference agree for real m and z0 and ANY extended real L: at L = -∞ both
    sides are -∞, at L = +∞ both are +∞, and at a real L it is the identity (m + L) - z0 = -((z0 - m) - L) of the
    reals. -/
theorem shift_alg (m z0 : ℝ) (L : EReal) :
    ((m : EReal) + L) - (z0 : EReal) = -(((z0 : EReal) - (m : EReal)) - L) := by
  induction L using EReal.rec with
  | bot => rw [EReal.add_bot, EReal.bot_sub, ← EReal.coe_sub, EReal.coe_sub_bot, EReal.neg_top]
  | coe l =>
    rw [← EReal.coe_add, ← EReal.coe_sub, ← EReal.coe_sub, ← EReal.coe_sub, ← EReal.coe_neg]
    congr 1
    ring
  | top => rw [EReal.coe_add_top, EReal.top_sub_coe, ← EReal.coe_sub, EReal.sub_top, EReal.neg_bot]

/-- With real entries the two spellings of a row's second loss agree. -/
theorem r2k_eq_r2r (x y : Fin 512 → EReal) (hx : ∀ j, ∃ a : ℝ, x j = (a : EReal)) (hy : ∀ j, ∃ a : ℝ, y j = (a : EReal)) :
    r2k x y = r2r x y := by
  obtain ⟨z0, hz0⟩ := z_real x y hx hy 0
  obtain ⟨m, hm⟩ : ∃ m : ℝ, mx x y = (m : EReal) :=
    fold_max_real (z x y) (z_real x y hx hy) Finset.univ Finset.univ_nonempty
  unfold r2k r2r
  rw [hz0, hm]
  exact shift_alg m z0 (lse x y)

/-- Off a zero divisor the quotient is the product with the inverse. -/
theorem div_of_ne_zero (a b : EReal) (hb : b ≠ 0) : Ideal.div a b = a * b⁻¹ := by
  unfold Ideal.div
  rw [if_neg hb]

/-- With real entries and a nonzero count the two programs' results agree. -/
theorem main (hX : ∀ r j, ∃ a : ℝ, X r j = (a : EReal)) (hY : ∀ r j, ∃ a : ℝ, Y r j = (a : EReal))
    (hC : Cnt Y ≠ 0) : kernelVal X Y = refVal X Y := by
  have h2 : S2k X Y = S2r X Y :=
    Finset.sum_congr rfl (fun r _ => r2k_eq_r2r (X r) (Y r) (hX r) (hY r))
  unfold kernelVal refVal
  rw [h2, div_of_ne_zero _ _ hC, div_of_ne_zero _ _ hC, EReal.neg_mul]

end Cert.Spec

end
-- ==== Proof.RefTerm.lean ====
/-
  The reference's @main read as a function of its two argument arrays: every printed operation one `let`, in the
  printed order, with the operation's own function and the stated shape facts; the outlined functions (softplus,
  log-sigmoid, log-softmax) are functions of their argument, applied where @main calls them.

  x is the array of logits, y the array of labels, both [65536, 512].
  clipT clears column 0 of the labels (a scatter of zeros); posT is each row's label mass, maskT its positivity as
  0 or 1, countT the first loss's divisor. termT is each row's first-loss term, loss1T the first loss;
  zT the logits with the positive classes pushed down, loss2T the second loss; refTerm their sum.
-/
import proofs.«127174_j41180146434453_1_alg».proof.ReferenceIdeal

noncomputable section

namespace Cert.ReferenceIdeal.RefTerm

open Idealize.ShloMosaic Cert.ReferenceIdeal Cert.ReferenceIdeal.Facts₀

variable {F : FTy → Type} [FloatOps F] [Cert.ReferenceIdeal.Facts]

/-- %2: the labels with column 0 overwritten by zeros. -/
def clipT (y : FVec F S65536x512 .f32) : FVec F S65536x512 .f32 :=
  let main_c : IVec S_ 32 := constantI S_ 32 0#32
  let main_v0 : IVec S1 32 := broadcastInDim S1 ![] bcast_S_S1 main_c
  let main_cst : FVec F S_ .f32 := constant S_ .f32 0x00000000#32
  let main_v1 : FVec F S65536 .f32 := broadcastInDim S65536 ![] bcast_S_S65536 main_cst
  let main_v2 : FVec F S65536x512 .f32 := (fun x i u => Host.scatter scatter_S65536x512_S1_S65536_0_1_1_0 (fun _ b => b) x i u) y main_v0 main_v1
  main_v2

/-- %3: each row's sum of the cleared labels. -/
def posT (y : FVec F S65536x512 .f32) : FVec F S65536 .f32 :=
  let main_v2 : FVec F S65536x512 .f32 := clipT y
  let main_cst_0 : FVec F S_ .f32 := constant S_ .f32 0x00000000#32
  let main_v3 : FVec F S65536 .f32 := (fun x v => Host.reduceAdd x v reducesTo_S65536x512_S65536_d1 h_S_) main_v2 main_cst_0
  main_v3

/-- %6: whether each row's label mass is positive, as 0 or 1. -/
def maskT (y : FVec F S65536x512 .f32) : FVec F S65536 .f32 :=
  let main_v3 : FVec F S65536 .f32 := posT y
  let main_cst_1 : FVec F S_ .f32 := constant S_ .f32 0x00000000#32
  let main_v4 : FVec F S65536 .f32 := broadcastInDim S65536 ![] bcast_S_S65536 main_cst_1
  let main_v5 : IVec S65536 1 := cmpf .ogt main_v3 main_v4
  let main_v6 : FVec F S65536 .f32 := uitofp .f32 main_v5
  main_v6

/-- %18: the first loss's divisor, the sum over rows of mask * (1 + label mass). -/
def countT (y : FVec F S65536x512 .f32) : FVec F S_ .f32 :=
  let main_v3 : FVec F S65536 .f32 := posT y
  let main_v6 : FVec F S65536 .f32 := maskT y
  let main_cst_3 : FVec F S_ .f32 := constant S_ .f32 0x3F800000#32
  let main_v15 : FVec F S65536 .f32 := broadcastInDim S65536 ![] bcast_S_S65536 main_cst_3
  let main_v16 : FVec F S65536 .f32 := addf main_v15 main_v3
  let main_v17 : FVec F S65536 .f32 := mulf main_v6 main_v16
  let main_cst_4 : FVec F S_ .f32 := constant S_ .f32 0x00000000#32
  let main_v18 : FVec F S_ .f32 := (fun x v => Host.reduceAdd x v reducesTo_S65536_S_d0 h_S_) main_v17 main_cst_4
  main_v18

/-- @softplus's %12 on a vector of 65536 entries. -/
def softplus1 (a : FVec F S65536 .f32) : FVec F S65536 .f32 :=
  let cst : FVec F S_ .f32 := constant S_ .f32 0x00000000#32
  let v0 : FVec F S65536 .f32 := broadcastInDim S65536 ![] bcast_S_S65536 cst
  let v1 : FVec F S65536 .f32 := maximumf a v0
  let v2 : FVec F S65536 .f32 := broadcastInDim S65536 ![] bcast_S_S65536 cst
  let v3 : FVec F S65536 .f32 := subf a v2
  let v4 : IVec S65536 1 := cmpf .une v3 v3
  let v5 : FVec F S65536 .f32 := broadcastInDim S65536 ![] bcast_S_S65536 cst
  let v6 : FVec F S65536 .f32 := addf a v5
  let v7 : FVec F S65536 .f32 := Host.absf v3
  let v8 : FVec F S65536 .f32 := Host.negf v7
  let v9 : FVec F S65536 .f32 := Host.exp v8
  let v10 : FVec F S65536 .f32 := Host.log1p v9
  let v11 : FVec F S65536 .f32 := addf v1 v10
  let v12 : FVec F S65536 .f32 := select v4 v6 v11
  v12

/-- @log_sigmoid's %2 on a vector of 65536 entries. -/
def logsig1 (a : FVec F S65536 .f32) : FVec F S65536 .f32 :=
  let v0 : FVec F S65536 .f32 := Host.negf a
  let v1 : FVec F S65536 .f32 := softplus1 v0
  let v2 : FVec F S65536 .f32 := Host.negf v1
  v2

/-- @softplus_1's %12 on a [65536, 512] array. -/
def softplus2 (a : FVec F S65536x512 .f32) : FVec F S65536x512 .f32 :=
  let cst : FVec F S_ .f32 := constant S_ .f32 0x00000000#32
  let v0 : FVec F S65536x512 .f32 := broadcastInDim S65536x512 ![] bcast_S_S65536x512 cst
  let v1 : FVec F S65536x512 .f32 := maximumf a v0
  let v2 : FVec F S65536x512 .f32 := broadcastInDim S65536x512 ![] bcast_S_S65536x512 cst
  let v3 : FVec F S65536x512 .f32 := subf a v2
  let v4 : IVec S65536x512 1 := cmpf .une v3 v3
  let v5 : FVec F S65536x512 .f32 := broadcastInDim S65536x512 ![] bcast_S_S65536x512 cst
  let v6 : FVec F S65536x512 .f32 := addf a v5
  let v7 : FVec F S65536x512 .f32 := Host.absf v3
  let v8 : FVec F S65536x512 .f32 := Host.negf v7
  let v9 : FVec F S65536x512 .f32 := Host.exp v8
  let v10 : FVec F S65536x512 .f32 := Host.log1p v9
  let v11 : FVec F S65536x512 .f32 := addf v1 v10
  let v12 : FVec F S65536x512 .f32 := select v4 v6 v11
  v12

/-- @log_sigmoid_0's %2 on a [65536, 512] array. -/
def logsig2 (a : FVec F S65536x512 .f32) : FVec F S65536x512 .f32 :=
  let v0 : FVec F S65536x512 .f32 := Host.negf a
  let v1 : FVec F S65536x512 .f32 := softplus2 v0
  let v2 : FVec F S65536x512 .f32 := Host.negf v1
  v2

/-- %14: each row's first-loss term, logsig(-x at column 0) + the row sum of cleared label * logsig(x). -/
def termT (x y : FVec F S65536x512 .f32) : FVec F S65536 .f32 :=
  let main_v2 : FVec F S65536x512 .f32 := clipT y
  let main_v7 : FVec F S65536x1 .f32 := (extractStridedSlice S65536x1 ![0, 0] · slices_S65536x512_S65536x1_0_0) x
  let main_v8 : FVec F S65536 .f32 := shapeCast S65536 main_v7 shapeCasts_S65536x1_S65536
  let main_v9 : FVec F S65536 .f32 := Host.negf main_v8
  let main_v10 : FVec F S65536 .f32 := logsig1 main_v9
  let main_v11 : FVec F S65536x512 .f32 := logsig2 x
  let main_v12 : FVec F S65536x512 .f32 := mulf main_v2 main_v11
  let main_cst_2 : FVec F S_ .f32 := constant S_ .f32 0x00000000#32
  let main_v13 : FVec F S65536 .f32 := (fun x v => Host.reduceAdd x v reducesTo_S65536x512_S65536_d1 h_S_) main_v12 main_cst_2
  let main_v14 : FVec F S65536 .f32 := addf main_v10 main_v13
  main_v14

/-- %22: the first loss, -(sum over rows of mask * term) / divisor. -/
def loss1T (x y : FVec F S65536x512 .f32) : FVec F S_ .f32 :=
  let main_v6 : FVec F S65536 .f32 := maskT y
  let main_v14 : FVec F S65536 .f32 := termT x y
  let main_v18 : FVec F S_ .f32 := countT y
  let main_v19 : FVec F S65536 .f32 := mulf main_v6 main_v14
  let main_cst_5 : FVec F S_ .f32 := constant S_ .f32 0x00000000#32
  let main_v20 : FVec F S_ .f32 := (fun x v => Host.reduceAdd x v reducesTo_S65536_S_d0 h_S_) main_v19 main_cst_5
  let main_v21 : FVec F S_ .f32 := Host.negf main_v20
  let main_v22 : FVec F S_ .f32 := Host.divf main_v21 main_v18
  main_v22

/-- %25: the logits minus cleared label * 1e30. -/
def zT (x y : FVec F S65536x512 .f32) : FVec F S65536x512 .f32 :=
  let main_v2 : FVec F S65536x512 .f32 := clipT y
  let main_cst_6 : FVec F S_ .f32 := constant S_ .f32 0x7149F2CA#32
  let main_v23 : FVec F S65536x512 .f32 := broadcastInDim S65536x512 ![] bcast_S_S65536x512 main_cst_6
  let main_v24 : FVec F S65536x512 .f32 := mulf main_v2 main_v23
  let main_v25 : FVec F S65536x512 .f32 := subf x main_v24
  main_v25

/-- @log_softmax's %11: a - rowmax(a) - log(rowsum(exp(a - rowmax(a)))), the row maximum started at -infinity. -/
def logsoftmaxT (a : FVec F S65536x512 .f32) : FVec F S65536x512 .f32 :=
  let cst : FVec F S_ .f32 := constant S_ .f32 0xFF800000#32
  let v0 : FVec F S65536 .f32 := (fun x v => Host.reduce FloatOps.maximumf x v reducesTo_S65536x512_S65536_d1 h_S_) a cst
  let cst_0 : FVec F S_ .f32 := constant S_ .f32 0xFF800000#32
  let v1 : FVec F S65536 .f32 := broadcastInDim S65536 ![] bcast_S_S65536 cst_0
  let v2 : FVec F S65536 .f32 := maximumf v1 v0
  let v3 : FVec F S65536x1 .f32 := broadcastInDim S65536x1 ![0] bcast_S65536_S65536x1_0 v2
  let v4 : FVec F S65536x512 .f32 := broadcastInDim S65536x512 ![0, 1] bcast_S65536x1_S65536x512_0_1 v3
  let v5 : FVec F S65536x512 .f32 := subf a v4
  let v6 : FVec F S65536x512 .f32 := Host.exp v5
  let cst_1 : FVec F S_ .f32 := constant S_ .f32 0x00000000#32
  let v7 : FVec F S65536 .f32 := (fun x v => Host.reduceAdd x v reducesTo_S65536x512_S65536_d1 h_S_) v6 cst_1
  let v8 : FVec F S65536x1 .f32 := broadcastInDim S65536x1 ![0] bcast_S65536_S65536x1_0 v7
  let v9 : FVec F S65536x1 .f32 := Host.log v8
  let v10 : FVec F S65536x512 .f32 := broadcastInDim S65536x512 ![0, 1] bcast_S65536x1_S65536x512_0_1 v9
  let v11 : FVec F S65536x512 .f32 := subf v5 v10
  v11

/-- %31: the second loss, (sum over rows of -(log-softmax of z at column 0)) / 65536. -/
def loss2T (x y : FVec F S65536x512 .f32) : FVec F S_ .f32 :=
  let main_v25 : FVec F S65536x512 .f32 := zT x y
  let main_v26 : FVec F S65536x512 .f32 := logsoftmaxT main_v25
  let main_v27 : FVec F S65536x1 .f32 := (extractStridedSlice S65536x1 ![0, 0] · slices_S65536x512_S65536x1_0_0) main_v26
  let main_v28 : FVec F S65536 .f32 := shapeCast S65536 main_v27 shapeCasts_S65536x1_S65536
  let main_v29 : FVec F S65536 .f32 := Host.negf main_v28
  let main_cst_7 : FVec F S_ .f32 := constant S_ .f32 0x00000000#32
  let main_v30 : FVec F S_ .f32 := (fun x v => Host.reduceAdd x v reducesTo_S65536_S_d0 h_S_) main_v29 main_cst_7
  let main_cst_8 : FVec F S_ .f32 := constant S_ .f32 0x47800000#32
  let main_v31 : FVec F S_ .f32 := Host.divf main_v30 main_cst_8
  main_v31

/-- %32: the reference's result, the first loss plus the second. -/
def refTerm (x y : FVec F S65536x512 .f32) : FVec F S_ .f32 :=
  addf (loss1T x y) (loss2T x y)

end Cert.ReferenceIdeal.RefTerm

end
-- ==== Proof.PreFacts.lean ====
/-
  What the precondition gives: every entry of the two argument arrays is a real number, and the reference's divisor
  count is not zero.

  The precondition is the conjunction of three bits: all |X| < +inf, all |Y| < +inf, and count != 0. Each "all" is a
  reduction by "and" from 1 over every index, so the bit being 1 gives the compared bit 1 at each index; on the
  extended reals max x (-x) < +inf holds exactly off the two infinities, where x is a real. The count is computed by
  the reference's own operations in the reference's order, so it is the reference's divisor term, whose value is the
  sum over rows of mask * (1 + label mass).
-/
import proofs.«127174_j41180146434453_1_alg».proof.Proof.Gen.Pre_finite_inputs
import proofs.«127174_j41180146434453_1_alg».proof.Proof.Gen.ReferenceIdeal
import proofs.«127174_j41180146434453_1_alg».proof.Proof.Spec
import proofs.«127174_j41180146434453_1_alg».proof.Proof.RefTerm
import Idealize.ShloMosaic.Lib.ReduceAll
import Idealize.ShloMosaic.PureOps.Ideal.Laws

noncomputable section

namespace Cert.PreFacts

open Idealize.ShloMosaic
open Cert.Pre_finite_inputs

/-- The scalar shape has one index. -/
instance : Subsingleton S_.Idx := ⟨fun a b => funext fun d => d.elim0⟩

/-- The f32 word 0x7F800000 denotes +inf. -/
theorem inf_word : Ideal.ofBits .f32 0x7F800000#32 = (⊤ : EReal) := by
  simp [Ideal.ofBits, Ideal.ieee]

/-- The f32 word 0 denotes 0. -/
theorem zero_word : Ideal.ofBits .f32 0x00000000#32 = (0 : EReal) := by
  simp [Ideal.ofBits, Ideal.ieee]

/-- An extended real whose absolute value is below +inf is a real. -/
theorem real_of_abs_lt (x : EReal) (hx : Ideal.cmp .olt (max x (-x)) ⊤ = 1#1) : ∃ a : ℝ, x = (a : EReal) := by
  induction x using EReal.rec with
  | bot => simp [Ideal.cmp] at hx
  | top => simp [Ideal.cmp] at hx
  | coe a => exact ⟨a, rfl⟩

/-- The three conjuncts of the precondition: the first two read at every index, the third as a statement about the
    reference's divisor term. -/
theorem conjuncts (X Y : FVec Ideal S65536x512 .f32) (h : fn (F := Ideal) X Y = fun _ => 1#1) :
    (∀ i, Ideal.cmp .olt (max (X i) (-(X i))) ⊤ = 1#1) ∧
    (∀ i, Ideal.cmp .olt (max (Y i) (-(Y i))) ⊤ = 1#1) ∧
    Cert.ReferenceIdeal.RefTerm.countT (F := Ideal) Y ValueIdx.ix0 ≠ 0 := by
  have h0 := congrFun h ValueIdx.ix0
  dsimp only [fn, fn_part1] at h0
  obtain ⟨h12, h3⟩ := IntOp.andi_eq_one.1 h0
  obtain ⟨h1, h2⟩ := IntOp.andi_eq_one.1 h12
  have a1 := fun i => Host.reduce_andi_all _ _ _ _ _ h1 i
  have a2 := fun i => Host.reduce_andi_all _ _ _ _ _ h2 i
  refine ⟨fun i => ?_, fun i => ?_, ?_⟩
  · have e := a1 i
    rw [ValueIdx.cmpf_apply, Ideal.cmpf_def] at e
    have e' : Ideal.cmp .olt (max (X i) (-(X i))) (Ideal.ofBits .f32 0x7F800000#32) = 1#1 := e
    rwa [inf_word] at e'
  · have e := a2 i
    rw [ValueIdx.cmpf_apply, Ideal.cmpf_def] at e
    have e' : Ideal.cmp .olt (max (Y i) (-(Y i))) (Ideal.ofBits .f32 0x7F800000#32) = 1#1 := e
    rwa [inf_word] at e'
  · rw [ValueIdx.cmpf_apply, Ideal.cmpf_def, ValueIdx.constant_apply, zero_word] at h3
    have e' : Ideal.cmp .une (Cert.ReferenceIdeal.RefTerm.countT (F := Ideal) Y ValueIdx.ix0) 0 = 1#1 := h3
    intro hz
    rw [hz] at e'
    simp [Ideal.cmp] at e'

theorem real0 (X Y : FVec Ideal S65536x512 .f32) (h : fn (F := Ideal) X Y = fun _ => 1#1) :
    ∀ (r : Fin 65536) (j : Fin 512), ∃ a : ℝ, Cert.Spec.rowsA X r j = (a : EReal) :=
  fun r j => real_of_abs_lt _ ((conjuncts X Y h).1 (ValueIdx.ix2 r j))

theorem real1 (X Y : FVec Ideal S65536x512 .f32) (h : fn (F := Ideal) X Y = fun _ => 1#1) :
    ∀ (r : Fin 65536) (j : Fin 512), ∃ a : ℝ, Cert.Spec.rowsA Y r j = (a : EReal) :=
  fun r j => real_of_abs_lt _ ((conjuncts X Y h).2.1 (ValueIdx.ix2 r j))

/-- The count is not zero, given the value of the reference's divisor term. -/
theorem count_ne_of (X Y : FVec Ideal S65536x512 .f32) (h : fn (F := Ideal) X Y = fun _ => 1#1)
    (hc : Cert.ReferenceIdeal.RefTerm.countT (F := Ideal) Y = fun _ => Cert.Spec.Cnt (Cert.Spec.rowsA Y)) :
    Cert.Spec.Cnt (Cert.Spec.rowsA Y) ≠ 0 := by
  have h3 := (conjuncts X Y h).2.2
  rw [hc] at h3
  exact h3

end Cert.PreFacts
end
-- ==== Proof.KValPieces.lean ====
/-
  What each control case of the kernel's body leaves in the three carried cells and in the three output blocks,
  read off the pieces the body's run found: a cell ends at its update applied to the tile's two blocks and to what
  it held (the reset's zero at a core's first step), and at a core's last step each output block is the copy of
  its cell. Any float model.
-/
import proofs.«127174_j41180146434453_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

/-- The first cell's update: what it held plus the tile's numerator sum, as the body's payloads compose. -/
abbrev upd0 (x y : Vec F S1024x512 .f32) (acc : Vec F S1x1 .f32) : Vec F S1x1 .f32 :=
  k0_pay13 (k0_pay10 y) (k0_pay11 x y) (k0_pay12 x) (Scalar.ofBits .f32 0x00000000#32) acc
/-- The second cell's update: what it held plus the tile's denominator sum. -/
abbrev upd1 (y : Vec F S1024x512 .f32) (acc : Vec F S1x1 .f32) : Vec F S1x1 .f32 :=
  k0_pay14 (k0_pay9 y) (k0_pay10 y) acc
/-- The third cell's update: what it held plus the tile's second-loss sum. -/
abbrev upd2 (x y : Vec F S1024x512 .f32) (acc : Vec F S1x1 .f32) : Vec F S1x1 .f32 :=
  k0_pay1 (k0_pay15 x (k0_pay8 y)) (k0_pay16 x (k0_pay8 y)) acc

theorem hz2 : (![0, 0] : Fin 2 → Nat) = fun _ => 0 := funext fun a => by fin_cases a <;> rfl
theorem hz3 : (![0, 0, 0] : Fin 3 → Nat) = fun _ => 0 := funext fun a => by fin_cases a <;> rfl

/-- First step of a core: cell 0 is reset, then updated with the tile. -/
theorem sA0 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 x1 : Vec F S1024x512 .f32) :
    sout0_A_0 c i arg2 harg2 arg3 harg3 arg4 harg4 arg5 harg5 arg6 harg6 arg7 harg7 arg8 harg8 arg9 harg9 hc0 hc1 x0 x1 = upd0 x0 x1 k0_pay5 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg7.read_unread, harg8.read_unread, harg9.read_unread, View.ld_unit_zero (S := S1024x512) hz2, View.ld_unit_zero (S := S1x1) hz2]

/-- A middle step: cell 0 is updated with the tile on top of what the step before left. -/
theorem sB0 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 x1 : Vec F S1024x512 .f32) (xs0 xs1 xs2 : Vec F S1x1 .f32) :
    sout0_B_0 c i arg2 harg2 arg3 harg3 arg4 harg4 arg5 harg5 arg6 harg6 arg7 harg7 arg8 harg8 arg9 harg9 hc0 hc1 x0 x1 xs0 xs1 xs2 = upd0 x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero (S := S1x1) hz2]
  simp only [View.readAt_eq_ld, harg2.read_unread, harg3.read_unread, harg7.read_unread, harg8.read_unread, harg9.read_unread, View.ld_unit_zero (S := S1024x512) hz2, View.ld_unit_zero (S := S1x1) hz2]

/-- The last step of a core: cell 0 is updated as in a middle step. -/
theorem sC0 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 x1 : Vec F S1024x512 .f32) (xs0 xs1 xs2 : Vec F S1x1 .f32) :
    sout0_C_0 c i arg2 harg2 arg3 harg3 arg4 harg4 arg5 harg5 arg6 harg6 arg7 harg7 arg8 harg8 arg9 harg9 hc0 hc1 x0 x1 xs0 xs1 xs2 = upd0 x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero (S := S1x1) hz2]
  simp only [View.readAt_eq_ld, harg2.read_unread, harg3.read_unread, harg7.read_unread, harg8.read_unread, harg9.read_unread, View.ld_unit_zero (S := S1024x512) hz2, View.ld_unit_zero (S := S1x1) hz2]

/-- The last step of a core: output 0's block is the copy of cell 0 after its update. -/
theorem oC0 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 x1 : Vec F S1024x512 .f32) (xs0 xs1 xs2 : Vec F S1x1 .f32) :
    out0_C_2 c i arg2 harg2 arg3 harg3 arg4 harg4 arg5 harg5 arg6 harg6 arg7 harg7 arg8 harg8 arg9 harg9 hc0 hc1 x0 x1 xs0 xs1 xs2 = k0_pay2 (upd0 x0 x1 xs0) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero (S := S1x1x1) hz3]
  simp only [View.readCov_unit_zero (S := S1x1) _ hz2, View.readAt_eq_ld, harg2.read_unread, harg3.read_unread, harg7.read_unread, harg8.read_unread, harg9.read_unread, View.ld_unit_zero (S := S1024x512) hz2, View.ld_unit_zero (S := S1x1) hz2]

/-- First step of a core: cell 1 is reset, then updated with the tile. -/
theorem sA1 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 x1 : Vec F S1024x512 .f32) :
    sout0_A_1 c i arg2 harg2 arg3 harg3 arg4 harg4 arg5 harg5 arg6 harg6 arg7 harg7 arg8 harg8 arg9 harg9 hc0 hc1 x0 x1 = upd1 x1 k0_pay6 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg7.read_unread, harg8.read_unread, harg9.read_unread, View.ld_unit_zero (S := S1024x512) hz2, View.ld_unit_zero (S := S1x1) hz2]

/-- A middle step: cell 1 is updated with the tile on top of what the step before left. -/
theorem sB1 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 x1 : Vec F S1024x512 .f32) (xs0 xs1 xs2 : Vec F S1x1 .f32) :
    sout0_B_1 c i arg2 harg2 arg3 harg3 arg4 harg4 arg5 harg5 arg6 harg6 arg7 harg7 arg8 harg8 arg9 harg9 hc0 hc1 x0 x1 xs0 xs1 xs2 = upd1 x1 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero (S := S1x1) hz2]
  simp only [View.readAt_eq_ld, harg2.read_unread, harg3.read_unread, harg7.read_unread, harg8.read_unread, harg9.read_unread, View.ld_unit_zero (S := S1024x512) hz2, View.ld_unit_zero (S := S1x1) hz2]

/-- The last step of a core: cell 1 is updated as in a middle step. -/
theorem sC1 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 x1 : Vec F S1024x512 .f32) (xs0 xs1 xs2 : Vec F S1x1 .f32) :
    sout0_C_1 c i arg2 harg2 arg3 harg3 arg4 harg4 arg5 harg5 arg6 harg6 arg7 harg7 arg8 harg8 arg9 harg9 hc0 hc1 x0 x1 xs0 xs1 xs2 = upd1 x1 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero (S := S1x1) hz2]
  simp only [View.readAt_eq_ld, harg2.read_unread, harg3.read_unread, harg7.read_unread, harg8.read_unread, harg9.read_unread, View.ld_unit_zero (S := S1024x512) hz2, View.ld_unit_zero (S := S1x1) hz2]

/-- The last step of a core: output 1's block is the copy of cell 1 after its update. -/
theorem oC1 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 x1 : Vec F S1024x512 .f32) (xs0 xs1 xs2 : Vec F S1x1 .f32) :
    out0_C_3 c i arg2 harg2 arg3 harg3 arg4 harg4 arg5 harg5 arg6 harg6 arg7 harg7 arg8 harg8 arg9 harg9 hc0 hc1 x0 x1 xs0 xs1 xs2 = k0_pay3 (upd1 x1 xs1) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero (S := S1x1x1) hz3]
  simp only [View.readCov_unit_zero (S := S1x1) _ hz2, View.readAt_eq_ld, harg2.read_unread, harg3.read_unread, harg7.read_unread, harg8.read_unread, harg9.read_unread, View.ld_unit_zero (S := S1024x512) hz2, View.ld_unit_zero (S := S1x1) hz2]

/-- First step of a core: cell 2 is reset, then updated with the tile. -/
theorem sA2 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 x1 : Vec F S1024x512 .f32) :
    sout0_A_2 c i arg2 harg2 arg3 harg3 arg4 harg4 arg5 harg5 arg6 harg6 arg7 harg7 arg8 harg8 arg9 harg9 hc0 hc1 x0 x1 = upd2 x0 x1 k0_pay7 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg7.read_unread, harg8.read_unread, harg9.read_unread, View.ld_unit_zero (S := S1024x512) hz2, View.ld_unit_zero (S := S1x1) hz2]

/-- A middle step: cell 2 is updated with the tile on top of what the step before left. -/
theorem sB2 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 x1 : Vec F S1024x512 .f32) (xs0 xs1 xs2 : Vec F S1x1 .f32) :
    sout0_B_2 c i arg2 harg2 arg3 harg3 arg4 harg4 arg5 harg5 arg6 harg6 arg7 harg7 arg8 harg8 arg9 harg9 hc0 hc1 x0 x1 xs0 xs1 xs2 = upd2 x0 x1 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero (S := S1x1) hz2]
  simp only [View.readAt_eq_ld, harg2.read_unread, harg3.read_unread, harg7.read_unread, harg8.read_unread, harg9.read_unread, View.ld_unit_zero (S := S1024x512) hz2, View.ld_unit_zero (S := S1x1) hz2]

/-- The last step of a core: cell 2 is updated as in a middle step. -/
theorem sC2 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 x1 : Vec F S1024x512 .f32) (xs0 xs1 xs2 : Vec F S1x1 .f32) :
    sout0_C_2 c i arg2 harg2 arg3 harg3 arg4 harg4 arg5 harg5 arg6 harg6 arg7 harg7 arg8 harg8 arg9 harg9 hc0 hc1 x0 x1 xs0 xs1 xs2 = upd2 x0 x1 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero (S := S1x1) hz2]
  simp only [View.readAt_eq_ld, harg2.read_unread, harg3.read_unread, harg7.read_unread, harg8.read_unread, harg9.read_unread, View.ld_unit_zero (S := S1024x512) hz2, View.ld_unit_zero (S := S1x1) hz2]

/-- The last step of a core: output 2's block is the copy of cell 2 after its update. -/
theorem oC2 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 x1 : Vec F S1024x512 .f32) (xs0 xs1 xs2 : Vec F S1x1 .f32) :
    out0_C_4 c i arg2 harg2 arg3 harg3 arg4 harg4 arg5 harg5 arg6 harg6 arg7 harg7 arg8 harg8 arg9 harg9 hc0 hc1 x0 x1 xs0 xs1 xs2 = k0_pay4 (upd2 x0 x1 xs2) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero (S := S1x1x1) hz3]
  simp only [View.readCov_unit_zero (S := S1x1) _ hz2, View.readAt_eq_ld, harg2.read_unread, harg3.read_unread, harg7.read_unread, harg8.read_unread, harg9.read_unread, View.ld_unit_zero (S := S1024x512) hz2, View.ld_unit_zero (S := S1x1) hz2]

end Cert.KernelIdeal.KVal
end
-- ==== Proof.KPay.lean ====
/-
  What each store of the kernel's body writes, at the ideal instance, as a function of the tile's rows:
  the three accumulators take the tile's sums of the rows' contributions (numerator, denominator, second loss)
  on top of what they held; the resets write zero; the final stores copy the accumulators out.

  The road: the layout operations of a [1024,512] tile read at coordinates (a vector kept as a column, a column
  broadcast along the lanes, column 0 cut out, the one-entry casts), the three reductions as a row's sum, a row's
  maximum from the bottom element and a column's sum, the guarded softplus and the 0/1 mask at one element, then
  each intermediate value of the body at (row, lane) in the terms of the row functions clip, pos, mask, ls, z, mx.
-/
import proofs.«127174_j41180146434453_1_alg».proof.Proof.Gen.KernelIdeal.Skeleton
import proofs.«127174_j41180146434453_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.KPay

open Idealize.ShloMosaic Idealize.ShloMosaic.ValueIdx Cert.KernelIdeal Cert.KernelIdeal.Gen Cert.Spec

/-! ## Layout operations of the tile read at coordinates -/

section Layout
variable {α : Type}

/-- A [1024] vector kept as a column reads its row. -/
theorem col_of_vec_apply (v : S1024.Idx → α) (h : S1024.ShapeCasts S1024x1) (i : Fin 1024) (q : Fin 1) :
    shapeCast S1024x1 v h (ix2 i q) = v (ix1 i) :=
  shapeCast_apply v h _ _ (by
    have hq : q.val = 0 := by omega
    rw [Shape.rowMajor_val_one, Shape.rowMajor_val_two]
    show i.val = i.val * 1 + q.val
    omega)

/-- A one-entry vector kept as a [1,1] tile reads its entry. -/
theorem one_of_vec_apply (v : S1.Idx → α) (h : S1.ShapeCasts S1x1) (p q : Fin 1) :
    shapeCast S1x1 v h (ix2 p q) = v (ix1 0) :=
  shapeCast_apply v h _ _ (by
    have hp : p.val = 0 := by omega
    have hq : q.val = 0 := by omega
    rw [Shape.rowMajor_val_one, Shape.rowMajor_val_two]
    show 0 = p.val * 1 + q.val
    omega)

/-- A [1,1] tile kept as a [1,1,1] block reads its entry. -/
theorem block_of_one_apply (v : S1x1.Idx → α) (h : S1x1.ShapeCasts S1x1x1) (j : S1x1x1.Idx) :
    shapeCast S1x1x1 v h j = v (ix2 0 0) :=
  shapeCast_apply v h _ _ (by
    have h0 : (j 0).val = 0 := Nat.lt_one_iff.mp (j 0).isLt
    have h1 : (j 1).val = 0 := Nat.lt_one_iff.mp (j 1).isLt
    have h2 : (j 2).val = 0 := Nat.lt_one_iff.mp (j 2).isLt
    rw [Shape.rowMajor_val_two, Shape.rowMajor_val_three]
    show 0 * 1 + 0 = ((j 0).val * 1 + (j 1).val) * 1 + (j 2).val
    omega)

/-- A column broadcast along the lanes reads the column at its row. -/
theorem lanes_of_col_apply (v : S1024x1.Idx → α) (h : S1024x1.Broadcasts S1024x512) (i : Fin 1024) (j : Fin 512) :
    broadcastTo S1024x512 v h (ix2 i j) = v (ix2 i 0) := by
  refine broadcastTo_apply v h (ix2 i j) (ix2 i (0 : Fin 1)) fun ax => ?_
  match ax with
  | ⟨0, _⟩ => rfl
  | ⟨1, _⟩ => rfl

/-- Column 0 of the tile, cut out as a column. -/
theorem col0_apply (v : S1024x512.Idx → α) (h : S1024x512.Slices ![0, 0] S1024x1) (i : Fin 1024) (q : Fin 1) :
    extractStridedSlice S1024x1 ![0, 0] v h (ix2 i q) = v (ix2 i 0) := by
  refine extractStridedSlice_apply ![0, 0] v h (ix2 i q) (ix2 i (0 : Fin 512)) fun ax => ?_
  have hq : q.val = 0 := by omega
  match ax with
  | ⟨0, _⟩ => show i.val = 0 + i.val; omega
  | ⟨1, _⟩ => show 0 = 0 + q.val; omega

end Layout

/-! ## The three reductions read at coordinates -/

/-- A lane sum is the sum of the row. -/
theorem lane_sum_apply (v : FVec Ideal S1024x512 .f32) (h : S1024x512.Reduces [1] S1024) (hφ : FKind.Formats .f32)
    (hacc : (0x00000000#32 : BitVec 32) = FKind.add.neutral .f32 hφ) (i : Fin 1024) :
    multiReduction .add [1] S1024 v 0x00000000#32 h hφ hacc (ix1 i) = ∑ j : Fin 512, v (ix2 i j) := by
  refine (Ideal.multiReduction_add_single v 0x00000000#32 h hφ hacc (ix1 i)).trans ?_
  refine Finset.sum_congr rfl fun j _ => congrArg v ?_
  funext a
  match a with
  | ⟨0, _⟩ => exact Fin.ext rfl
  | ⟨1, _⟩ => exact Fin.ext rfl

/-- The sum down the one column of a [1024,1] tile. -/
theorem col_sum_apply (v : FVec Ideal S1024x1 .f32) (h : S1024x1.Reduces [0] S1) (hφ : FKind.Formats .f32)
    (hacc : (0x00000000#32 : BitVec 32) = FKind.add.neutral .f32 hφ) :
    multiReduction .add [0] S1 v 0x00000000#32 h hφ hacc (ix1 0) = ∑ i : Fin 1024, v (ix2 i 0) := by
  refine (Ideal.multiReduction_add_single v 0x00000000#32 h hφ hacc (ix1 0)).trans ?_
  refine Finset.sum_congr rfl fun i _ => congrArg v ?_
  funext a
  match a with
  | ⟨0, _⟩ => exact Fin.ext rfl
  | ⟨1, _⟩ => exact Fin.ext rfl

/-- The word of minus infinity is the bottom element. -/
theorem bot_word : Ideal.ofBits .f32 0xFF800000#32 = (⊥ : EReal) := by simp [Ideal.ofBits, Ideal.ieee]

/-- The word of one is one. -/
theorem one_word : Ideal.ofBits .f32 0x3F800000#32 = (1 : EReal) := by
  simp [Ideal.ofBits, Ideal.ieee, -EReal.coe_mul]; norm_num

/-- A lane maximum is the fold of max over the row from the bottom element. -/
theorem lane_max_apply (v : FVec Ideal S1024x512 .f32) (h : S1024x512.Reduces [1] S1024) (hφ : FKind.Formats .f32)
    (hacc : (0xFF800000#32 : BitVec 32) = FKind.maximumf.neutral .f32 hφ) (i : Fin 1024) :
    multiReduction .maximumf [1] S1024 v 0xFF800000#32 h hφ hacc (ix1 i)
      = (Finset.univ : Finset (Fin 512)).fold max ⊥ (fun j => v (ix2 i j)) := by
  refine (Ideal.multiReduction_maximumf_single v 0xFF800000#32 h hφ hacc (ix1 i)).trans ?_
  show (Finset.univ : Finset (Fin 512)).fold max (Ideal.ofBits .f32 0xFF800000#32) (fun j => v (h.lift (ix1 i) j)) = _
  rw [bot_word]
  refine congrArg (fun f => (Finset.univ : Finset (Fin 512)).fold max ⊥ f) (funext fun j => congrArg v ?_)
  funext a
  match a with
  | ⟨0, _⟩ => exact Fin.ext rfl
  | ⟨1, _⟩ => exact Fin.ext rfl

/-! ## Elements -/

/-- The guarded softplus at one element: the guard a ≠ a never holds, so the select keeps max(a,0) + log1p(exp(-|a - 0|)). -/
theorem sp_elem (a : EReal) :
    Scalar.select (Ideal.cmp .one (a - Ideal.ofBits .f32 0x00000000#32) (a - Ideal.ofBits .f32 0x00000000#32))
        (a + Ideal.ofBits .f32 0x00000000#32)
        (max a (Ideal.ofBits .f32 0x00000000#32)
          + Ideal.log1p (Ideal.exp (Ideal.ofBits .f32 0x00000000#32
              - max (a - Ideal.ofBits .f32 0x00000000#32) (-(a - Ideal.ofBits .f32 0x00000000#32)))))
      = sp a := by
  have hc : ∀ b : EReal, Ideal.cmp .one b b = 0#1 := fun b => by simp [Ideal.cmp]
  rw [hc, select_zero, Ideal.ofBits_zero_f32, zero_sub]
  rfl

/-- The same over a whole vector, read at an index. -/
theorem sp_vec_apply {s : Shape} (a : FVec Ideal s .f32) (idx : s.Idx) :
    select (cmpf .one (subf a (broadcast s (Scalar.ofBits (F := Ideal) .f32 0x00000000#32)))
              (subf a (broadcast s (Scalar.ofBits (F := Ideal) .f32 0x00000000#32))))
      (addf a (broadcast s (Scalar.ofBits (F := Ideal) .f32 0x00000000#32)))
      (addf (maximumf a (broadcast s (Scalar.ofBits (F := Ideal) .f32 0x00000000#32)))
        (log1p (exp (subf (broadcast s (Scalar.ofBits (F := Ideal) .f32 0x00000000#32))
          (absf (subf a (broadcast s (Scalar.ofBits (F := Ideal) .f32 0x00000000#32)))))))) idx
      = sp (a idx) := sp_elem (a idx)

/-- The comparison with zero, widened and converted, is the 0/1 indicator. -/
theorem mask_elem (a : EReal) :
    FloatOps.sitofp (F := Ideal) .f32 ((Ideal.cmp .ogt a (Ideal.ofBits .f32 0x00000000#32)).setWidth 32)
      = if 0 < a then 1 else 0 := by
  show ((((Ideal.cmp .ogt a (Ideal.ofBits .f32 0x00000000#32)).setWidth 32).toInt : ℝ) : EReal) = _
  rw [Ideal.ofBits_zero_f32]
  unfold Ideal.cmp
  by_cases h : 0 < a
  · rw [if_pos h]; simp [h]
  · rw [if_neg h]; simp [h]

/-- The test "lane is 0" on a lane number below 512. -/
theorem lane0_word (n : Nat) (hn : n < 512) {α : Type} (A B : α) :
    Scalar.select (IntOp.cmpi .eq (BitVec.ofNat 32 n) 0#32) A B = if n = 0 then A else B := by
  unfold IntOp.cmpi Scalar.select
  by_cases h : n = 0
  · subst h; simp
  · rw [if_neg h]
    have : (BitVec.ofNat 32 n == 0#32) = false := by
      rw [beq_eq_false_iff_ne]
      intro e
      have := congrArg BitVec.toNat e
      simp at this
      omega
    simp [this]

/-! ## Pointwise operations the index passes through -/

section Pointwise
variable {s : Shape} {φ : FTy}
theorem exp_apply (a : FVec Ideal s φ) (i : s.Idx) : exp a i = Ideal.exp (a i) := rfl
theorem log_apply (a : FVec Ideal s φ) (i : s.Idx) : log a i = Ideal.log (a i) := rfl
end Pointwise

/-! ## The payloads at coordinates -/

/-- The labels with the threshold class cleared. -/
theorem pay8_apply (y : Vec Ideal S1024x512 .f32) (i : Fin 1024) (j : Fin 512) :
    k0_pay8 (F := Ideal) y (ix2 i j) = clip (brow y i) j := by
  unfold k0_pay8
  show Scalar.select (IntOp.cmpi .eq (iota .tc S1024x512 32 [1] iota_S1024x512_d1_w32 (ix2 i j)) 0#32)
      (Ideal.ofBits .f32 0x00000000#32) (y (ix2 i j)) = _
  rw [iota_single_apply]
  show Scalar.select (IntOp.cmpi .eq (BitVec.ofNat 32 j.val) 0#32) _ _ = _
  rw [lane0_word j.val j.isLt, Ideal.ofBits_zero_f32]
  rfl

/-- The row's label mass. -/
theorem pay9_apply (y : Vec Ideal S1024x512 .f32) (i : Fin 1024) (q : Fin 1) :
    k0_pay9 (F := Ideal) y (ix2 i q) = pos (brow y i) := by
  unfold k0_pay9
  refine (col_of_vec_apply _ _ i q).trans ?_
  refine (lane_sum_apply _ _ _ _ i).trans ?_
  exact Finset.sum_congr rfl fun j _ => pay8_apply y i j

/-- Whether the row has positive label mass. -/
theorem pay10_apply (y : Vec Ideal S1024x512 .f32) (i : Fin 1024) (q : Fin 1) :
    k0_pay10 (F := Ideal) y (ix2 i q) = mask (brow y i) := by
  unfold k0_pay10
  show FloatOps.sitofp (F := Ideal) .f32
    ((Ideal.cmp .ogt (k0_pay9 (F := Ideal) y (ix2 i q)) (Ideal.ofBits .f32 0x00000000#32)).setWidth 32) = _
  rw [mask_elem, pay9_apply]
  rfl

/-- The row's sum of label times log-sigmoid. -/
theorem pay11_apply (x y : Vec Ideal S1024x512 .f32) (i : Fin 1024) (q : Fin 1) :
    k0_pay11 (F := Ideal) x y (ix2 i q) = ∑ j, clip (brow y i) j * ls (brow x i j) := by
  unfold k0_pay11
  refine (col_of_vec_apply _ _ i q).trans ?_
  refine (lane_sum_apply _ _ _ _ i).trans ?_
  refine Finset.sum_congr rfl fun j _ => ?_
  rw [mulf_apply, pay8_apply, subf_apply, sp_vec_apply]
  show _ * (Ideal.ofBits .f32 0x00000000#32 - sp (Ideal.ofBits .f32 0x00000000#32 - x (ix2 i j))) = _
  rw [Ideal.ofBits_zero_f32, zero_sub, zero_sub]
  rfl

/-- Minus the threshold logit. -/
theorem pay12_apply (x : Vec Ideal S1024x512 .f32) (i : Fin 1024) (q : Fin 1) :
    k0_pay12 (F := Ideal) x (ix2 i q) = -(x (ix2 i 0)) := by
  unfold k0_pay12
  show Ideal.ofBits .f32 0x00000000#32
    - extractStridedSlice S1024x1 ![0, 0] x slices_S1024x512_o0_0_S1024x1 (ix2 i q) = _
  rw [col0_apply, Ideal.ofBits_zero_f32, zero_sub]

/-- The logits with the positive classes pushed down. -/
theorem pay15_apply (x y : Vec Ideal S1024x512 .f32) (i : Fin 1024) (j : Fin 512) :
    k0_pay15 (F := Ideal) x (k0_pay8 y) (ix2 i j) = z (brow x i) (brow y i) j := by
  unfold k0_pay15
  show x (ix2 i j) - k0_pay8 (F := Ideal) y (ix2 i j) * Ideal.ofBits .f32 0x7149F2CA#32 = _
  rw [pay8_apply]
  rfl

/-- The row's maximum. -/
theorem pay16_apply (x y : Vec Ideal S1024x512 .f32) (i : Fin 1024) (q : Fin 1) :
    k0_pay16 (F := Ideal) x (k0_pay8 y) (ix2 i q) = mx (brow x i) (brow y i) := by
  unfold k0_pay16
  refine (col_of_vec_apply _ _ i q).trans ?_
  refine (lane_max_apply _ _ _ _ i).trans ?_
  exact congrArg (fun f => (Finset.univ : Finset (Fin 512)).fold max ⊥ f) (funext fun j => pay15_apply x y i j)

/-! ## The nine stores -/

/-- A [1,1] tile has the one index (0,0). -/
theorem idx11 (idx : S1x1.Idx) : idx = ix2 0 0 := by
  funext a
  match a with
  | ⟨0, _⟩ => exact Fin.ext (Nat.lt_one_iff.mp (idx 0).isLt)
  | ⟨1, _⟩ => exact Fin.ext (Nat.lt_one_iff.mp (idx 1).isLt)

/-- The resets write zero. -/
theorem pay5 : k0_pay5 (F := Ideal) = fun _ => 0 := by
  unfold k0_pay5
  funext idx
  show shapeCast S1x1 (broadcast S1x1 (Scalar.ofBits (F := Ideal) .f32 0x00000000#32)) shapeCasts_S1x1_S1x1 idx = 0
  rw [shapeCast_self]
  exact Ideal.ofBits_zero_f32
theorem pay6 : k0_pay6 (F := Ideal) = fun _ => 0 := by
  unfold k0_pay6
  funext idx
  show shapeCast S1x1 (broadcast S1x1 (Scalar.ofBits (F := Ideal) .f32 0x00000000#32)) shapeCasts_S1x1_S1x1 idx = 0
  rw [shapeCast_self]
  exact Ideal.ofBits_zero_f32
theorem pay7 : k0_pay7 (F := Ideal) = fun _ => 0 := by
  unfold k0_pay7
  funext idx
  show shapeCast S1x1 (broadcast S1x1 (Scalar.ofBits (F := Ideal) .f32 0x00000000#32)) shapeCasts_S1x1_S1x1 idx = 0
  rw [shapeCast_self]
  exact Ideal.ofBits_zero_f32

/-- The final stores copy an accumulator's one entry. -/
theorem pay2 (v : Vec Ideal S1x1 .f32) : k0_pay2 (F := Ideal) v = fun _ => v (ix2 0 0) := by
  funext j
  unfold k0_pay2
  exact block_of_one_apply v _ j
theorem pay3 (v : Vec Ideal S1x1 .f32) : k0_pay3 (F := Ideal) v = fun _ => v (ix2 0 0) := by
  funext j
  unfold k0_pay3
  exact block_of_one_apply v _ j
theorem pay4 (v : Vec Ideal S1x1 .f32) : k0_pay4 (F := Ideal) v = fun _ => v (ix2 0 0) := by
  funext j
  unfold k0_pay4
  exact block_of_one_apply v _ j

/-- The first accumulator's update: what it held plus the tile's sum of mask * term. -/
theorem pay13 (x y : Vec Ideal S1024x512 .f32) (acc : Vec Ideal S1x1 .f32) :
    k0_pay13 (F := Ideal) (k0_pay10 y) (k0_pay11 x y) (k0_pay12 x) (Scalar.ofBits .f32 0x00000000#32) acc
      = fun _ => acc (ix2 0 0) + ∑ i : Fin 1024, r1 (brow x i) (brow y i) := by
  funext idx
  have hidx := idx11 idx
  subst hidx
  unfold k0_pay13
  refine (congrFun (shapeCast_self _ _) _).trans ?_
  refine (addf_apply _ _ _).trans ?_
  refine congrArg (acc (ix2 0 0) + ·) ?_
  refine (one_of_vec_apply _ _ 0 0).trans ?_
  refine (col_sum_apply _ _ _ _).trans ?_
  refine Finset.sum_congr rfl fun i _ => ?_
  rw [mulf_apply, pay10_apply, addf_apply, pay11_apply, subf_apply, sp_vec_apply, subf_apply, pay12_apply]
  show _ * ((Ideal.ofBits .f32 0x00000000#32 - sp (Ideal.ofBits .f32 0x00000000#32 - -(x (ix2 i 0)))) + _) = _
  rw [Ideal.ofBits_zero_f32, zero_sub, zero_sub]
  rfl

/-- The second accumulator's update: what it held plus the tile's sum of mask * (1 + pos). -/
theorem pay14 (y : Vec Ideal S1024x512 .f32) (acc : Vec Ideal S1x1 .f32) :
    k0_pay14 (F := Ideal) (k0_pay9 y) (k0_pay10 y) acc
      = fun _ => acc (ix2 0 0) + ∑ i : Fin 1024, rc (brow y i) := by
  funext idx
  have hidx := idx11 idx
  subst hidx
  unfold k0_pay14
  refine (congrFun (shapeCast_self _ _) _).trans ?_
  refine (addf_apply _ _ _).trans ?_
  refine congrArg (acc (ix2 0 0) + ·) ?_
  refine (one_of_vec_apply _ _ 0 0).trans ?_
  refine (col_sum_apply _ _ _ _).trans ?_
  refine Finset.sum_congr rfl fun i _ => ?_
  rw [mulf_apply, pay10_apply, addf_apply, pay9_apply]
  show _ * (Ideal.ofBits .f32 0x3F800000#32 + _) = _
  rw [one_word]
  rfl

/-- The third accumulator's update: what it held plus the tile's sum of the rows' second loss. -/
theorem pay1 (x y : Vec Ideal S1024x512 .f32) (acc : Vec Ideal S1x1 .f32) :
    k0_pay1 (F := Ideal) (k0_pay15 x (k0_pay8 y)) (k0_pay16 x (k0_pay8 y)) acc
      = fun _ => acc (ix2 0 0) + ∑ i : Fin 1024, r2k (brow x i) (brow y i) := by
  funext idx
  have hidx := idx11 idx
  subst hidx
  unfold k0_pay1
  refine (congrFun (shapeCast_self _ _) _).trans ?_
  refine (addf_apply _ _ _).trans ?_
  refine congrArg (acc (ix2 0 0) + ·) ?_
  refine (one_of_vec_apply _ _ 0 0).trans ?_
  refine (col_sum_apply _ _ _ _).trans ?_
  refine Finset.sum_congr rfl fun i _ => ?_
  rw [subf_apply, addf_apply, pay16_apply, col0_apply, pay15_apply, log_apply, col_of_vec_apply]
  show _ = (mx (brow x i) (brow y i)
      + Ideal.log (∑ j, Ideal.exp (z (brow x i) (brow y i) j - mx (brow x i) (brow y i))))
    - z (brow x i) (brow y i) 0
  refine congrArg (fun t => mx (brow x i) (brow y i) + Ideal.log t - z (brow x i) (brow y i) 0) ?_
  refine (lane_sum_apply _ _ _ _ i).trans ?_
  refine Finset.sum_congr rfl fun j _ => ?_
  rw [exp_apply, subf_apply, lanes_of_col_apply, pay15_apply, pay16_apply]

end Cert.KernelIdeal.KPay

end
-- ==== Proof.KValInd.lean ====
/-
  The three carried cells point by point, at the ideal instance. Write T1 n, T2 n, T3 n for tile n's sums of the rows'
  contributions (numerator, denominator, second loss). A cell restarts from zero at the first step of a core (n a
  multiple of 32) and adds its tile sum at every step, so after point n it holds the sum of the tile sums of the
  points 32 * (n / 32) .. n; at a core's last step (n = 32 p + 31) that is the core's whole sum, and the output
  block written there is its copy.
-/
import proofs.«127174_j41180146434453_1_alg».proof.Proof.KValPieces
import proofs.«127174_j41180146434453_1_alg».proof.Proof.KPay
import Mathlib.Algebra.BigOperators.Group.Finset.Basic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.Spec

/-! ## A sum that restarts every 32 steps -/

/-- The running sum of f that restarts from zero at the multiples of 32. -/
def acc (f : ℕ → EReal) : ℕ → EReal
  | 0 => 0 + f 0
  | n + 1 => if (n + 1) % 32 = 0 then 0 + f (n + 1) else acc f n + f (n + 1)

theorem acc_reset (f : ℕ → EReal) (n : ℕ) (h : n % 32 = 0) : acc f n = f n := by
  cases n with
  | zero => show 0 + f 0 = f 0; rw [zero_add]
  | succ n => show (if (n + 1) % 32 = 0 then 0 + f (n + 1) else acc f n + f (n + 1)) = _; rw [if_pos h, zero_add]

theorem acc_step (f : ℕ → EReal) (n : ℕ) (h : ¬(n + 1) % 32 = 0) : acc f (n + 1) = acc f n + f (n + 1) := by
  show (if (n + 1) % 32 = 0 then 0 + f (n + 1) else acc f n + f (n + 1)) = _; rw [if_neg h]

/-- After step s of run p the running sum is the sum over the run's steps so far. -/
theorem acc_eq (f : ℕ → EReal) (p : ℕ) : ∀ s : ℕ, s < 32 → acc f (32 * p + s) = ∑ k ∈ Finset.range (s + 1), f (32 * p + k)
  | 0, _ => by rw [Nat.add_zero, acc_reset f _ (Nat.mul_mod_right 32 p), Finset.sum_range_one, Nat.add_zero]
  | s + 1, hs => by
    show acc f ((32 * p + s) + 1) = _
    rw [acc_step f _ (by omega), acc_eq f p s (by omega), Finset.sum_range_succ _ (s + 1)]
    rfl

/-- The whole sum of run p. -/
def G (f : ℕ → EReal) (p : ℕ) : EReal := ∑ k ∈ Finset.range 32, f (32 * p + k)

/-- At a run's last step, what the step before left plus the last term is the run's whole sum. -/
theorem acc_last (f : ℕ → EReal) (n : ℕ) (h : n % 32 = 31) : acc f (n - 1) + f n = G f (n / 32) := by
  obtain ⟨k, rfl⟩ : ∃ k, n = k + 1 := ⟨n - 1, by omega⟩
  show acc f k + f (k + 1) = _
  rw [← acc_step f k (by omega)]
  have e : k + 1 = 32 * ((k + 1) / 32) + 31 := by omega
  conv_lhs => rw [e]
  rw [acc_eq f _ 31 (by norm_num)]
  rfl

/-! ## The tile sums -/

variable (m : (ℓ : Loc nD τ sig) → Buf (Elt Ideal) ℓ)

/-- The logits' tile at point t. -/
abbrev xblk (c : Dev nD) (t : Fin cfg0.N) : Vec Ideal S1024x512 .f32 := iblk m c 0 t
/-- The labels' tile at point t. -/
abbrev yblk (c : Dev nD) (t : Fin cfg0.N) : Vec Ideal S1024x512 .f32 := iblk m c 1 t

/-- Tile n's numerator sum (zero past the grid). -/
def T1 (c : Dev nD) (n : ℕ) : EReal :=
  if h : n < cfg0.N then ∑ i : Fin 1024, r1 (brow (xblk m c ⟨n, h⟩) i) (brow (yblk m c ⟨n, h⟩) i) else 0
/-- Tile n's denominator sum. -/
def T2 (c : Dev nD) (n : ℕ) : EReal :=
  if h : n < cfg0.N then ∑ i : Fin 1024, rc (brow (yblk m c ⟨n, h⟩) i) else 0
/-- Tile n's second-loss sum. -/
def T3 (c : Dev nD) (n : ℕ) : EReal :=
  if h : n < cfg0.N then ∑ i : Fin 1024, r2k (brow (xblk m c ⟨n, h⟩) i) (brow (yblk m c ⟨n, h⟩) i) else 0

theorem T1_eq (c : Dev nD) (t : Fin cfg0.N) :
    T1 m c t.val = ∑ i : Fin 1024, r1 (brow (xblk m c t) i) (brow (yblk m c t) i) := dif_pos t.isLt
theorem T2_eq (c : Dev nD) (t : Fin cfg0.N) :
    T2 m c t.val = ∑ i : Fin 1024, rc (brow (yblk m c t) i) := dif_pos t.isLt
theorem T3_eq (c : Dev nD) (t : Fin cfg0.N) :
    T3 m c t.val = ∑ i : Fin 1024, r2k (brow (xblk m c t) i) (brow (yblk m c t) i) := dif_pos t.isLt

/-! ## One step of each cell -/

theorem step0 (c : Dev nD) (t : Fin cfg0.N) (a : EReal) :
    upd0 (F := Ideal) (xblk m c t) (yblk m c t) (fun _ => a) = fun _ => a + T1 m c t.val := by
  rw [T1_eq]; exact KPay.pay13 (xblk m c t) (yblk m c t) (fun _ => a)
theorem step1 (c : Dev nD) (t : Fin cfg0.N) (a : EReal) :
    upd1 (F := Ideal) (yblk m c t) (fun _ => a) = fun _ => a + T2 m c t.val := by
  rw [T2_eq]; exact KPay.pay14 (yblk m c t) (fun _ => a)
theorem step2 (c : Dev nD) (t : Fin cfg0.N) (a : EReal) :
    upd2 (F := Ideal) (xblk m c t) (yblk m c t) (fun _ => a) = fun _ => a + T3 m c t.val := by
  rw [T3_eq]; exact KPay.pay1 (xblk m c t) (yblk m c t) (fun _ => a)

theorem reset0 (c : Dev nD) (t : Fin cfg0.N) :
    upd0 (F := Ideal) (xblk m c t) (yblk m c t) (k0_pay5 (F := Ideal)) = fun _ => 0 + T1 m c t.val :=
  (congrArg (upd0 (xblk m c t) (yblk m c t)) KPay.pay5).trans (step0 m c t 0)
theorem reset1 (c : Dev nD) (t : Fin cfg0.N) :
    upd1 (F := Ideal) (yblk m c t) (k0_pay6 (F := Ideal)) = fun _ => 0 + T2 m c t.val :=
  (congrArg (upd1 (yblk m c t)) KPay.pay6).trans (step1 m c t 0)
theorem reset2 (c : Dev nD) (t : Fin cfg0.N) :
    upd2 (F := Ideal) (xblk m c t) (yblk m c t) (k0_pay7 (F := Ideal)) = fun _ => 0 + T3 m c t.val :=
  (congrArg (upd2 (xblk m c t) (yblk m c t)) KPay.pay7).trans (step2 m c t 0)

/-! ## The control cases at a point -/

/-- What the point before t left (the point itself when t is the first). -/
abbrev prev (c : Dev nD) (t : Fin cfg0.N) :=
  outsAt0 m c (t.val - 1) (Nat.lt_of_le_of_lt (Nat.sub_le _ _) t.isLt)

/-- First step of a core: each cell holds zero plus its tile sum. -/
theorem cells_A (c : Dev nD) (t : Fin cfg0.N) (h0 : t.val % 32 = 0) :
    (outsAt0 m c t.val t.isLt).2.2.2.1 = (fun _ => 0 + T1 m c t.val)
    ∧ (outsAt0 m c t.val t.isLt).2.2.2.2.1 = (fun _ => 0 + T2 m c t.val)
    ∧ (outsAt0 m c t.val t.isLt).2.2.2.2.2 = (fun _ => 0 + T3 m c t.val) := by
  have h1 : ¬t.val % 32 = 31 := by omega
  rw [outsAt0_A m c t h0 h1]
  dsimp only
  exact ⟨(sA0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)).trans (reset0 m c t),
    (sA1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)).trans (reset1 m c t),
    (sA2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)).trans (reset2 m c t)⟩

/-- A middle step: each cell adds its tile sum to what the step before left. -/
theorem cells_B (c : Dev nD) (t : Fin cfg0.N) (h0 : ¬t.val % 32 = 0) (h1 : ¬t.val % 32 = 31) (a1 a2 a3 : EReal)
    (ih : (prev m c t).2.2.2.1 = (fun _ => a1) ∧ (prev m c t).2.2.2.2.1 = (fun _ => a2) ∧ (prev m c t).2.2.2.2.2 = (fun _ => a3)) :
    (outsAt0 m c t.val t.isLt).2.2.2.1 = (fun _ => a1 + T1 m c t.val)
    ∧ (outsAt0 m c t.val t.isLt).2.2.2.2.1 = (fun _ => a2 + T2 m c t.val)
    ∧ (outsAt0 m c t.val t.isLt).2.2.2.2.2 = (fun _ => a3 + T3 m c t.val) := by
  rw [outsAt0_B m c t h0 h1]
  dsimp only
  exact ⟨(sB0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (prev m c t).2.2.2.1 (prev m c t).2.2.2.2.1 (prev m c t).2.2.2.2.2).trans
      ((congrArg (upd0 (xblk m c t) (yblk m c t)) ih.1).trans (step0 m c t a1)),
    (sB1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (prev m c t).2.2.2.1 (prev m c t).2.2.2.2.1 (prev m c t).2.2.2.2.2).trans
      ((congrArg (upd1 (yblk m c t)) ih.2.1).trans (step1 m c t a2)),
    (sB2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (prev m c t).2.2.2.1 (prev m c t).2.2.2.2.1 (prev m c t).2.2.2.2.2).trans
      ((congrArg (upd2 (xblk m c t) (yblk m c t)) ih.2.2).trans (step2 m c t a3))⟩

/-- The last step of a core: the cells as in a middle step, and each output block the copy of its cell. -/
theorem cells_C (c : Dev nD) (t : Fin cfg0.N) (h0 : ¬t.val % 32 = 0) (h1 : t.val % 32 = 31) (a1 a2 a3 : EReal)
    (ih : (prev m c t).2.2.2.1 = (fun _ => a1) ∧ (prev m c t).2.2.2.2.1 = (fun _ => a2) ∧ (prev m c t).2.2.2.2.2 = (fun _ => a3)) :
    ((outsAt0 m c t.val t.isLt).2.2.2.1 = (fun _ => a1 + T1 m c t.val)
    ∧ (outsAt0 m c t.val t.isLt).2.2.2.2.1 = (fun _ => a2 + T2 m c t.val)
    ∧ (outsAt0 m c t.val t.isLt).2.2.2.2.2 = (fun _ => a3 + T3 m c t.val))
    ∧ ((outsAt0 m c t.val t.isLt).1 = (fun _ => a1 + T1 m c t.val)
    ∧ (outsAt0 m c t.val t.isLt).2.1 = (fun _ => a2 + T2 m c t.val)
    ∧ (outsAt0 m c t.val t.isLt).2.2.1 = (fun _ => a3 + T3 m c t.val)) := by
  rw [outsAt0_C m c t h0 h1]
  dsimp only
  exact ⟨⟨(sC0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (prev m c t).2.2.2.1 (prev m c t).2.2.2.2.1 (prev m c t).2.2.2.2.2).trans
      ((congrArg (upd0 (xblk m c t) (yblk m c t)) ih.1).trans (step0 m c t a1)),
    (sC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (prev m c t).2.2.2.1 (prev m c t).2.2.2.2.1 (prev m c t).2.2.2.2.2).trans
      ((congrArg (upd1 (yblk m c t)) ih.2.1).trans (step1 m c t a2)),
    (sC2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (prev m c t).2.2.2.1 (prev m c t).2.2.2.2.1 (prev m c t).2.2.2.2.2).trans
      ((congrArg (upd2 (xblk m c t) (yblk m c t)) ih.2.2).trans (step2 m c t a3))⟩,
    ⟨(oC0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (prev m c t).2.2.2.1 (prev m c t).2.2.2.2.1 (prev m c t).2.2.2.2.2).trans
      ((congrArg k0_pay2 ((congrArg (upd0 (xblk m c t) (yblk m c t)) ih.1).trans (step0 m c t a1))).trans (KPay.pay2 _)),
    (oC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (prev m c t).2.2.2.1 (prev m c t).2.2.2.2.1 (prev m c t).2.2.2.2.2).trans
      ((congrArg k0_pay3 ((congrArg (upd1 (yblk m c t)) ih.2.1).trans (step1 m c t a2))).trans (KPay.pay3 _)),
    (oC2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (prev m c t).2.2.2.1 (prev m c t).2.2.2.2.1 (prev m c t).2.2.2.2.2).trans
      ((congrArg k0_pay4 ((congrArg (upd2 (xblk m c t) (yblk m c t)) ih.2.2).trans (step2 m c t a3))).trans (KPay.pay4 _))⟩⟩

/-! ## The cells after every point, and the outputs at a core's last step -/

/-- After point n each cell holds its restarting running sum. -/
theorem cells (c : Dev nD) : ∀ (n : ℕ) (h : n < cfg0.N),
    (outsAt0 m c n h).2.2.2.1 = (fun _ => acc (T1 m c) n)
    ∧ (outsAt0 m c n h).2.2.2.2.1 = (fun _ => acc (T2 m c) n)
    ∧ (outsAt0 m c n h).2.2.2.2.2 = (fun _ => acc (T3 m c) n)
  | 0, h => cells_A m c ⟨0, h⟩ rfl
  | n + 1, h => by
    by_cases h0 : (n + 1) % 32 = 0
    · have e := cells_A m c ⟨n + 1, h⟩ h0
      have r : ∀ f : ℕ → EReal, acc f (n + 1) = 0 + f (n + 1) := fun f => if_pos h0
      rw [r, r, r]; exact e
    · have ih := cells c n (Nat.lt_of_succ_lt h)
      have r : ∀ f : ℕ → EReal, acc f (n + 1) = acc f n + f (n + 1) := fun f => acc_step f n h0
      rw [r, r, r]
      by_cases h1 : (n + 1) % 32 = 31
      · exact (cells_C m c ⟨n + 1, h⟩ h0 h1 _ _ _ ih).1
      · exact cells_B m c ⟨n + 1, h⟩ h0 h1 _ _ _ ih

/-- At a core's last step each output block holds the core's whole sum. -/
theorem outs (c : Dev nD) (t : Fin cfg0.N) (h1 : t.val % 32 = 31) :
    (outsAt0 m c t.val t.isLt).1 = (fun _ => G (T1 m c) (t.val / 32))
    ∧ (outsAt0 m c t.val t.isLt).2.1 = (fun _ => G (T2 m c) (t.val / 32))
    ∧ (outsAt0 m c t.val t.isLt).2.2.1 = (fun _ => G (T3 m c) (t.val / 32)) := by
  have h0 : ¬t.val % 32 = 0 := by omega
  have ih := cells m c (t.val - 1) (Nat.lt_of_le_of_lt (Nat.sub_le _ _) t.isLt)
  have e := (cells_C m c t h0 h1 _ _ _ ih).2
  rw [acc_last _ _ h1, acc_last _ _ h1, acc_last _ _ h1] at e
  exact e

/-! ## The cores' sums over their tiles' rows -/

/-- Step s of core p is a point of the grid. -/
theorem hlt (p : Fin 2) (s : Fin 32) : 32 * p.val + s.val < cfg0.N := by
  rw [show cfg0.N = 64 from N_0]; omega

/-- Core p's numerator sum: over its 32 tiles, over each tile's 1024 rows. -/
theorem G_T1 (c : Dev nD) (p : Fin 2) : G (T1 m c) p.val
    = ∑ s : Fin 32, ∑ i : Fin 1024, r1 (brow (xblk m c ⟨32 * p.val + s.val, hlt p s⟩) i) (brow (yblk m c ⟨32 * p.val + s.val, hlt p s⟩) i) := by
  unfold G; rw [Finset.sum_range]; exact Finset.sum_congr rfl fun s _ => dif_pos (hlt p s)
/-- Core p's denominator sum. -/
theorem G_T2 (c : Dev nD) (p : Fin 2) : G (T2 m c) p.val
    = ∑ s : Fin 32, ∑ i : Fin 1024, rc (brow (yblk m c ⟨32 * p.val + s.val, hlt p s⟩) i) := by
  unfold G; rw [Finset.sum_range]; exact Finset.sum_congr rfl fun s _ => dif_pos (hlt p s)
/-- Core p's second-loss sum. -/
theorem G_T3 (c : Dev nD) (p : Fin 2) : G (T3 m c) p.val
    = ∑ s : Fin 32, ∑ i : Fin 1024, r2k (brow (xblk m c ⟨32 * p.val + s.val, hlt p s⟩) i) (brow (yblk m c ⟨32 * p.val + s.val, hlt p s⟩) i) := by
  unfold G; rw [Finset.sum_range]; exact Finset.sum_congr rfl fun s _ => dif_pos (hlt p s)

end Cert.KernelIdeal.KVal
end
-- ==== Proof.KValArr.lean ====
/-
  The three output arrays after the region. Output w (w = 2, 3, 4) is a [2,1,1] array of blocks [1,1,1]; block
  (p,0,0) is written back once, at core p's last point 32 p + 31, with the copy of the carried cell, which there holds
  the core's whole sum. The block index of point t is (t / 32, 0, 0), so entry (p,0,0) lies in the block of point
  32 p + 31 and the array ends holding, at (p,0,0), core p's sum.
-/
import proofs.«127174_j41180146434453_1_alg».proof.Proof.KValInd
import proofs.«127174_j41180146434453_1_alg».proof.Proof.Gen.KernelIdeal.Frame
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.Spec

variable (m : (ℓ : Loc nD τ sig) → Buf (Elt Ideal) ℓ)

/-- A [2,1,1] array whose entry (p,0,0) is core p's sum of f. -/
abbrev coreArr (f : ℕ → EReal) : S2x1x1.Idx → EReal := fun i => G f (i 0).val

/-! ## Output 0 -/

/-- Its block index at point t is (t / 32, 0, 0). -/
theorem idx2 : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)

/-- What a write-back writes is the block of the array of the cores' sums. -/
theorem flushed2 (c : Dev nD) (t : Fin cfg0.N) (hf : (cfg0.win 2).flush t = true) :
    (dats m 0 c).flushed 2 t = ((cfg0.win 2).blk t).view.read (Elt Ideal) (coreArr (T1 m c)) := by
  have h1 := (flush0_2 t).mp hf
  show (cfg0.win 2).cut (grid0.coords t) ((dats m 0 c).after 2 t) = _
  rw [after0_2, (outs m c t h1).1]
  funext y
  rw [View.read_apply]
  show G (T1 m c) (t.val / 32) = G (T1 m c) ((((cfg0.win 2).blk t).view.emb y) 0).val
  congr 1
  have hy : (y 0).val < 1 := (y 0).isLt
  show t.val / 32 = win0_2.index t 0 * 1 + 1 * (y 0).val
  rw [(idx2 t).1]; omega

/-- Entry (p,0,0) is written at point 32 p + 31, so the array ends holding the cores' sums. -/
theorem final2 (c : Dev nD) : (dats m 0 c).arrAt 2 cfg0.N = coreArr (T1 m c) :=
  (dats m 0 c).arrAt_eq_of_cover 2 (coreArr (T1 m c)) (flushed2 m c) fun i => by
    have hN : cfg0.N = 64 := N_0
    have h0 : (i 0 : Nat) < 2 := (i 0).isLt
    have h1 : (i 1 : Nat) < 1 := (i 1).isLt
    have h2 : (i 2 : Nat) < 1 := (i 2).isLt
    have ht : 32 * (i 0 : Nat) + 31 < cfg0.N := by omega
    refine ⟨⟨32 * (i 0 : Nat) + 31, ht⟩, (flush0_2 _).mpr (by show (32 * (i 0 : Nat) + 31) % 32 = 31; omega), ?_⟩
    show i ∈ ((View.whole main_v0_0).slice (win0_2.rect ⟨32 * (i 0 : Nat) + 31, ht⟩)).set
    rw [View.set_slice_whole, Rect.mem_set_unit]
    intro a
    have hi0 : win0_2.index ⟨32 * (i 0 : Nat) + 31, ht⟩ 0 = (32 * (i 0 : Nat) + 31) / 32 := (idx2 _).1
    have hi1 : win0_2.index ⟨32 * (i 0 : Nat) + 31, ht⟩ 1 = 0 := (idx2 _).2.1
    have hi2 : win0_2.index ⟨32 * (i 0 : Nat) + 31, ht⟩ 2 = 0 := (idx2 _).2.2
    match a with
    | ⟨0, _⟩ => show win0_2.index ⟨32 * (i 0 : Nat) + 31, ht⟩ 0 * 1 ≤ (i 0 : Nat) ∧ (i 0 : Nat) < win0_2.index ⟨32 * (i 0 : Nat) + 31, ht⟩ 0 * 1 + 1
                rw [hi0]; omega
    | ⟨1, _⟩ => show win0_2.index ⟨32 * (i 0 : Nat) + 31, ht⟩ 1 * 1 ≤ (i 1 : Nat) ∧ (i 1 : Nat) < win0_2.index ⟨32 * (i 0 : Nat) + 31, ht⟩ 1 * 1 + 1
                rw [hi1]; omega
    | ⟨2, _⟩ => show win0_2.index ⟨32 * (i 0 : Nat) + 31, ht⟩ 2 * 1 ≤ (i 2 : Nat) ∧ (i 2 : Nat) < win0_2.index ⟨32 * (i 0 : Nat) + 31, ht⟩ 2 * 1 + 1
                rw [hi2]; omega

/-! ## Output 1 -/

/-- Its block index at point t is (t / 32, 0, 0). -/
theorem idx3 : ∀ t : Fin cfg0.N, win0_3.index t 0 = t.val / 32 ∧ win0_3.index t 1 = 0 ∧ win0_3.index t 2 = 0 :=
  (by decide +kernel : ∀ t : Fin grid0.N, win0_3.index t 0 = t.val / 32 ∧ win0_3.index t 1 = 0 ∧ win0_3.index t 2 = 0)

/-- What a write-back writes is the block of the array of the cores' sums. -/
theorem flushed3 (c : Dev nD) (t : Fin cfg0.N) (hf : (cfg0.win 3).flush t = true) :
    (dats m 0 c).flushed 3 t = ((cfg0.win 3).blk t).view.read (Elt Ideal) (coreArr (T2 m c)) := by
  have h1 := (flush0_3 t).mp hf
  show (cfg0.win 3).cut (grid0.coords t) ((dats m 0 c).after 3 t) = _
  rw [after0_3, (outs m c t h1).2.1]
  funext y
  rw [View.read_apply]
  show G (T2 m c) (t.val / 32) = G (T2 m c) ((((cfg0.win 3).blk t).view.emb y) 0).val
  congr 1
  have hy : (y 0).val < 1 := (y 0).isLt
  show t.val / 32 = win0_3.index t 0 * 1 + 1 * (y 0).val
  rw [(idx3 t).1]; omega

/-- Entry (p,0,0) is written at point 32 p + 31, so the array ends holding the cores' sums. -/
theorem final3 (c : Dev nD) : (dats m 0 c).arrAt 3 cfg0.N = coreArr (T2 m c) :=
  (dats m 0 c).arrAt_eq_of_cover 3 (coreArr (T2 m c)) (flushed3 m c) fun i => by
    have hN : cfg0.N = 64 := N_0
    have h0 : (i 0 : Nat) < 2 := (i 0).isLt
    have h1 : (i 1 : Nat) < 1 := (i 1).isLt
    have h2 : (i 2 : Nat) < 1 := (i 2).isLt
    have ht : 32 * (i 0 : Nat) + 31 < cfg0.N := by omega
    refine ⟨⟨32 * (i 0 : Nat) + 31, ht⟩, (flush0_3 _).mpr (by show (32 * (i 0 : Nat) + 31) % 32 = 31; omega), ?_⟩
    show i ∈ ((View.whole main_v0_1).slice (win0_3.rect ⟨32 * (i 0 : Nat) + 31, ht⟩)).set
    rw [View.set_slice_whole, Rect.mem_set_unit]
    intro a
    have hi0 : win0_3.index ⟨32 * (i 0 : Nat) + 31, ht⟩ 0 = (32 * (i 0 : Nat) + 31) / 32 := (idx3 _).1
    have hi1 : win0_3.index ⟨32 * (i 0 : Nat) + 31, ht⟩ 1 = 0 := (idx3 _).2.1
    have hi2 : win0_3.index ⟨32 * (i 0 : Nat) + 31, ht⟩ 2 = 0 := (idx3 _).2.2
    match a with
    | ⟨0, _⟩ => show win0_3.index ⟨32 * (i 0 : Nat) + 31, ht⟩ 0 * 1 ≤ (i 0 : Nat) ∧ (i 0 : Nat) < win0_3.index ⟨32 * (i 0 : Nat) + 31, ht⟩ 0 * 1 + 1
                rw [hi0]; omega
    | ⟨1, _⟩ => show win0_3.index ⟨32 * (i 0 : Nat) + 31, ht⟩ 1 * 1 ≤ (i 1 : Nat) ∧ (i 1 : Nat) < win0_3.index ⟨32 * (i 0 : Nat) + 31, ht⟩ 1 * 1 + 1
                rw [hi1]; omega
    | ⟨2, _⟩ => show win0_3.index ⟨32 * (i 0 : Nat) + 31, ht⟩ 2 * 1 ≤ (i 2 : Nat) ∧ (i 2 : Nat) < win0_3.index ⟨32 * (i 0 : Nat) + 31, ht⟩ 2 * 1 + 1
                rw [hi2]; omega

/-! ## Output 2 -/

/-- Its block index at point t is (t / 32, 0, 0). -/
theorem idx4 : ∀ t : Fin cfg0.N, win0_4.index t 0 = t.val / 32 ∧ win0_4.index t 1 = 0 ∧ win0_4.index t 2 = 0 :=
  (by decide +kernel : ∀ t : Fin grid0.N, win0_4.index t 0 = t.val / 32 ∧ win0_4.index t 1 = 0 ∧ win0_4.index t 2 = 0)

/-- What a write-back writes is the block of the array of the cores' sums. -/
theorem flushed4 (c : Dev nD) (t : Fin cfg0.N) (hf : (cfg0.win 4).flush t = true) :
    (dats m 0 c).flushed 4 t = ((cfg0.win 4).blk t).view.read (Elt Ideal) (coreArr (T3 m c)) := by
  have h1 := (flush0_4 t).mp hf
  show (cfg0.win 4).cut (grid0.coords t) ((dats m 0 c).after 4 t) = _
  rw [after0_4, (outs m c t h1).2.2]
  funext y
  rw [View.read_apply]
  show G (T3 m c) (t.val / 32) = G (T3 m c) ((((cfg0.win 4).blk t).view.emb y) 0).val
  congr 1
  have hy : (y 0).val < 1 := (y 0).isLt
  show t.val / 32 = win0_4.index t 0 * 1 + 1 * (y 0).val
  rw [(idx4 t).1]; omega

/-- Entry (p,0,0) is written at point 32 p + 31, so the array ends holding the cores' sums. -/
theorem final4 (c : Dev nD) : (dats m 0 c).arrAt 4 cfg0.N = coreArr (T3 m c) :=
  (dats m 0 c).arrAt_eq_of_cover 4 (coreArr (T3 m c)) (flushed4 m c) fun i => by
    have hN : cfg0.N = 64 := N_0
    have h0 : (i 0 : Nat) < 2 := (i 0).isLt
    have h1 : (i 1 : Nat) < 1 := (i 1).isLt
    have h2 : (i 2 : Nat) < 1 := (i 2).isLt
    have ht : 32 * (i 0 : Nat) + 31 < cfg0.N := by omega
    refine ⟨⟨32 * (i 0 : Nat) + 31, ht⟩, (flush0_4 _).mpr (by show (32 * (i 0 : Nat) + 31) % 32 = 31; omega), ?_⟩
    show i ∈ ((View.whole main_v0_2).slice (win0_4.rect ⟨32 * (i 0 : Nat) + 31, ht⟩)).set
    rw [View.set_slice_whole, Rect.mem_set_unit]
    intro a
    have hi0 : win0_4.index ⟨32 * (i 0 : Nat) + 31, ht⟩ 0 = (32 * (i 0 : Nat) + 31) / 32 := (idx4 _).1
    have hi1 : win0_4.index ⟨32 * (i 0 : Nat) + 31, ht⟩ 1 = 0 := (idx4 _).2.1
    have hi2 : win0_4.index ⟨32 * (i 0 : Nat) + 31, ht⟩ 2 = 0 := (idx4 _).2.2
    match a with
    | ⟨0, _⟩ => show win0_4.index ⟨32 * (i 0 : Nat) + 31, ht⟩ 0 * 1 ≤ (i 0 : Nat) ∧ (i 0 : Nat) < win0_4.index ⟨32 * (i 0 : Nat) + 31, ht⟩ 0 * 1 + 1
                rw [hi0]; omega
    | ⟨1, _⟩ => show win0_4.index ⟨32 * (i 0 : Nat) + 31, ht⟩ 1 * 1 ≤ (i 1 : Nat) ∧ (i 1 : Nat) < win0_4.index ⟨32 * (i 0 : Nat) + 31, ht⟩ 1 * 1 + 1
                rw [hi1]; omega
    | ⟨2, _⟩ => show win0_4.index ⟨32 * (i 0 : Nat) + 31, ht⟩ 2 * 1 ≤ (i 2 : Nat) ∧ (i 2 : Nat) < win0_4.index ⟨32 * (i 0 : Nat) + 31, ht⟩ 2 * 1 + 1
                rw [hi2]; omega

end Cert.KernelIdeal.KVal
end
-- ==== Proof.KValTail.lean ====
/-
  The host tail at the ideal instance, as a function of the three [2,1,1] arrays the region leaves: each array is
  summed from the zero word over every axis (the sum of its entries), the first sum is divided by the second and the
  quotient negated, the third sum is divided by the batch-size word, and the two are added.
-/
import proofs.«127174_j41180146434453_1_alg».proof.Proof.Gen.KernelIdeal.Frame
import proofs.«127174_j41180146434453_1_alg».proof.Proof.Spec
import Idealize.ShloMosaic.Lib.IdealHost
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx

namespace Cert.KernelIdeal.KVal

open Cert.KernelIdeal Cert.KernelIdeal.Gen Cert.Spec

/-- The host tail as a function of the three [2,1,1] arrays the region leaves: each summed from zero, the first
    quotient negated, the third sum over the batch size, the two added. -/
def tailT (A2 A3 A4 : FVec Ideal S2x1x1 .f32) : FVec Ideal S_ .f32 :=
  addf
    (Host.negf (Host.divf
      (Host.reduceAdd A2 (constant (F := Ideal) S_ .f32 0x00000000#32) reducesTo_S2x1x1_S_d0_1_2 h_S_)
      (Host.reduceAdd A3 (constant (F := Ideal) S_ .f32 0x00000000#32) reducesTo_S2x1x1_S_d0_1_2 h_S_)))
    (Host.divf
      (Host.reduceAdd A4 (constant (F := Ideal) S_ .f32 0x00000000#32) reducesTo_S2x1x1_S_d0_1_2 h_S_)
      (constant (F := Ideal) S_ .f32 0x47800000#32))

/-- A sum over the [2,1,1] index set is the sum over its first coordinate. -/
def coreEquiv : Fin 2 ≃ S2x1x1.Idx where
  toFun p := ix3 p 0 0
  invFun i := i 0
  left_inv _ := rfl
  right_inv i := by
    funext a
    match a with
    | ⟨0, _⟩ => rfl
    | ⟨1, _⟩ => exact Subsingleton.elim (α := Fin 1) _ _
    | ⟨2, _⟩ => exact Subsingleton.elim (α := Fin 1) _ _

theorem sum_cores (f : S2x1x1.Idx → EReal) : ∑ i, f i = ∑ p : Fin 2, f (ix3 p 0 0) :=
  (Equiv.sum_comp coreEquiv f).symm

/-- A host sum from the zero word over every axis is the sum of the entries. -/
theorem hsum_apply (A : FVec Ideal S2x1x1 .f32) (j : S_.Idx) :
    Host.reduceAdd A (constant (F := Ideal) S_ .f32 0x00000000#32) reducesTo_S2x1x1_S_d0_1_2 h_S_ j = ∑ i, A i := by
  rw [hostReduceAdd_apply, Ideal.hostReduceAdd_total _ (fun b => b.elim0), constant_apply, Ideal.ofBits_zero_f32, zero_add]

/-- The tail's value. -/
theorem tail_apply (A2 A3 A4 : FVec Ideal S2x1x1 .f32) (j : S_.Idx) :
    tailT A2 A3 A4 j = -(Ideal.div (∑ i, A2 i) (∑ i, A3 i)) + Ideal.div (∑ i, A4 i) NB := by
  show -(Ideal.div (Host.reduceAdd A2 (constant (F := Ideal) S_ .f32 0x00000000#32) reducesTo_S2x1x1_S_d0_1_2 h_S_ j)
      (Host.reduceAdd A3 (constant (F := Ideal) S_ .f32 0x00000000#32) reducesTo_S2x1x1_S_d0_1_2 h_S_ j))
    + Ideal.div (Host.reduceAdd A4 (constant (F := Ideal) S_ .f32 0x00000000#32) reducesTo_S2x1x1_S_d0_1_2 h_S_ j)
      (constant (F := Ideal) S_ .f32 0x47800000#32 j) = _
  rw [hsum_apply, hsum_apply, hsum_apply]
  rfl

end Cert.KernelIdeal.KVal
end
-- ==== Proof.KValRows.lean ====
/-
  A tile's row is a row of the argument array: tile t of either input is the block of 1024 consecutive rows
  starting at row 1024 * t, all 512 columns, so row i of the tile is array row 1024 * t + i.
-/
import proofs.«127174_j41180146434453_1_alg».proof.Proof.KValInd

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.Spec

variable (m : (ℓ : Loc nD τ sig) → Buf (Elt Ideal) ℓ)

/-- A point of the grid as a tile number. -/
abbrev tile (t : Fin cfg0.N) : Fin 64 := Fin.cast (show cfg0.N = 64 from N_0) t

/-- The logits' block index at point t: tile t, column block 0. -/
theorem idx0 : ∀ t : Fin grid0.N, win0_0.index t 0 = t.val ∧ win0_0.index t 1 = 0 := by decide +kernel
/-- The labels' block index at point t: tile t, column block 0. -/
theorem idx1 : ∀ t : Fin grid0.N, win0_1.index t 0 = t.val ∧ win0_1.index t 1 = 0 := by decide +kernel

/-- Row i of the logits' tile at point t is row 1024 * t + i of the logits' array. -/
theorem xrow (c : Dev nD) (t : Fin cfg0.N) (i : Fin 1024) :
    brow (xblk m c t) i = rowsA (m ((c.tc : Thread nD τ).loc main_arg0)) (rowOf (tile t) i) := by
  have hi := idx0 t
  funext j
  show xblk m c t (ix2 i j) = m ((c.tc : Thread nD τ).loc main_arg0) (ix2 (rowOf (tile t) i) j)
  show iblk m c 0 t (ix2 i j) = _
  unfold iblk
  rw [View.read_apply]
  show V m c main_arg0 _ = m (c.tc.loc main_arg0) _
  unfold V
  congr 1
  funext a
  apply Fin.ext
  match a with
  | ⟨0, _⟩ => show win0_0.index t 0 * 1024 + 1 * i.val = 1024 * t.val + i.val; rw [hi.1]; omega
  | ⟨1, _⟩ => show win0_0.index t 1 * 512 + 1 * j.val = j.val; rw [hi.2]; omega

/-- Row i of the labels' tile at point t is row 1024 * t + i of the labels' array. -/
theorem yrow (c : Dev nD) (t : Fin cfg0.N) (i : Fin 1024) :
    brow (yblk m c t) i = rowsA (m ((c.tc : Thread nD τ).loc main_arg1)) (rowOf (tile t) i) := by
  have hi := idx1 t
  funext j
  show yblk m c t (ix2 i j) = m ((c.tc : Thread nD τ).loc main_arg1) (ix2 (rowOf (tile t) i) j)
  show iblk m c 1 t (ix2 i j) = _
  unfold iblk
  rw [View.read_apply]
  show V m c main_arg1 _ = m (c.tc.loc main_arg1) _
  unfold V
  congr 1
  funext a
  apply Fin.ext
  match a with
  | ⟨0, _⟩ => show win0_1.index t 0 * 1024 + 1 * i.val = 1024 * t.val + i.val; rw [hi.1]; omega
  | ⟨1, _⟩ => show win0_1.index t 1 * 512 + 1 * j.val = j.val; rw [hi.2]; omega

/-- Step s of core p, as a tile number, is tile s of core p. -/
theorem tile_core (p : Fin 2) (s : Fin 32) : tile ⟨32 * p.val + s.val, hlt p s⟩ = tileOf p s := Fin.ext rfl

end Cert.KernelIdeal.KVal
end
-- ==== Proof.KValSums.lean ====
/-
  The cores' sums add up to the sums over all rows: a core's sum runs over its 32 tiles and each tile's 1024 rows,
  a tile's row is the array's row 1024 * t + i, and the rows regroup as 2 cores x 32 tiles x 1024 rows.
-/
import proofs.«127174_j41180146434453_1_alg».proof.Proof.KValRows

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.Spec

variable (m : (ℓ : Loc nD τ sig) → Buf (Elt Ideal) ℓ)

/-- The numerators: the two cores' sums make S1. -/
theorem sumG1 (c : Dev nD) : ∑ p : Fin 2, G (T1 m c) p.val
    = Cert.Spec.S1 (rowsA (m ((c.tc : Thread nD τ).loc main_arg0))) (rowsA (m ((c.tc : Thread nD τ).loc main_arg1))) :=
  (Finset.sum_congr rfl fun p _ => (G_T1 m c p).trans (Finset.sum_congr rfl fun s _ => Finset.sum_congr rfl fun i _ => by
      rw [xrow, yrow, tile_core])).trans
    (regroup fun r => r1 (rowsA (m ((c.tc : Thread nD τ).loc main_arg0)) r) (rowsA (m ((c.tc : Thread nD τ).loc main_arg1)) r))

/-- The denominators: the two cores' sums make Cnt. -/
theorem sumG2 (c : Dev nD) : ∑ p : Fin 2, G (T2 m c) p.val
    = Cert.Spec.Cnt (rowsA (m ((c.tc : Thread nD τ).loc main_arg1))) :=
  (Finset.sum_congr rfl fun p _ => (G_T2 m c p).trans (Finset.sum_congr rfl fun s _ => Finset.sum_congr rfl fun i _ => by
      rw [yrow, tile_core])).trans
    (regroup fun r => rc (rowsA (m ((c.tc : Thread nD τ).loc main_arg1)) r))

/-- The second losses: the two cores' sums make S2k. -/
theorem sumG3 (c : Dev nD) : ∑ p : Fin 2, G (T3 m c) p.val
    = Cert.Spec.S2k (rowsA (m ((c.tc : Thread nD τ).loc main_arg0))) (rowsA (m ((c.tc : Thread nD τ).loc main_arg1))) :=
  (Finset.sum_congr rfl fun p _ => (G_T3 m c p).trans (Finset.sum_congr rfl fun s _ => Finset.sum_congr rfl fun i _ => by
      rw [xrow, yrow, tile_core])).trans
    (regroup fun r => r2k (rowsA (m ((c.tc : Thread nD τ).loc main_arg0)) r) (rowsA (m ((c.tc : Thread nD τ).loc main_arg1)) r))

end Cert.KernelIdeal.KVal
end
-- ==== Proof.KVal.lean ====
/-
  The kernel's value. The run leaves the three output arrays at the cores' sums; the host tail sums each array over
  its two entries, so it sees the sums over all rows of the numerator terms, of the divisor terms and of the second
  loss's terms, and its result is -(S1 / Cnt) + S2 / 65536 of the two argument arrays' rows. The arguments are inputs
  of the pipeline and are never written.
-/
import proofs.«127174_j41180146434453_1_alg».proof.Proof.KValArr
import proofs.«127174_j41180146434453_1_alg».proof.Proof.KValTail
import proofs.«127174_j41180146434453_1_alg».proof.Proof.KValSums
import proofs.«127174_j41180146434453_1_alg».proof.Proof.Gen.KernelIdeal.Frame
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.Spec

variable (m : (ℓ : Loc nD τ sig) → Buf (Elt Ideal) ℓ) (ρ : Dev nD → PrngReg)

/-- The result cell is none of the pipeline's arrays. -/
theorem v7_mem : main_v7 ∈ Pipeline.restRefs sig (cfgs 0).spec :=
  Pipeline.mem_restRefs_of main_v7 rfl (by decide)

/-- The tail's result is the tail function of the three arrays the region leaves. -/
theorem tail_val (c : Dev nD) : Pipeline.afterTail₀ cfgs (dats m) 0 (V0 m) [hostOps1] c main_v7
    = tailT ((dats m 0 c).arrAt 2 cfg0.N) ((dats m 0 c).arrAt 3 cfg0.N) ((dats m 0 c).arrAt 4 cfg0.N) := by
  unfold Pipeline.afterTail₀
  show StableHlo.after hostOps1 _ (Proc.devRef .tc main_v7) = _
  after_results
  have e2 := Pipeline.withArrays_arr spec0 launch0.win.arr_inj c (V0 m c) (fun w => (dats m 0 c).arrAt w cfg0.N) 2
  have e3 := Pipeline.withArrays_arr spec0 launch0.win.arr_inj c (V0 m c) (fun w => (dats m 0 c).arrAt w cfg0.N) 3
  have e4 := Pipeline.withArrays_arr spec0 launch0.win.arr_inj c (V0 m c) (fun w => (dats m 0 c).arrAt w cfg0.N) 4
  show tailT
      (Pipeline.withArrays spec0 c (V0 m c) (fun w => (dats m 0 c).arrAt w cfg0.N) (Proc.devRef .tc (Pipeline.arrRef spec0 2)))
      (Pipeline.withArrays spec0 c (V0 m c) (fun w => (dats m 0 c).arrAt w cfg0.N) (Proc.devRef .tc (Pipeline.arrRef spec0 3)))
      (Pipeline.withArrays spec0 c (V0 m c) (fun w => (dats m 0 c).arrAt w cfg0.N) (Proc.devRef .tc (Pipeline.arrRef spec0 4))) = _
  rw [e2, e3, e4]

/-- The sum of the entries of the array of the cores' sums. -/
theorem sum_coreArr (f : ℕ → EReal) : ∑ i, coreArr f i = ∑ p : Fin 2, G f p.val := sum_cores (coreArr f)

/-- The kernel's run, read: the result cell at the loss of the two argument arrays' rows, the arguments unchanged. -/
theorem run : θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v7)
          = (fun _ => Cert.Spec.kernelVal (Cert.Spec.rowsA (m ((c.tc : Thread _ _).loc Cert.KernelIdeal.main_arg0))) (Cert.Spec.rowsA (m ((c.tc : Thread _ _).loc Cert.KernelIdeal.main_arg1))))
      ∧ r.2.mem ((c.tc : Thread _ _).loc Cert.KernelIdeal.main_arg0) = m ((c.tc : Thread _ _).loc Cert.KernelIdeal.main_arg0)
      ∧ r.2.mem ((c.tc : Thread _ _).loc Cert.KernelIdeal.main_arg1) = m ((c.tc : Thread _ _).loc Cert.KernelIdeal.main_arg1)) :=
  (θ_run defs _ _).mono (fun _ h c => ⟨by
      refine ((h c).2 main_v7 v7_mem).trans ?_
      rw [tail_val, final2, final3, final4]
      funext j
      rw [tail_apply, sum_coreArr, sum_coreArr, sum_coreArr, sumG1, sumG2, sumG3]
      rfl,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.KVal
end
-- ==== Proof.RefRun1.lean ====
/-
  The reference's @main as a straight line. With the outlined functions (softplus, log-sigmoid, log-softmax)
  unfolded at their calls, each over the buffers its call names, @main is a list of 88 host operations run in
  order; so every weakly fair execution terminates, and each buffer ends at the fold of the operations' results
  over the launch contents.
-/
import proofs.«127174_j41180146434453_1_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- @main's operations in order: its own, and at each call the callee's over that call's buffers
    (the log-sigmoid of minus column 0: one negation, softplus's fourteen, one negation; the same on the whole
    array of logits; log-softmax's fifteen on the masked logits). -/
abbrev ops : List (HloOp τ sig (Elt F)) :=
  [ -- the labels with column 0 cleared, the row masses, the mask
    nullary main_c (constantI S_ 32 0#32),
    unary main_c main_v0 (broadcastInDim S1 ![] bcast_S_S1),
    nullary main_cst (constant S_ .f32 0x00000000#32),
    unary main_cst main_v1 (broadcastInDim S65536 ![] bcast_S_S65536),
    ternary main_arg1 main_v0 main_v1 main_v2 (fun x i u => Host.scatter scatter_S65536x512_S1_S65536_0_1_1_0 (fun _ b => b) x i u),
    nullary main_cst_0 (constant S_ .f32 0x00000000#32),
    binary main_v2 main_cst_0 main_v3 (fun x v => Host.reduceAdd x v reducesTo_S65536x512_S65536_d1 h_S_),
    nullary main_cst_1 (constant S_ .f32 0x00000000#32),
    unary main_cst_1 main_v4 (broadcastInDim S65536 ![] bcast_S_S65536),
    binary main_v3 main_v4 main_v5 (cmpf .ogt),
    unary main_v5 main_v6 (uitofp .f32),
    -- minus column 0 of the logits
    unary main_arg0 main_v7 (extractStridedSlice S65536x1 ![0, 0] · slices_S65536x512_S65536x1_0_0),
    reshape main_v7 main_v8 rfl shapeCasts_S65536x1_S65536,
    unary main_v8 main_v9 Host.negf,
    -- log-sigmoid of it
    TRef.unary (.of main_v9 : TRef sig ⟨S65536, .f32⟩) main_call0.v0 Host.negf,
    TRef.nullary main_call0.call0.cst (constant S_ .f32 0x00000000#32),
    TRef.unary main_call0.call0.cst main_call0.call0.v0 (broadcastInDim S65536 ![] bcast_S_S65536),
    TRef.binary main_call0.v0 main_call0.call0.v0 main_call0.call0.v1 maximumf,
    TRef.unary main_call0.call0.cst main_call0.call0.v2 (broadcastInDim S65536 ![] bcast_S_S65536),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S65536 ![] bcast_S_S65536),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    -- log-sigmoid of the logits
    TRef.unary (.of main_arg0 : TRef sig ⟨S65536x512, .f32⟩) main_call1.v0 Host.negf,
    TRef.nullary main_call1.call0.cst (constant S_ .f32 0x00000000#32),
    TRef.unary main_call1.call0.cst main_call1.call0.v0 (broadcastInDim S65536x512 ![] bcast_S_S65536x512),
    TRef.binary main_call1.v0 main_call1.call0.v0 main_call1.call0.v1 maximumf,
    TRef.unary main_call1.call0.cst main_call1.call0.v2 (broadcastInDim S65536x512 ![] bcast_S_S65536x512),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S65536x512 ![] bcast_S_S65536x512),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    -- the rows' terms, the divisor, the first loss
    binary main_v2 main_v11 main_v12 mulf,
    nullary main_cst_2 (constant S_ .f32 0x00000000#32),
    binary main_v12 main_cst_2 main_v13 (fun x v => Host.reduceAdd x v reducesTo_S65536x512_S65536_d1 h_S_),
    binary main_v10 main_v13 main_v14 addf,
    nullary main_cst_3 (constant S_ .f32 0x3F800000#32),
    unary main_cst_3 main_v15 (broadcastInDim S65536 ![] bcast_S_S65536),
    binary main_v15 main_v3 main_v16 addf,
    binary main_v6 main_v16 main_v17 mulf,
    nullary main_cst_4 (constant S_ .f32 0x00000000#32),
    binary main_v17 main_cst_4 main_v18 (fun x v => Host.reduceAdd x v reducesTo_S65536_S_d0 h_S_),
    binary main_v6 main_v14 main_v19 mulf,
    nullary main_cst_5 (constant S_ .f32 0x00000000#32),
    binary main_v19 main_cst_5 main_v20 (fun x v => Host.reduceAdd x v reducesTo_S65536_S_d0 h_S_),
    unary main_v20 main_v21 Host.negf,
    binary main_v21 main_v18 main_v22 Host.divf,
    -- the masked logits
    nullary main_cst_6 (constant S_ .f32 0x7149F2CA#32),
    unary main_cst_6 main_v23 (broadcastInDim S65536x512 ![] bcast_S_S65536x512),
    binary main_v2 main_v23 main_v24 mulf,
    binary main_arg0 main_v24 main_v25 subf,
    -- their log-softmax
    TRef.nullary main_call2.cst (constant S_ .f32 0xFF800000#32),
    TRef.binary (.of main_v25 : TRef sig ⟨S65536x512, .f32⟩) main_call2.cst main_call2.v0 (fun x v => Host.reduce FloatOps.maximumf x v reducesTo_S65536x512_S65536_d1 h_S_),
    TRef.nullary main_call2.cst_0 (constant S_ .f32 0xFF800000#32),
    TRef.unary main_call2.cst_0 main_call2.v1 (broadcastInDim S65536 ![] bcast_S_S65536),
    TRef.binary main_call2.v1 main_call2.v0 main_call2.v2 maximumf,
    TRef.unary main_call2.v2 main_call2.v3 (broadcastInDim S65536x1 ![0] bcast_S65536_S65536x1_0),
    TRef.unary main_call2.v3 main_call2.v4 (broadcastInDim S65536x512 ![0, 1] bcast_S65536x1_S65536x512_0_1),
    TRef.binary (.of main_v25 : TRef sig ⟨S65536x512, .f32⟩) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S65536x512_S65536_d1 h_S_),
    TRef.unary main_call2.v7 main_call2.v8 (broadcastInDim S65536x1 ![0] bcast_S65536_S65536x1_0),
    TRef.unary main_call2.v8 main_call2.v9 Host.log,
    TRef.unary main_call2.v9 main_call2.v10 (broadcastInDim S65536x512 ![0, 1] bcast_S65536x1_S65536x512_0_1),
    TRef.binary main_call2.v5 main_call2.v10 main_call2.v11 subf,
    -- the second loss, and the sum
    unary main_v26 main_v27 (extractStridedSlice S65536x1 ![0, 0] · slices_S65536x512_S65536x1_0_0),
    reshape main_v27 main_v28 rfl shapeCasts_S65536x1_S65536,
    unary main_v28 main_v29 Host.negf,
    nullary main_cst_7 (constant S_ .f32 0x00000000#32),
    binary main_v29 main_cst_7 main_v30 (fun x v => Host.reduceAdd x v reducesTo_S65536_S_d0 h_S_),
    nullary main_cst_8 (constant S_ .f32 0x47800000#32),
    binary main_v30 main_cst_8 main_v31 Host.divf,
    binary main_v22 main_v31 main_v32 addf ]

-- eighty-eight binds re-associated: the rewrite under the chain recurses once per statement
set_option maxRecDepth 4096 in
/-- @main is that straight line: the functions' definitions unfolded at their calls and the records at their
    fields, both sides are one chain of steps once sequencing is reassociated. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., ternary_bufs_sub .., nullary_bufs_sub ..,
    binary_bufs_sub .., nullary_bufs_sub .., unary_bufs_sub .., binary_bufs_sub .., unary_bufs_sub ..,
    unary_bufs_sub .., reshape_bufs_sub .., unary_bufs_sub ..,
    unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub ..,
    unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub ..,
    binary_bufs_sub .., nullary_bufs_sub .., binary_bufs_sub .., binary_bufs_sub .., nullary_bufs_sub .., unary_bufs_sub ..,
    binary_bufs_sub .., binary_bufs_sub .., nullary_bufs_sub .., binary_bufs_sub .., binary_bufs_sub .., nullary_bufs_sub ..,
    binary_bufs_sub .., unary_bufs_sub .., binary_bufs_sub ..,
    nullary_bufs_sub .., unary_bufs_sub .., binary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..,
    unary_bufs_sub .., reshape_bufs_sub .., unary_bufs_sub .., nullary_bufs_sub .., binary_bufs_sub .., nullary_bufs_sub ..,
    binary_bufs_sub .., binary_bufs_sub ..⟩

/-- At the compiled mesh, for any float values, from any memory with zero counters: every weakly fair execution
    of @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRun.lean ====
/-
  The reference's run read at its result. The fold of @main's 88 operations over any contents V leaves, at the
  result buffer, RefTerm.refTerm of V's two argument arrays, and leaves the argument buffers as they were.

  The line is read in four stretches. The first (14 operations) leaves the cleared labels, the row masses, the mask
  and minus column 0 of the logits. The second (32) applies log-sigmoid to that column and to the whole array of
  logits. The third (19) forms the first loss and the masked logits. The fourth (23) takes the log-softmax of the
  masked logits, forms the second loss and adds the two. Each stretch's results are its operations' functions of
  what the buffers held at its head; composed in the printed order they are the `let` chain refTerm was written
  as. With the straight-line run: every weakly fair execution of the reference terminates with the result at
  refTerm of the launch contents of the arguments, the arguments unchanged.
-/
import proofs.«127174_j41180146434453_1_alg».proof.Proof.RefRun1
import proofs.«127174_j41180146434453_1_alg».proof.Proof.RefTerm

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo Cert.ReferenceIdeal.RefTerm

variable {F : FTy → Type} [FloatOps F]

/-- The fold over two lines in a row is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The four stretches -/

/-- Operations 1 to 14: the cleared labels, the row masses, the mask, minus column 0 of the logits. -/
abbrev opsA : List (HloOp τ sig (Elt F)) :=
  [ nullary main_c (constantI S_ 32 0#32),
    unary main_c main_v0 (broadcastInDim S1 ![] bcast_S_S1),
    nullary main_cst (constant S_ .f32 0x00000000#32),
    unary main_cst main_v1 (broadcastInDim S65536 ![] bcast_S_S65536),
    ternary main_arg1 main_v0 main_v1 main_v2 (fun x i u => Host.scatter scatter_S65536x512_S1_S65536_0_1_1_0 (fun _ b => b) x i u),
    nullary main_cst_0 (constant S_ .f32 0x00000000#32),
    binary main_v2 main_cst_0 main_v3 (fun x v => Host.reduceAdd x v reducesTo_S65536x512_S65536_d1 h_S_),
    nullary main_cst_1 (constant S_ .f32 0x00000000#32),
    unary main_cst_1 main_v4 (broadcastInDim S65536 ![] bcast_S_S65536),
    binary main_v3 main_v4 main_v5 (cmpf .ogt),
    unary main_v5 main_v6 (uitofp .f32),
    unary main_arg0 main_v7 (extractStridedSlice S65536x1 ![0, 0] · slices_S65536x512_S65536x1_0_0),
    reshape main_v7 main_v8 rfl shapeCasts_S65536x1_S65536,
    unary main_v8 main_v9 Host.negf ]

/-- Operations 15 to 46: log-sigmoid of minus column 0, then of the whole array of logits. -/
abbrev opsB : List (HloOp τ sig (Elt F)) :=
  [ TRef.unary (.of main_v9 : TRef sig ⟨S65536, .f32⟩) main_call0.v0 Host.negf,
    TRef.nullary main_call0.call0.cst (constant S_ .f32 0x00000000#32),
    TRef.unary main_call0.call0.cst main_call0.call0.v0 (broadcastInDim S65536 ![] bcast_S_S65536),
    TRef.binary main_call0.v0 main_call0.call0.v0 main_call0.call0.v1 maximumf,
    TRef.unary main_call0.call0.cst main_call0.call0.v2 (broadcastInDim S65536 ![] bcast_S_S65536),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S65536 ![] bcast_S_S65536),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    TRef.unary (.of main_arg0 : TRef sig ⟨S65536x512, .f32⟩) main_call1.v0 Host.negf,
    TRef.nullary main_call1.call0.cst (constant S_ .f32 0x00000000#32),
    TRef.unary main_call1.call0.cst main_call1.call0.v0 (broadcastInDim S65536x512 ![] bcast_S_S65536x512),
    TRef.binary main_call1.v0 main_call1.call0.v0 main_call1.call0.v1 maximumf,
    TRef.unary main_call1.call0.cst main_call1.call0.v2 (broadcastInDim S65536x512 ![] bcast_S_S65536x512),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S65536x512 ![] bcast_S_S65536x512),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf ]

/-- Operations 47 to 65: the rows' terms, the divisor, the first loss; the masked logits. -/
abbrev opsC : List (HloOp τ sig (Elt F)) :=
  [ binary main_v2 main_v11 main_v12 mulf,
    nullary main_cst_2 (constant S_ .f32 0x00000000#32),
    binary main_v12 main_cst_2 main_v13 (fun x v => Host.reduceAdd x v reducesTo_S65536x512_S65536_d1 h_S_),
    binary main_v10 main_v13 main_v14 addf,
    nullary main_cst_3 (constant S_ .f32 0x3F800000#32),
    unary main_cst_3 main_v15 (broadcastInDim S65536 ![] bcast_S_S65536),
    binary main_v15 main_v3 main_v16 addf,
    binary main_v6 main_v16 main_v17 mulf,
    nullary main_cst_4 (constant S_ .f32 0x00000000#32),
    binary main_v17 main_cst_4 main_v18 (fun x v => Host.reduceAdd x v reducesTo_S65536_S_d0 h_S_),
    binary main_v6 main_v14 main_v19 mulf,
    nullary main_cst_5 (constant S_ .f32 0x00000000#32),
    binary main_v19 main_cst_5 main_v20 (fun x v => Host.reduceAdd x v reducesTo_S65536_S_d0 h_S_),
    unary main_v20 main_v21 Host.negf,
    binary main_v21 main_v18 main_v22 Host.divf,
    nullary main_cst_6 (constant S_ .f32 0x7149F2CA#32),
    unary main_cst_6 main_v23 (broadcastInDim S65536x512 ![] bcast_S_S65536x512),
    binary main_v2 main_v23 main_v24 mulf,
    binary main_arg0 main_v24 main_v25 subf ]

/-- Operations 66 to 88: the log-softmax of the masked logits, the second loss, the sum. -/
abbrev opsD : List (HloOp τ sig (Elt F)) :=
  [ TRef.nullary main_call2.cst (constant S_ .f32 0xFF800000#32),
    TRef.binary (.of main_v25 : TRef sig ⟨S65536x512, .f32⟩) main_call2.cst main_call2.v0 (fun x v => Host.reduce FloatOps.maximumf x v reducesTo_S65536x512_S65536_d1 h_S_),
    TRef.nullary main_call2.cst_0 (constant S_ .f32 0xFF800000#32),
    TRef.unary main_call2.cst_0 main_call2.v1 (broadcastInDim S65536 ![] bcast_S_S65536),
    TRef.binary main_call2.v1 main_call2.v0 main_call2.v2 maximumf,
    TRef.unary main_call2.v2 main_call2.v3 (broadcastInDim S65536x1 ![0] bcast_S65536_S65536x1_0),
    TRef.unary main_call2.v3 main_call2.v4 (broadcastInDim S65536x512 ![0, 1] bcast_S65536x1_S65536x512_0_1),
    TRef.binary (.of main_v25 : TRef sig ⟨S65536x512, .f32⟩) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S65536x512_S65536_d1 h_S_),
    TRef.unary main_call2.v7 main_call2.v8 (broadcastInDim S65536x1 ![0] bcast_S65536_S65536x1_0),
    TRef.unary main_call2.v8 main_call2.v9 Host.log,
    TRef.unary main_call2.v9 main_call2.v10 (broadcastInDim S65536x512 ![0, 1] bcast_S65536x1_S65536x512_0_1),
    TRef.binary main_call2.v5 main_call2.v10 main_call2.v11 subf,
    unary main_v26 main_v27 (extractStridedSlice S65536x1 ![0, 0] · slices_S65536x512_S65536x1_0_0),
    reshape main_v27 main_v28 rfl shapeCasts_S65536x1_S65536,
    unary main_v28 main_v29 Host.negf,
    nullary main_cst_7 (constant S_ .f32 0x00000000#32),
    binary main_v29 main_cst_7 main_v30 (fun x v => Host.reduceAdd x v reducesTo_S65536_S_d0 h_S_),
    nullary main_cst_8 (constant S_ .f32 0x47800000#32),
    binary main_v30 main_cst_8 main_v31 Host.divf,
    binary main_v22 main_v31 main_v32 addf ]

/-- The line is the four stretches in a row. -/
theorem ops_split : (ops : List (HloOp τ sig (Elt F))) = opsA ++ (opsB ++ (opsC ++ opsD)) := rfl

/-! ## What each stretch computes, as functions of what its head holds -/

/-- Minus column 0 of the logits, as a vector over the rows (%9). -/
def col0neg (x : FVec F S65536x512 .f32) : FVec F S65536 .f32 :=
  Host.negf (shapeCast S65536 ((extractStridedSlice S65536x1 ![0, 0] · slices_S65536x512_S65536x1_0_0) x) shapeCasts_S65536x1_S65536)

/-- The first loss (%22) from the cleared labels, the row masses, the mask and the two log-sigmoids. -/
def loss1Of (v2 : FVec F S65536x512 .f32) (v3 v6 v10 : FVec F S65536 .f32) (v11 : FVec F S65536x512 .f32) : FVec F S_ .f32 :=
  let main_v12 : FVec F S65536x512 .f32 := mulf v2 v11
  let main_cst_2 : FVec F S_ .f32 := constant S_ .f32 0x00000000#32
  let main_v13 : FVec F S65536 .f32 := (fun x v => Host.reduceAdd x v reducesTo_S65536x512_S65536_d1 h_S_) main_v12 main_cst_2
  let main_v14 : FVec F S65536 .f32 := addf v10 main_v13
  let main_cst_3 : FVec F S_ .f32 := constant S_ .f32 0x3F800000#32
  let main_v15 : FVec F S65536 .f32 := broadcastInDim S65536 ![] bcast_S_S65536 main_cst_3
  let main_v16 : FVec F S65536 .f32 := addf main_v15 v3
  let main_v17 : FVec F S65536 .f32 := mulf v6 main_v16
  let main_cst_4 : FVec F S_ .f32 := constant S_ .f32 0x00000000#32
  let main_v18 : FVec F S_ .f32 := (fun x v => Host.reduceAdd x v reducesTo_S65536_S_d0 h_S_) main_v17 main_cst_4
  let main_v19 : FVec F S65536 .f32 := mulf v6 main_v14
  let main_cst_5 : FVec F S_ .f32 := constant S_ .f32 0x00000000#32
  let main_v20 : FVec F S_ .f32 := (fun x v => Host.reduceAdd x v reducesTo_S65536_S_d0 h_S_) main_v19 main_cst_5
  let main_v21 : FVec F S_ .f32 := Host.negf main_v20
  let main_v22 : FVec F S_ .f32 := Host.divf main_v21 main_v18
  main_v22

/-- The masked logits (%25) from the logits and the cleared labels. -/
def zOf (x v2 : FVec F S65536x512 .f32) : FVec F S65536x512 .f32 :=
  subf x (mulf v2 (broadcastInDim S65536x512 ![] bcast_S_S65536x512 (constant S_ .f32 0x7149F2CA#32)))

/-- The row maxima of the masked logits, started at minus infinity (@log_softmax's %2). -/
def rowmaxOf (v25 : FVec F S65536x512 .f32) : FVec F S65536 .f32 :=
  let cst : FVec F S_ .f32 := constant S_ .f32 0xFF800000#32
  let v0 : FVec F S65536 .f32 := (fun x v => Host.reduce FloatOps.maximumf x v reducesTo_S65536x512_S65536_d1 h_S_) v25 cst
  let cst_0 : FVec F S_ .f32 := constant S_ .f32 0xFF800000#32
  let v1 : FVec F S65536 .f32 := broadcastInDim S65536 ![] bcast_S_S65536 cst_0
  let v2 : FVec F S65536 .f32 := maximumf v1 v0
  v2

/-- The masked logits minus their row maxima (@log_softmax's %5). -/
def shiftedOf (v25 : FVec F S65536x512 .f32) (v2 : FVec F S65536 .f32) : FVec F S65536x512 .f32 :=
  let v3 : FVec F S65536x1 .f32 := broadcastInDim S65536x1 ![0] bcast_S65536_S65536x1_0 v2
  let v4 : FVec F S65536x512 .f32 := broadcastInDim S65536x512 ![0, 1] bcast_S65536x1_S65536x512_0_1 v3
  let v5 : FVec F S65536x512 .f32 := subf v25 v4
  v5

/-- The shifted logits minus the log of their exponentials' row sums (@log_softmax's %11). -/
def lsmOf (v5 : FVec F S65536x512 .f32) : FVec F S65536x512 .f32 :=
  let v6 : FVec F S65536x512 .f32 := Host.exp v5
  let cst_1 : FVec F S_ .f32 := constant S_ .f32 0x00000000#32
  let v7 : FVec F S65536 .f32 := (fun x v => Host.reduceAdd x v reducesTo_S65536x512_S65536_d1 h_S_) v6 cst_1
  let v8 : FVec F S65536x1 .f32 := broadcastInDim S65536x1 ![0] bcast_S65536_S65536x1_0 v7
  let v9 : FVec F S65536x1 .f32 := Host.log v8
  let v10 : FVec F S65536x512 .f32 := broadcastInDim S65536x512 ![0, 1] bcast_S65536x1_S65536x512_0_1 v9
  let v11 : FVec F S65536x512 .f32 := subf v5 v10
  v11

/-- The second loss (%31) from the log-softmax: minus its column 0, summed over the rows, over 65536. -/
def tailOf (main_v26 : FVec F S65536x512 .f32) : FVec F S_ .f32 :=
  let main_v27 : FVec F S65536x1 .f32 := (extractStridedSlice S65536x1 ![0, 0] · slices_S65536x512_S65536x1_0_0) main_v26
  let main_v28 : FVec F S65536 .f32 := shapeCast S65536 main_v27 shapeCasts_S65536x1_S65536
  let main_v29 : FVec F S65536 .f32 := Host.negf main_v28
  let main_cst_7 : FVec F S_ .f32 := constant S_ .f32 0x00000000#32
  let main_v30 : FVec F S_ .f32 := (fun x v => Host.reduceAdd x v reducesTo_S65536_S_d0 h_S_) main_v29 main_cst_7
  let main_cst_8 : FVec F S_ .f32 := constant S_ .f32 0x47800000#32
  let main_v31 : FVec F S_ .f32 := Host.divf main_v30 main_cst_8
  main_v31

/-- The second loss (%31) from the masked logits. -/
def loss2Of (v25 : FVec F S65536x512 .f32) : FVec F S_ .f32 :=
  tailOf (lsmOf (shiftedOf v25 (rowmaxOf v25)))

/-- The pieces put together are refTerm: both sides are the same chain of operations. -/
theorem refTerm_eq (x y : FVec F S65536x512 .f32) :
    addf (loss1Of (clipT y) (posT y) (maskT y) (logsig1 (col0neg x)) (logsig2 x)) (loss2Of (zOf x (clipT y)))
      = refTerm x y := rfl

set_option maxRecDepth 8192

attribute [local irreducible] Host.reduce Host.reduceAdd Host.scatter in
/-- After the first stretch. -/
theorem afterA (V : Valuation τ sig (Elt F)) :
    after opsA V (main_v2 : DevRef τ sig) = clipT (V (main_arg1 : DevRef τ sig))
    ∧ after opsA V (main_v3 : DevRef τ sig) = posT (V (main_arg1 : DevRef τ sig))
    ∧ after opsA V (main_v6 : DevRef τ sig) = maskT (V (main_arg1 : DevRef τ sig))
    ∧ after opsA V (main_v9 : DevRef τ sig) = col0neg (V (main_arg0 : DevRef τ sig))
    ∧ after opsA V (main_arg0 : DevRef τ sig) = V (main_arg0 : DevRef τ sig)
    ∧ after opsA V (main_arg1 : DevRef τ sig) = V (main_arg1 : DevRef τ sig) := by
  refine ⟨?_, ?_, ?_, ?_, ?_, ?_⟩ <;> after_results_simp <;> rfl

attribute [local irreducible] Host.reduce Host.reduceAdd Host.scatter in
/-- After the second stretch. -/
theorem afterB (W : Valuation τ sig (Elt F)) :
    after opsB W (main_v10 : DevRef τ sig) = logsig1 (W (main_v9 : DevRef τ sig))
    ∧ after opsB W (main_v11 : DevRef τ sig) = logsig2 (W (main_arg0 : DevRef τ sig))
    ∧ after opsB W (main_v2 : DevRef τ sig) = W (main_v2 : DevRef τ sig)
    ∧ after opsB W (main_v3 : DevRef τ sig) = W (main_v3 : DevRef τ sig)
    ∧ after opsB W (main_v6 : DevRef τ sig) = W (main_v6 : DevRef τ sig)
    ∧ after opsB W (main_arg0 : DevRef τ sig) = W (main_arg0 : DevRef τ sig)
    ∧ after opsB W (main_arg1 : DevRef τ sig) = W (main_arg1 : DevRef τ sig) := by
  refine ⟨?_, ?_, ?_, ?_, ?_, ?_, ?_⟩ <;> after_results_simp <;> rfl

attribute [local irreducible] Host.reduce Host.reduceAdd Host.scatter in
/-- After the third stretch. -/
theorem afterC (W : Valuation τ sig (Elt F)) :
    after opsC W (main_v22 : DevRef τ sig)
        = loss1Of (W (main_v2 : DevRef τ sig)) (W (main_v3 : DevRef τ sig)) (W (main_v6 : DevRef τ sig))
            (W (main_v10 : DevRef τ sig)) (W (main_v11 : DevRef τ sig))
    ∧ after opsC W (main_v25 : DevRef τ sig) = zOf (W (main_arg0 : DevRef τ sig)) (W (main_v2 : DevRef τ sig))
    ∧ after opsC W (main_arg0 : DevRef τ sig) = W (main_arg0 : DevRef τ sig)
    ∧ after opsC W (main_arg1 : DevRef τ sig) = W (main_arg1 : DevRef τ sig) := by
  refine ⟨?_, ?_, ?_, ?_⟩ <;> after_results_simp <;> rfl

/-! The fourth stretch in four steps: the row maxima; the shift; the log-softmax; the second loss and the sum. -/

/-- Operations 66 to 70, the row maxima, with the reduction's function left as a parameter `g`: the fold below is
    read for any `g`, so that nothing in it looks inside the reduction (a fold over all 65536 x 512 entries). -/
abbrev opsD1G (g : (⟨S65536x512, .f32⟩ : BufTy).Contents (Elt F) → (⟨S_, .f32⟩ : BufTy).Contents (Elt F) → (⟨S65536, .f32⟩ : BufTy).Contents (Elt F)) :
    List (HloOp τ sig (Elt F)) :=
  [ TRef.nullary main_call2.cst (constant S_ .f32 0xFF800000#32),
    TRef.binary (.of main_v25 : TRef sig ⟨S65536x512, .f32⟩) main_call2.cst main_call2.v0 g,
    TRef.nullary main_call2.cst_0 (constant S_ .f32 0xFF800000#32),
    TRef.unary main_call2.cst_0 main_call2.v1 (broadcastInDim S65536 ![] bcast_S_S65536),
    TRef.binary main_call2.v1 main_call2.v0 main_call2.v2 maximumf ]

/-- Operations 66 to 70: the row maxima. -/
abbrev opsD1 : List (HloOp τ sig (Elt F)) :=
  opsD1G (fun x v => Host.reduce FloatOps.maximumf x v reducesTo_S65536x512_S65536_d1 h_S_)

/-- Operations 71 to 73: the shift by the row maxima. -/
abbrev opsD2 : List (HloOp τ sig (Elt F)) :=
  [ TRef.unary main_call2.v2 main_call2.v3 (broadcastInDim S65536x1 ![0] bcast_S65536_S65536x1_0),
    TRef.unary main_call2.v3 main_call2.v4 (broadcastInDim S65536x512 ![0, 1] bcast_S65536x1_S65536x512_0_1),
    TRef.binary (.of main_v25 : TRef sig ⟨S65536x512, .f32⟩) main_call2.v4 main_call2.v5 subf ]

/-- Operations 74 to 80: minus the log of the exponentials' row sums. -/
abbrev opsD3 : List (HloOp τ sig (Elt F)) :=
  [ TRef.unary main_call2.v5 main_call2.v6 Host.exp,
    TRef.nullary main_call2.cst_1 (constant S_ .f32 0x00000000#32),
    TRef.binary main_call2.v6 main_call2.cst_1 main_call2.v7 (fun x v => Host.reduceAdd x v reducesTo_S65536x512_S65536_d1 h_S_),
    TRef.unary main_call2.v7 main_call2.v8 (broadcastInDim S65536x1 ![0] bcast_S65536_S65536x1_0),
    TRef.unary main_call2.v8 main_call2.v9 Host.log,
    TRef.unary main_call2.v9 main_call2.v10 (broadcastInDim S65536x512 ![0, 1] bcast_S65536x1_S65536x512_0_1),
    TRef.binary main_call2.v5 main_call2.v10 main_call2.v11 subf ]

/-- Operations 81 to 88: the second loss and the sum. -/
abbrev opsD4 : List (HloOp τ sig (Elt F)) :=
  [ unary main_v26 main_v27 (extractStridedSlice S65536x1 ![0, 0] · slices_S65536x512_S65536x1_0_0),
    reshape main_v27 main_v28 rfl shapeCasts_S65536x1_S65536,
    unary main_v28 main_v29 Host.negf,
    nullary main_cst_7 (constant S_ .f32 0x00000000#32),
    binary main_v29 main_cst_7 main_v30 (fun x v => Host.reduceAdd x v reducesTo_S65536_S_d0 h_S_),
    nullary main_cst_8 (constant S_ .f32 0x47800000#32),
    binary main_v30 main_cst_8 main_v31 Host.divf,
    binary main_v22 main_v31 main_v32 addf ]

theorem opsD_split : (opsD : List (HloOp τ sig (Elt F))) = opsD1 ++ (opsD2 ++ (opsD3 ++ opsD4)) := rfl

/-- After the row maxima's five operations, for any reduction function. -/
theorem afterD1G (g : (⟨S65536x512, .f32⟩ : BufTy).Contents (Elt F) → (⟨S_, .f32⟩ : BufTy).Contents (Elt F) → (⟨S65536, .f32⟩ : BufTy).Contents (Elt F))
    (W : Valuation τ sig (Elt F)) :
    after (opsD1G g) W (main_call2_v2 : DevRef τ sig)
        = maximumf (broadcastInDim S65536 ![] bcast_S_S65536 (constant S_ .f32 0xFF800000#32))
            (g (W (main_v25 : DevRef τ sig)) (constant S_ .f32 0xFF800000#32))
    ∧ after (opsD1G g) W (main_v25 : DevRef τ sig) = W (main_v25 : DevRef τ sig)
    ∧ after (opsD1G g) W (main_v22 : DevRef τ sig) = W (main_v22 : DevRef τ sig)
    ∧ after (opsD1G g) W (main_arg0 : DevRef τ sig) = W (main_arg0 : DevRef τ sig)
    ∧ after (opsD1G g) W (main_arg1 : DevRef τ sig) = W (main_arg1 : DevRef τ sig) := by
  refine ⟨?_, ?_, ?_, ?_, ?_⟩ <;> after_results_simp <;> rfl

theorem afterD1 (W : Valuation τ sig (Elt F)) :
    after opsD1 W (main_call2_v2 : DevRef τ sig) = rowmaxOf (W (main_v25 : DevRef τ sig))
    ∧ after opsD1 W (main_v25 : DevRef τ sig) = W (main_v25 : DevRef τ sig)
    ∧ after opsD1 W (main_v22 : DevRef τ sig) = W (main_v22 : DevRef τ sig)
    ∧ after opsD1 W (main_arg0 : DevRef τ sig) = W (main_arg0 : DevRef τ sig)
    ∧ after opsD1 W (main_arg1 : DevRef τ sig) = W (main_arg1 : DevRef τ sig) :=
  afterD1G (fun x v => Host.reduce FloatOps.maximumf x v reducesTo_S65536x512_S65536_d1 h_S_) W

attribute [local irreducible] Host.reduce Host.reduceAdd Host.scatter in
theorem afterD2 (W : Valuation τ sig (Elt F)) :
    after opsD2 W (main_call2_v5 : DevRef τ sig)
        = shiftedOf (W (main_v25 : DevRef τ sig)) (W (main_call2_v2 : DevRef τ sig))
    ∧ after opsD2 W (main_v22 : DevRef τ sig) = W (main_v22 : DevRef τ sig)
    ∧ after opsD2 W (main_arg0 : DevRef τ sig) = W (main_arg0 : DevRef τ sig)
    ∧ after opsD2 W (main_arg1 : DevRef τ sig) = W (main_arg1 : DevRef τ sig) := by
  refine ⟨?_, ?_, ?_, ?_⟩ <;> after_results_simp <;> rfl

attribute [local irreducible] Host.reduce Host.reduceAdd Host.scatter in
theorem afterD3 (W : Valuation τ sig (Elt F)) :
    after opsD3 W (main_v26 : DevRef τ sig) = lsmOf (W (main_call2_v5 : DevRef τ sig))
    ∧ after opsD3 W (main_v22 : DevRef τ sig) = W (main_v22 : DevRef τ sig)
    ∧ after opsD3 W (main_arg0 : DevRef τ sig) = W (main_arg0 : DevRef τ sig)
    ∧ after opsD3 W (main_arg1 : DevRef τ sig) = W (main_arg1 : DevRef τ sig) := by
  refine ⟨?_, ?_, ?_, ?_⟩ <;> after_results_simp <;> rfl

attribute [local irreducible] Host.reduce Host.reduceAdd Host.scatter in
theorem afterD4 (W : Valuation τ sig (Elt F)) :
    after opsD4 W (main_v32 : DevRef τ sig) = addf (W (main_v22 : DevRef τ sig)) (tailOf (W (main_v26 : DevRef τ sig)))
    ∧ after opsD4 W (main_arg0 : DevRef τ sig) = W (main_arg0 : DevRef τ sig)
    ∧ after opsD4 W (main_arg1 : DevRef τ sig) = W (main_arg1 : DevRef τ sig) := by
  refine ⟨?_, ?_, ?_⟩ <;> after_results_simp <;> rfl

/-- After the fourth stretch. -/
theorem afterD (W : Valuation τ sig (Elt F)) :
    after opsD W (main_v32 : DevRef τ sig)
        = addf (W (main_v22 : DevRef τ sig)) (loss2Of (W (main_v25 : DevRef τ sig)))
    ∧ after opsD W (main_arg0 : DevRef τ sig) = W (main_arg0 : DevRef τ sig)
    ∧ after opsD W (main_arg1 : DevRef τ sig) = W (main_arg1 : DevRef τ sig) := by
  obtain ⟨p2, p25, p22, p0, p1⟩ := afterD1 W
  obtain ⟨q5, q22, q0, q1⟩ := afterD2 (after opsD1 W)
  obtain ⟨r26, r22, r0, r1⟩ := afterD3 (after opsD2 (after opsD1 W))
  obtain ⟨s32, s0, s1⟩ := afterD4 (after opsD3 (after opsD2 (after opsD1 W)))
  rw [opsD_split, after_app, after_app, after_app]
  refine ⟨?_, ?_, ?_⟩
  · rw [s32, r22, q22, p22, r26, q5, p25, p2]; rfl
  · rw [s0, r0, q0, p0]
  · rw [s1, r1, q1, p1]

/-! ## The whole line -/

/-- At the result buffer the fold is refTerm of the arguments. -/
theorem out_eq (V : Valuation τ sig (Elt F)) :
    after ops V (main_v32 : DevRef τ sig)
      = refTerm (V (main_arg0 : DevRef τ sig)) (V (main_arg1 : DevRef τ sig)) := by
  obtain ⟨a2, a3, a6, a9, a0, a1⟩ := afterA V
  obtain ⟨b10, b11, b2, b3, b6, b0, b1⟩ := afterB (after opsA V)
  obtain ⟨c22, c25, c0, c1⟩ := afterC (after opsB (after opsA V))
  obtain ⟨d32, d0, d1⟩ := afterD (after opsC (after opsB (after opsA V)))
  rw [ops_split, after_app, after_app, after_app, d32, c22, c25, b10, b11, b2, b3, b6, b0, a2, a3, a6, a9, a0]
  exact refTerm_eq _ _

/-- No operation writes the first argument's buffer. -/
theorem arg0_eq (V : Valuation τ sig (Elt F)) :
    after ops V (main_arg0 : DevRef τ sig) = V (main_arg0 : DevRef τ sig) := by
  rw [ops_split, after_app, after_app, after_app, (afterD _).2.1, (afterC _).2.2.1, (afterB _).2.2.2.2.2.1,
    (afterA _).2.2.2.2.1]

/-- No operation writes the second argument's buffer. -/
theorem arg1_eq (V : Valuation τ sig (Elt F)) :
    after ops V (main_arg1 : DevRef τ sig) = V (main_arg1 : DevRef τ sig) := by
  rw [ops_split, after_app, after_app, after_app, (afterD _).2.2, (afterC _).2.2.2, (afterB _).2.2.2.2.2.2,
    (afterA _).2.2.2.2.2]

/-- On every device, for any float values, from any memory with zero counters: every weakly fair execution of the
    reference terminates with its result at refTerm of the arguments' launch contents, and the arguments unchanged. -/
theorem run {F : FTy → Type} [FloatOps F] (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ (fun r => ∀ c : Dev Cert.ReferenceIdeal.nD,
      r.2.mem ((c.tc : Thread Cert.ReferenceIdeal.nD Cert.ReferenceIdeal.τ).loc Cert.ReferenceIdeal.main_v32)
          = Cert.ReferenceIdeal.RefTerm.refTerm (m ((c.tc : Thread _ _).loc Cert.ReferenceIdeal.main_arg0)) (m ((c.tc : Thread _ _).loc Cert.ReferenceIdeal.main_arg1))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)) :=
  (θ_run defs _ _).mono (fun _ h c => ⟨(h c main_v32).trans (out_eq (launchContents m c)),
      (h c main_arg0).trans (arg0_eq (launchContents m c)),
      (h c main_arg1).trans (arg1_eq (launchContents m c))⟩)
    (run_main m ρ)

end Cert.ReferenceIdeal.RefRun

end
-- ==== Proof.LibScatterSet.lean ====
/-
  The SET scatter of one constant: `Host.scatter` with the body that returns the update and an update array that holds
  one value everywhere.

  `Host.scatter` is a left fold over the update indices, each step overwriting the element at the step's result index
  (when there is one) with the body's value. When every step writes the same value `v` the fold's result does not depend
  on the order nor on whether two updates meet at one element: an element is `v` if SOME update lands on it and keeps
  the operand's value otherwise. No injectivity of the result indices is needed.

  Then one family of dimension numbers read at an index: a rank-2 operand `[n0, n1]`, ONE scatter index (the indices
  array `[1]`, its only axis the index vector's), updates `[n0]` whose axis is the window over the operand's axis 0, the
  operand's axis 1 inserted and named by the index. Update `j` lands at row `j 0`, column the index read as an integer;
  at the index word 0 the scatter clears column 0 and nothing else.
-/
import Idealize.ShloMosaic.PureOps.ShapeOps
import Idealize.ShloMosaic.PureOps.Dims
import Idealize.ShloMosaic.Lib.ValueIdx

namespace Idealize.ShloMosaic.LibScatterSet

open Idealize.ShloMosaic ValueIdx

/-! ## The fold, with every write the same value -/

section Fold
variable {s si u : Shape} {w : Nat} {α : Type}

/-- The fold of `Host.scatter`'s step with the SET body and a constant update, over any list of update numbers and
    from any accumulator: at `i` it is `v` as soon as one listed update lands on `i`, and the accumulator's value at
    `i` when none does. -/
theorem foldl_set_const (d : ScatterDims s si u) (idx : IVec si w) (v : α) (i : s.Idx) :
    ∀ (l : List (Fin u.numel)) (r : s.Idx → α),
      ((∃ n ∈ l, d.resultIdx? (u.rowMajor.symm n) idx = some i) →
        (l.foldl (fun r n =>
            match d.resultIdx? (u.rowMajor.symm n) idx with
            | some i => fun i' => if i' = i then (fun (_ b : α) => b) (r i) ((fun _ => v) (u.rowMajor.symm n)) else r i'
            | none => r) r) i = v) ∧
      ((∀ n ∈ l, d.resultIdx? (u.rowMajor.symm n) idx ≠ some i) →
        (l.foldl (fun r n =>
            match d.resultIdx? (u.rowMajor.symm n) idx with
            | some i => fun i' => if i' = i then (fun (_ b : α) => b) (r i) ((fun _ => v) (u.rowMajor.symm n)) else r i'
            | none => r) r) i = r i) := by
  intro l
  induction l with
  | nil =>
    intro r
    exact ⟨fun ⟨n, hn, _⟩ => absurd hn (List.not_mem_nil), fun _ => rfl⟩
  | cons n l ih =>
    intro r
    rw [List.foldl_cons]
    -- the accumulator after the head's step, read at `i`
    have hstep_hit : d.resultIdx? (u.rowMajor.symm n) idx = some i →
        (match d.resultIdx? (u.rowMajor.symm n) idx with
          | some i => fun i' => if i' = i then (fun (_ b : α) => b) (r i) ((fun _ => v) (u.rowMajor.symm n)) else r i'
          | none => r) i = v := by
      intro h; rw [h]; simp
    have hstep_miss : d.resultIdx? (u.rowMajor.symm n) idx ≠ some i →
        (match d.resultIdx? (u.rowMajor.symm n) idx with
          | some i => fun i' => if i' = i then (fun (_ b : α) => b) (r i) ((fun _ => v) (u.rowMajor.symm n)) else r i'
          | none => r) i = r i := by
      intro h
      cases hk : d.resultIdx? (u.rowMajor.symm n) idx with
      | none => rfl
      | some k =>
        have hne : i ≠ k := fun e => h (by rw [hk, e])
        simp [hne]
    refine ⟨?_, ?_⟩
    · intro hhit
      by_cases hl : ∃ m ∈ l, d.resultIdx? (u.rowMajor.symm m) idx = some i
      · exact (ih _).1 hl
      · have hl' : ∀ m ∈ l, d.resultIdx? (u.rowMajor.symm m) idx ≠ some i := fun m hm e => hl ⟨m, hm, e⟩
        rw [(ih _).2 hl']
        obtain ⟨m, hm, e⟩ := hhit
        rcases List.mem_cons.1 hm with rfl | hm'
        · exact hstep_hit e
        · exact absurd e (hl' m hm')
    · intro hmiss
      rw [(ih _).2 fun m hm => hmiss m (List.mem_cons_of_mem _ hm)]
      exact hstep_miss (hmiss n List.mem_cons_self)

/-- An element some update lands on holds the constant. -/
theorem scatter_set_const_of_hit (d : ScatterDims s si u) (x : s.Idx → α) (idx : IVec si w) (v : α) (i : s.Idx)
    (h : ∃ j : u.Idx, d.resultIdx? j idx = some i) :
    Host.scatter d (fun _ b => b) x idx (fun _ => v) i = v := by
  obtain ⟨j, hj⟩ := h
  exact (foldl_set_const d idx v i (List.finRange u.numel) x).1
    ⟨u.rowMajor j, List.mem_finRange _, by rw [Equiv.symm_apply_apply]; exact hj⟩

/-- An element no update lands on keeps the operand's value. -/
theorem scatter_set_const_of_miss (d : ScatterDims s si u) (x : s.Idx → α) (idx : IVec si w) (v : α) (i : s.Idx)
    (h : ∀ j : u.Idx, d.resultIdx? j idx ≠ some i) :
    Host.scatter d (fun _ b => b) x idx (fun _ => v) i = x i :=
  (foldl_set_const d idx v i (List.finRange u.numel) x).2 fun n _ => h _

end Fold

/-! ## One scatter index naming the column, the updates' axis the rows -/

section Column
variable {n0 n1 w : Nat}

/-- The dimension numbers: the updates' axis 0 is the window over the operand's axis 0, the operand's axis 1 is inserted
    and is the axis the one index names, and the indices' axis 0 is the index vector's. -/
abbrev colDims (wf : ScatterDims.WF ⟨2, ![n0, n1]⟩ ⟨1, ![1]⟩ ⟨1, ![n0]⟩ [0] [1] [1] 0) :
    ScatterDims ⟨2, ![n0, n1]⟩ ⟨1, ![1]⟩ ⟨1, ![n0]⟩ :=
  { updateWindowDims := [0], insertedWindowDims := [1], scatterDimsToOperandDims := [1], indexVectorDim := 0, wf := wf }

variable (wf : ScatterDims.WF ⟨2, ![n0, n1]⟩ ⟨1, ![1]⟩ ⟨1, ![n0]⟩ [0] [1] [1] 0)
  (idx : IVec ⟨1, ![1]⟩ w) (j : (⟨1, ![n0]⟩ : Shape).Idx)

/-- On the rows' axis no index is read: the start is 0. -/
theorem colDims_start0 : (colDims wf).start j idx (0 : Fin 2) = 0 := by
  unfold ScatterDims.start
  rw [dif_neg (show (0 : Fin 2) ∉ ([1] : List (Fin 2)) by decide)]

/-- On the columns' axis the start is the one index, read signed. -/
theorem colDims_start1 : (colDims wf).start j idx (1 : Fin 2) = (idx (ix1 0)).toInt := by
  unfold ScatterDims.start
  rw [dif_pos (show (1 : Fin 2) ∈ ([1] : List (Fin 2)) by decide)]
  congr 2
  funext b
  match b with
  | ⟨0, _⟩ => exact Subsingleton.elim (α := Fin 1) _ _

/-- On the rows' axis the window coordinate is the update's own coordinate. -/
theorem colDims_window0 : (colDims wf).window j (0 : Fin 2) = (j 0).val := by
  have h : (0 : Fin 2) ∈ (colDims wf).sKept := by
    show (0 : Fin 2) ∈ (List.finRange 2).filter (· ∉ ([1] : List (Fin 2))); decide
  unfold ScatterDims.window
  rw [dif_pos h]
  rfl

/-- The columns' axis is inserted: its window coordinate is 0. -/
theorem colDims_window1 : (colDims wf).window j (1 : Fin 2) = 0 := by
  have h : (1 : Fin 2) ∉ (colDims wf).sKept := by
    show (1 : Fin 2) ∉ (List.finRange 2).filter (· ∉ ([1] : List (Fin 2))); decide
  unfold ScatterDims.window
  rw [dif_neg h]

/-- Update `j` lands at row `j 0` and the column the index names, when that column exists. -/
theorem colDims_resultIdx (c : Fin n1) (hc : (idx (ix1 0)).toInt = (c.val : Int)) :
    (colDims wf).resultIdx? j idx = some (ix2 (j 0) c) := by
  have h : ∀ a : Fin 2, 0 ≤ (colDims wf).start j idx a + (colDims wf).window j a ∧
      (colDims wf).start j idx a + (colDims wf).window j a < ((⟨2, ![n0, n1]⟩ : Shape).size a : Int) := by
    intro a
    match a with
    | ⟨0, _⟩ =>
      rw [show (⟨0, _⟩ : Fin 2) = 0 from rfl, colDims_start0, colDims_window0]
      have : (j 0).val < n0 := (j 0).isLt
      constructor
      · omega
      · show (0 : Int) + ((j 0).val : Int) < (n0 : Int); omega
    | ⟨1, _⟩ =>
      rw [show (⟨1, _⟩ : Fin 2) = 1 from rfl, colDims_start1, colDims_window1, hc]
      have := c.isLt
      constructor
      · omega
      · show ((c.val : Int)) + ((0 : Nat) : Int) < (n1 : Int); omega
  unfold ScatterDims.resultIdx?
  rw [dif_pos h]
  congr 1
  funext a
  match a with
  | ⟨0, _⟩ =>
    apply Fin.ext
    show ((colDims wf).start j idx 0 + (colDims wf).window j 0).toNat = (j 0).val
    rw [colDims_start0, colDims_window0]; omega
  | ⟨1, _⟩ =>
    apply Fin.ext
    show ((colDims wf).start j idx 1 + (colDims wf).window j 1).toNat = c.val
    rw [colDims_start1, colDims_window1, hc]; omega

/-- The SET scatter of a constant `v` at the one column `c`: column `c` of every row becomes `v`, every other element
    keeps the operand's value. -/
theorem scatter_set_col {α : Type} (x : (⟨2, ![n0, n1]⟩ : Shape).Idx → α) (v : α) (c : Fin n1)
    (hc : (idx (ix1 0)).toInt = (c.val : Int)) (r : Fin n0) (k : Fin n1) :
    Host.scatter (colDims wf) (fun _ b => b) x idx (fun _ => v) (ix2 r k) = if k = c then v else x (ix2 r k) := by
  by_cases hk : k = c
  · rw [if_pos hk, hk]
    exact scatter_set_const_of_hit _ _ _ _ _ ⟨ix1 r, colDims_resultIdx wf idx (ix1 r) c hc⟩
  · rw [if_neg hk]
    refine scatter_set_const_of_miss _ _ _ _ _ fun j => ?_
    rw [colDims_resultIdx wf idx j c hc]
    intro e
    have := congrFun (Option.some.inj e) (1 : Fin 2)
    exact hk this.symm

end Column

end Idealize.ShloMosaic.LibScatterSet
-- ==== Proof.RefVal2.lean ====
/-
  The reference's second loss read at the ideal instance. Every printed operation is read at explicit coordinates
  (row r, column j), bottom-up: the masked logits are the row's z; the log-softmax subtracts the row maximum (the fold
  of max from the bottom element) and the logarithm of the row's sum of shifted exponentials; column 0 of it, negated,
  is the row's second loss as the reference spells it; the sum over rows divided by the batch size is the result.
-/
import proofs.«127174_j41180146434453_1_alg».proof.Proof.RefTerm
import proofs.«127174_j41180146434453_1_alg».proof.Proof.Spec
import proofs.«127174_j41180146434453_1_alg».proof.Proof.Gen.ReferenceIdeal
import Idealize.ShloMosaic.Lib.IdealHost
import Idealize.ShloMosaic.Lib.ValueLayout
import Idealize.ShloMosaic.Lib.ValueIdxRank1
import Idealize.ShloMosaic.PureOps.Reduce
import Idealize.ShloMosaic.PureOps.Ideal.Laws

noncomputable section

open scoped BigOperators

namespace Cert.ReferenceIdeal.RefVal2

open Idealize.ShloMosaic Idealize.ShloMosaic.ValueIdx Cert.ReferenceIdeal Cert.ReferenceIdeal.Facts₀
  Cert.ReferenceIdeal.RefTerm

/-! ## Layout operations at coordinates -/

/-- An `[a, 1]` array cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector of 65536 entries broadcast to a column reads, at `(r, u)`, the vector at `r`. -/
theorem bcast_col_apply {α : Type} (x : S65536.Idx → α) (r : Fin 65536) (u : Fin 1) :
    broadcastInDim S65536x1 ![0] bcast_S65536_S65536x1_0 x (ix2 r u) = x (ix1 r) :=
  broadcastInDim_apply _ _ x _ (ix1 r) (fun a => by
    match a with
    | ⟨0, _⟩ => rfl)

/-- A column broadcast along the rows reads, at `(r, j)`, the column at `(r, 0)`. -/
theorem bcast_row_apply {α : Type} (x : S65536x1.Idx → α) (r : Fin 65536) (j : Fin 512) :
    broadcastInDim S65536x512 ![0, 1] bcast_S65536x1_S65536x512_0_1 x (ix2 r j) = x (ix2 r (0 : Fin 1)) :=
  broadcastInDim_apply _ _ x _ (ix2 r (0 : Fin 1)) (fun a => by
    match a with
    | ⟨0, _⟩ => rfl
    | ⟨1, _⟩ => rfl)

/-- The first column of an array, as a column, reads at `(r, u)` the array at `(r, 0)`. -/
theorem slice_col0_apply {α : Type} (x : S65536x512.Idx → α) (r : Fin 65536) (u : Fin 1) :
    extractStridedSlice S65536x1 ![0, 0] x slices_S65536x512_S65536x1_0_0 (ix2 r u) = x (ix2 r (0 : Fin 512)) :=
  slice2_axis1_apply 0 x _ r u (0 : Fin 512) (by
    have := u.isLt
    show 0 = 0 + u.val
    omega)

/-! ## The host's unary operations at an index -/

theorem hostLog_apply {s : Shape} {φ : FTy} (a : FVec Ideal s φ) (i : s.Idx) : Host.log a i = Ideal.log (a i) := rfl
theorem hostNegf_apply {s : Shape} {φ : FTy} (a : FVec Ideal s φ) (i : s.Idx) : Host.negf a i = -(a i) := rfl

/-! ## Reductions along a row, and over all rows -/

/-- The source index over row `r` with column `k` inserted is `(r, k)`. -/
theorem lift_row (hR : S65536x512.Reduces [1] S65536) (r : Fin 65536) (k : Fin 512) :
    hR.lift (ix1 r) k = ix2 r k := by
  funext c
  match c with
  | ⟨0, _⟩ => rfl
  | ⟨1, _⟩ => rfl

/-- The host's sum along the rows from the zero word is each row's sum. -/
theorem rowSum_apply (a : FVec Ideal S65536x512 .f32) (r : Fin 65536) :
    Host.reduceAdd a (constant (F := Ideal) S_ .f32 0x00000000#32) reducesTo_S65536x512_S65536_d1 h_S_ (ix1 r)
      = ∑ k : Fin 512, a (ix2 r k) := by
  have hR : S65536x512.Reduces [1] S65536 := by decide
  rw [hostReduceAdd_apply, Ideal.hostReduceAdd_single _ hR, constant_apply, Ideal.ofBits_zero_f32, zero_add]
  exact Finset.sum_congr rfl (fun k _ => congrArg a (lift_row hR r k))

/-- The host's maximum along the rows from the word of minus infinity is each row's fold of max from the bottom
    element. -/
theorem rowMax_apply (a : FVec Ideal S65536x512 .f32) (r : Fin 65536) :
    Host.reduce (FloatOps.maximumf (F := Ideal) (φ := .f32)) a (constant (F := Ideal) S_ .f32 0xFF800000#32)
        reducesTo_S65536x512_S65536_d1 h_S_ (ix1 r)
      = Finset.univ.fold max ⊥ (fun k : Fin 512 => a (ix2 r k)) := by
  have hR : S65536x512.Reduces [1] S65536 := by decide
  have h := Host.reduce_eq_fold_single (max : EReal → EReal → EReal) a
    (constant (F := Ideal) S_ .f32 0xFF800000#32) reducesTo_S65536x512_S65536_d1 hR h_S_ (ix1 r)
  refine h.trans ?_
  have hinit : constant (F := Ideal) S_ .f32 0xFF800000#32 (Shape.Idx.first h_S_) = ⊥ := by
    show Ideal.ofBits .f32 0xFF800000#32 = ⊥
    simp [Ideal.ofBits, Ideal.ieee]
  rw [hinit]
  exact Finset.fold_congr (fun k _ => congrArg a (lift_row hR r k))

/-- The host's sum of a vector of 65536 entries from the zero word is the sum of its entries. -/
theorem total_apply (v : FVec Ideal S65536 .f32) (i : S_.Idx) :
    Host.reduceAdd v (constant (F := Ideal) S_ .f32 0x00000000#32) reducesTo_S65536_S_d0 h_S_ i
      = ∑ r : Fin 65536, v (ix1 r) := by
  rw [hostReduceAdd_apply, Ideal.hostReduceAdd_total _ (fun b => b.elim0), constant_apply, Ideal.ofBits_zero_f32,
    zero_add]
  exact (Equiv.sum_comp (idxEquiv1 (n := 65536)).symm v).symm

/-! ## The second loss, bottom-up -/

/-- The masked logits at `(r, j)` are the row's z at `j`. -/
theorem zT_apply (X Y : FVec Ideal S65536x512 .f32)
    (hclip : ∀ (r : Fin 65536) (j : Fin 512), clipT (F := Ideal) Y (ix2 r j) = Spec.clip (Spec.rowsA Y r) j)
    (r : Fin 65536) (j : Fin 512) :
    zT (F := Ideal) X Y (ix2 r j) = Spec.z (Spec.rowsA X r) (Spec.rowsA Y r) j := by
  unfold zT Spec.z
  simp only [subf_apply, mulf_apply, broadcastInDim_scalar_apply, constant_apply, hclip]
  rfl

/-- The word of minus infinity is the bottom element. -/
theorem ofBits_neg_inf : Ideal.ofBits .f32 0xFF800000#32 = ⊥ := by
  simp [Ideal.ofBits, Ideal.ieee]

/-- The array the log-softmax subtracts: at `(r, k)` the maximum of row `r`, the fold of max from the bottom element
    (the program takes the maximum once more against minus infinity, which changes nothing). -/
theorem shift_apply (a : FVec Ideal S65536x512 .f32) (r : Fin 65536) (k : Fin 512) :
    broadcastInDim S65536x512 ![0, 1] bcast_S65536x1_S65536x512_0_1
        (broadcastInDim S65536x1 ![0] bcast_S65536_S65536x1_0
          (maximumf (broadcastInDim S65536 ![] bcast_S_S65536 (constant (F := Ideal) S_ .f32 0xFF800000#32))
            (Host.reduce (FloatOps.maximumf (F := Ideal) (φ := .f32)) a (constant (F := Ideal) S_ .f32 0xFF800000#32)
              reducesTo_S65536x512_S65536_d1 h_S_))) (ix2 r k)
      = Finset.univ.fold max ⊥ (Spec.rowsA a r) := by
  rw [bcast_row_apply, bcast_col_apply, maximumf_apply, broadcastInDim_scalar_apply, constant_apply, rowMax_apply,
    ofBits_neg_inf, max_bot_left]
  rfl

/-- The same as one equation between arrays. -/
theorem shift_eq (a : FVec Ideal S65536x512 .f32) :
    broadcastInDim S65536x512 ![0, 1] bcast_S65536x1_S65536x512_0_1
        (broadcastInDim S65536x1 ![0] bcast_S65536_S65536x1_0
          (maximumf (broadcastInDim S65536 ![] bcast_S_S65536 (constant (F := Ideal) S_ .f32 0xFF800000#32))
            (Host.reduce (FloatOps.maximumf (F := Ideal) (φ := .f32)) a (constant (F := Ideal) S_ .f32 0xFF800000#32)
              reducesTo_S65536x512_S65536_d1 h_S_)))
      = fun i => Finset.univ.fold max ⊥ (Spec.rowsA a (i 0)) := by
  funext i
  rw [eq_ix2 i]
  exact shift_apply a (i 0) (i 1)

/-- The log-softmax at `(r, j)`: the entry minus the row maximum, minus the logarithm of the row's sum of shifted
    exponentials. -/
theorem logsoftmaxT_apply (a : FVec Ideal S65536x512 .f32) (r : Fin 65536) (j : Fin 512) :
    logsoftmaxT (F := Ideal) a (ix2 r j)
      = (a (ix2 r j) - Finset.univ.fold max ⊥ (Spec.rowsA a r))
        - Ideal.log (∑ k : Fin 512, Ideal.exp (Spec.rowsA a r k - Finset.univ.fold max ⊥ (Spec.rowsA a r))) := by
  unfold logsoftmaxT
  simp only [subf_apply]
  rw [shift_eq a, bcast_row_apply, hostLog_apply, bcast_col_apply, rowSum_apply]
  rfl

/-- Row `r` of the masked logits is the row's z. -/
theorem rowsA_zT (X Y : FVec Ideal S65536x512 .f32)
    (hclip : ∀ (r : Fin 65536) (j : Fin 512), clipT (F := Ideal) Y (ix2 r j) = Spec.clip (Spec.rowsA Y r) j)
    (r : Fin 65536) : Spec.rowsA (zT (F := Ideal) X Y) r = Spec.z (Spec.rowsA X r) (Spec.rowsA Y r) :=
  funext fun k => zT_apply X Y hclip r k

/-- Column 0 of the log-softmax of the masked logits, negated, is the row's second loss as the reference spells it. -/
theorem row_r2r (X Y : FVec Ideal S65536x512 .f32)
    (hclip : ∀ (r : Fin 65536) (j : Fin 512), clipT (F := Ideal) Y (ix2 r j) = Spec.clip (Spec.rowsA Y r) j)
    (r : Fin 65536) :
    -(logsoftmaxT (F := Ideal) (zT (F := Ideal) X Y) (ix2 r (0 : Fin 512)))
      = Spec.r2r (Spec.rowsA X r) (Spec.rowsA Y r) := by
  rw [logsoftmaxT_apply, rowsA_zT X Y hclip r, zT_apply X Y hclip r 0]
  rfl

/-- The second loss read at the ideal instance: the sum over rows of the reference's spelling of the row loss, divided
    by the word of the batch size. -/
theorem loss2T_eq (X Y : FVec Ideal Cert.ReferenceIdeal.S65536x512 .f32)
    (hclip : ∀ (r : Fin 65536) (j : Fin 512),
      Cert.ReferenceIdeal.RefTerm.clipT (F := Ideal) Y (Idealize.ShloMosaic.ValueIdx.ix2 r j)
        = Cert.Spec.clip (Cert.Spec.rowsA Y r) j) :
    Cert.ReferenceIdeal.RefTerm.loss2T (F := Ideal) X Y
      = fun _ => Ideal.div (Cert.Spec.S2r (Cert.Spec.rowsA X) (Cert.Spec.rowsA Y)) Cert.Spec.NB := by
  funext i
  unfold loss2T
  simp only []
  rw [hostDivf_apply, total_apply]
  have hs : (∑ r : Fin 65536, Host.negf (shapeCast S65536
        (extractStridedSlice S65536x1 ![0, 0] (logsoftmaxT (F := Ideal) (zT (F := Ideal) X Y))
          slices_S65536x512_S65536x1_0_0) shapeCasts_S65536x1_S65536) (ix1 r))
      = Spec.S2r (Spec.rowsA X) (Spec.rowsA Y) :=
    Finset.sum_congr rfl (fun r _ => by
      rw [hostNegf_apply, shapeCast_a1_a_apply, slice_col0_apply]
      exact row_r2r X Y hclip r)
  rw [hs]
  rfl

end Cert.ReferenceIdeal.RefVal2

end
-- ==== Proof.RefVal3.lean ====
/-
  The reference's first-loss term of a row, at the ideal instance, as the row function term of that row of the
  logits and of the labels.

  The road: column 0 cut out of the array and read as a vector; the host's lane sum from the zero word as the
  sum of the row; the guarded softplus at one element (the guard a ≠ a never holds on the extended reals, so the
  select keeps max(a,0) + log1p(exp(-|a - 0|))), hence log-sigmoid as -softplus(-a) at every index; the cleared
  labels are taken as a hypothesis on the scatter of zeros into column 0.
-/
import proofs.«127174_j41180146434453_1_alg».proof.Proof.RefTerm
import proofs.«127174_j41180146434453_1_alg».proof.Proof.Spec
import proofs.«127174_j41180146434453_1_alg».proof.Proof.Gen.ReferenceIdeal
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefVal3

open Idealize.ShloMosaic Idealize.ShloMosaic.ValueIdx Cert.ReferenceIdeal Cert.ReferenceIdeal.RefTerm

/-! ## Layout operations of the array read at coordinates -/

section Layout
variable {α : Type}

/-- Column 0 of the array, cut out as a column. -/
theorem col0_apply (v : S65536x512.Idx → α) (h : S65536x512.Slices ![0, 0] S65536x1) (r : Fin 65536) (q : Fin 1) :
    extractStridedSlice S65536x1 ![0, 0] v h (ix2 r q) = v (ix2 r 0) := by
  refine extractStridedSlice_apply ![0, 0] v h (ix2 r q) (ix2 r (0 : Fin 512)) fun ax => ?_
  have hq : q.val = 0 := by omega
  match ax with
  | ⟨0, _⟩ => show r.val = 0 + r.val; omega
  | ⟨1, _⟩ => show 0 = 0 + q.val; omega

/-- A [65536,1] column read as a vector. -/
theorem vec_of_col_apply (v : S65536x1.Idx → α) (h : S65536x1.ShapeCasts S65536) (r : Fin 65536) :
    shapeCast S65536 v h (ix1 r) = v (ix2 r 0) :=
  shapeCast_apply v h _ _ (by
    rw [Shape.rowMajor_val_two, Shape.rowMajor_val_one]
    show r.val * 1 + 0 = r.val
    omega)

end Layout

/-- The host's sum along the lanes, from a scalar start: the start plus the sum of the row. -/
theorem row_sum_apply (v : FVec Ideal S65536x512 .f32) (c : FVec Ideal S_ .f32) (h : S65536x512.ReducesTo [1] S65536)
    (hu : 0 < S_.numel) (r : Fin 65536) :
    Host.reduceAdd v c h hu (ix1 r) = c (Shape.Idx.first hu) + ∑ j : Fin 512, v (ix2 r j) := by
  rw [hostReduceAdd_apply]
  refine (Ideal.hostReduceAdd_single h (by decide : S65536x512.Reduces [1] S65536) v _ (ix1 r)).trans ?_
  refine congrArg (c (Shape.Idx.first hu) + ·) (Finset.sum_congr rfl fun j _ => congrArg v ?_)
  funext a
  match a with
  | ⟨0, _⟩ => exact Fin.ext rfl
  | ⟨1, _⟩ => exact Fin.ext rfl

/-! ## Softplus and log-sigmoid at an element -/

/-- The guarded softplus at one element: the guard a ≠ a never holds, so the select keeps max(a,0) + log1p(exp(-|a - 0|)). -/
theorem sp_elem (a : EReal) :
    Scalar.select (Ideal.cmp .une (a - Ideal.ofBits .f32 0x00000000#32) (a - Ideal.ofBits .f32 0x00000000#32))
        (a + Ideal.ofBits .f32 0x00000000#32)
        (max a (Ideal.ofBits .f32 0x00000000#32)
          + Ideal.log1p (Ideal.exp (-(max (a - Ideal.ofBits .f32 0x00000000#32) (-(a - Ideal.ofBits .f32 0x00000000#32))))))
      = Spec.sp a := by
  have hc : ∀ b : EReal, Ideal.cmp .une b b = 0#1 := fun b => by simp [Ideal.cmp]
  rw [hc, select_zero, Ideal.ofBits_zero_f32]
  rfl

/-- The same over an array of any shape, read at an index. -/
theorem softplus_apply {T : Shape} (hb : S_.BroadcastsInDim T (![] : Fin 0 → Fin T.rank)) (a : FVec Ideal T .f32) (idx : T.Idx) :
    select (cmpf .une (subf a (broadcastInDim T ![] hb (constant (F := Ideal) S_ .f32 0x00000000#32)))
              (subf a (broadcastInDim T ![] hb (constant (F := Ideal) S_ .f32 0x00000000#32))))
      (addf a (broadcastInDim T ![] hb (constant (F := Ideal) S_ .f32 0x00000000#32)))
      (addf (maximumf a (broadcastInDim T ![] hb (constant (F := Ideal) S_ .f32 0x00000000#32)))
        (Host.log1p (Host.exp (Host.negf (Host.absf
          (subf a (broadcastInDim T ![] hb (constant (F := Ideal) S_ .f32 0x00000000#32)))))))) idx
      = Spec.sp (a idx) := sp_elem (a idx)

theorem softplus1_apply (a : FVec Ideal S65536 .f32) (idx : S65536.Idx) :
    softplus1 (F := Ideal) a idx = Spec.sp (a idx) := by
  unfold softplus1
  exact softplus_apply _ a idx

theorem softplus2_apply (a : FVec Ideal S65536x512 .f32) (idx : S65536x512.Idx) :
    softplus2 (F := Ideal) a idx = Spec.sp (a idx) := by
  unfold softplus2
  exact softplus_apply _ a idx

/-- log-sigmoid of a vector at an index. -/
theorem logsig1_apply (a : FVec Ideal S65536 .f32) (idx : S65536.Idx) :
    logsig1 (F := Ideal) a idx = Spec.ls (a idx) := by
  unfold logsig1
  show -(softplus1 (F := Ideal) (Host.negf a) idx) = _
  rw [softplus1_apply]
  rfl

/-- log-sigmoid of the array at an index. -/
theorem logsig2_apply (a : FVec Ideal S65536x512 .f32) (idx : S65536x512.Idx) :
    logsig2 (F := Ideal) a idx = Spec.ls (a idx) := by
  unfold logsig2
  show -(softplus2 (F := Ideal) (Host.negf a) idx) = _
  rw [softplus2_apply]
  rfl

/-! ## The row's first-loss term -/

/-- Each row's term of the first loss is the row function term of that row of the logits and of the labels. -/
theorem termT_apply (X Y : FVec Ideal Cert.ReferenceIdeal.S65536x512 .f32)
    (hclip : ∀ (r : Fin 65536) (j : Fin 512), Cert.ReferenceIdeal.RefTerm.clipT (F := Ideal) Y (Idealize.ShloMosaic.ValueIdx.ix2 r j) = Cert.Spec.clip (Cert.Spec.rowsA Y r) j)
    (r : Fin 65536) :
    Cert.ReferenceIdeal.RefTerm.termT (F := Ideal) X Y (Idealize.ShloMosaic.ValueIdx.ix1 r) = Cert.Spec.term (Cert.Spec.rowsA X r) (Cert.Spec.rowsA Y r) := by
  unfold termT
  refine (addf_apply _ _ _).trans ?_
  refine congrArg₂ (· + ·) ?_ ?_
  · rw [logsig1_apply]
    refine congrArg (fun t : EReal => Spec.ls (-t)) ?_
    exact (vec_of_col_apply _ _ r).trans (col0_apply X _ r 0)
  · refine (row_sum_apply _ _ _ _ r).trans ?_
    rw [constant_apply, Ideal.ofBits_zero_f32, zero_add]
    refine Finset.sum_congr rfl fun j _ => ?_
    rw [mulf_apply, hclip, logsig2_apply]
    rfl

end Cert.ReferenceIdeal.RefVal3

end
-- ==== Proof.RefVal.lean ====
/-
  The reference's result read at the extended reals: each named stage of the reference's function of its two argument
  arrays, read at an index, is the corresponding quantity of the row-wise specification.

  The labels' column 0 is cleared by a scatter of zeros (the SET scatter of one constant at the index word 0); a row's
  label mass is the sum of the cleared row, its positivity the comparison with 0 turned into 0 or 1, and the divisor the
  sum over rows of positivity times (1 + mass). The first loss is minus the sum over rows of positivity times the row's
  term, over that divisor; the result adds the second loss, the mean over rows of the masked log-sum-exp at column 0.
-/
import proofs.«127174_j41180146434453_1_alg».proof.Proof.RefTerm
import proofs.«127174_j41180146434453_1_alg».proof.Proof.Spec
import proofs.«127174_j41180146434453_1_alg».proof.Proof.LibScatterSet
import proofs.«127174_j41180146434453_1_alg».proof.Proof.RefVal2
import proofs.«127174_j41180146434453_1_alg».proof.Proof.RefVal3
import proofs.«127174_j41180146434453_1_alg».proof.Proof.Gen.ReferenceIdeal
import Idealize.ShloMosaic.Lib.IdealHost
import Idealize.ShloMosaic.Lib.ValueIdxRank1
import Idealize.ShloMosaic.Lib.Pipeline.Value
import Idealize.ShloMosaic.PureOps.Reduce

noncomputable section

open scoped BigOperators

namespace Cert.ReferenceIdeal.RefVal

open Idealize.ShloMosaic Idealize.ShloMosaic.ValueIdx Cert.ReferenceIdeal Cert.ReferenceIdeal.Facts₀

/-! ## The two sums the reference takes -/

/-- The sum over axis 1 from the zero word, at row `r`: the sum of the row's 512 entries. -/
theorem sumCols_apply (A : FVec Ideal S65536x512 .f32) (r : Fin 65536) :
    Host.reduceAdd (F := Ideal) A (constant (F := Ideal) S_ .f32 0x00000000#32) reducesTo_S65536x512_S65536_d1 h_S_ (ix1 r)
      = ∑ j : Fin 512, A (ix2 r j) := by
  have h : S65536x512.Reduces [1] S65536 := by decide
  rw [hostReduceAdd_apply, Ideal.hostReduceAdd_single _ h, constant_apply, Ideal.ofBits_zero_f32, zero_add]
  refine Finset.sum_congr rfl fun j _ => congrArg A ?_
  funext a
  match a with
  | ⟨0, _⟩ => rfl
  | ⟨1, _⟩ => rfl

/-- The sum over axis 0 from the zero word: the sum of the 65536 entries. -/
theorem sumRows_apply (a : FVec Ideal S65536 .f32) (i : S_.Idx) :
    Host.reduceAdd (F := Ideal) a (constant (F := Ideal) S_ .f32 0x00000000#32) reducesTo_S65536_S_d0 h_S_ i
      = ∑ r : Fin 65536, a (ix1 r) := by
  rw [hostReduceAdd_apply, Ideal.hostReduceAdd_total _ (fun b => b.elim0), constant_apply, Ideal.ofBits_zero_f32, zero_add]
  exact (Equiv.sum_comp (idxEquiv1 (n := 65536)).symm a).symm

/-- A scalar word broadcast to the 65536 rows reads the word. -/
theorem bcastRows_apply (w : BitVec 32) (r : Fin 65536) :
    (broadcastInDim S65536 ![] bcast_S_S65536 (constant (F := Ideal) S_ .f32 w) : FVec Ideal S65536 .f32) (ix1 r)
      = Ideal.ofBits .f32 w := by
  rw [broadcastInDim_scalar_apply, constant_apply]

/-! ## The cleared labels, the label mass, its positivity, the divisor -/

/-- The scatter of zeros clears column 0 of every row and leaves the rest. -/
theorem clipT_apply (Y : FVec Ideal Cert.ReferenceIdeal.S65536x512 .f32) :
    ∀ (r : Fin 65536) (j : Fin 512),
      Cert.ReferenceIdeal.RefTerm.clipT (F := Ideal) Y (ix2 r j) = Cert.Spec.clip (Cert.Spec.rowsA Y r) j := by
  intro r j
  have hupd : (broadcastInDim S65536 ![] bcast_S_S65536 (constant (F := Ideal) S_ .f32 0x00000000#32) : FVec Ideal S65536 .f32)
      = fun _ => (0 : EReal) := by
    funext i
    rw [broadcastInDim_scalar_apply, constant_apply, Ideal.ofBits_zero_f32]
  have hidx : ((broadcastInDim S1 ![] bcast_S_S1 (constantI S_ 32 0#32) : IVec S1 32) (ix1 0)).toInt
      = (((⟨0, by decide⟩ : Fin 512)).val : Int) := by
    rw [broadcastInDim_scalar_apply]; rfl
  have key := LibScatterSet.scatter_set_col (n0 := 65536) (n1 := 512) scatter_S65536x512_S1_S65536_0_1_1_0_wf
    (broadcastInDim S1 ![] bcast_S_S1 (constantI S_ 32 0#32) : IVec S1 32) Y (0 : EReal) ⟨0, by decide⟩ hidx r j
  show Host.scatter scatter_S65536x512_S1_S65536_0_1_1_0 (fun _ b => b) Y
      (broadcastInDim S1 ![] bcast_S_S1 (constantI S_ 32 0#32) : IVec S1 32)
      (broadcastInDim S65536 ![] bcast_S_S65536 (constant (F := Ideal) S_ .f32 0x00000000#32) : FVec Ideal S65536 .f32) (ix2 r j) = _
  rw [hupd]
  refine key.trans ?_
  unfold Cert.Spec.clip Cert.Spec.rowsA
  by_cases hj : j.val = 0
  · rw [if_pos hj, if_pos (Fin.ext hj)]
  · rw [if_neg hj, if_neg (fun e => hj (congrArg Fin.val e))]

/-- A row's label mass. -/
theorem posT_apply (Y : FVec Ideal Cert.ReferenceIdeal.S65536x512 .f32) (r : Fin 65536) :
    Cert.ReferenceIdeal.RefTerm.posT (F := Ideal) Y (ix1 r) = Cert.Spec.pos (Cert.Spec.rowsA Y r) := by
  show Host.reduceAdd (F := Ideal) (Cert.ReferenceIdeal.RefTerm.clipT (F := Ideal) Y)
      (constant (F := Ideal) S_ .f32 0x00000000#32) reducesTo_S65536x512_S65536_d1 h_S_ (ix1 r) = _
  rw [sumCols_apply]
  exact Finset.sum_congr rfl fun j _ => clipT_apply Y r j

/-- A row's positivity: the comparison with 0 read as a one-bit word, then as 0 or 1. -/
theorem maskT_apply (Y : FVec Ideal Cert.ReferenceIdeal.S65536x512 .f32) (r : Fin 65536) :
    Cert.ReferenceIdeal.RefTerm.maskT (F := Ideal) Y (ix1 r) = Cert.Spec.mask (Cert.Spec.rowsA Y r) := by
  have e1 : Cert.ReferenceIdeal.RefTerm.maskT (F := Ideal) Y (ix1 r)
      = (uitofp .f32 (cmpf .ogt (Cert.ReferenceIdeal.RefTerm.posT (F := Ideal) Y)
          (broadcastInDim S65536 ![] bcast_S_S65536 (constant (F := Ideal) S_ .f32 0x00000000#32) : FVec Ideal S65536 .f32))
          : FVec Ideal S65536 .f32) (ix1 r) := rfl
  have e2 : ∀ a b : FVec Ideal S65536 .f32, (uitofp .f32 (cmpf .ogt a b) : FVec Ideal S65536 .f32) (ix1 r)
      = ((((Ideal.cmp .ogt (a (ix1 r)) (b (ix1 r))).toNat : ℕ) : ℝ) : EReal) := fun _ _ => rfl
  rw [e1, e2, bcastRows_apply, Ideal.ofBits_zero_f32, posT_apply]
  unfold Cert.Spec.mask Ideal.cmp
  by_cases h : 0 < Cert.Spec.pos (Cert.Spec.rowsA Y r)
  · simp [h]
  · simp [h]

/-- The first loss's divisor is the specification's count. -/
theorem countT_eq (Y : FVec Ideal Cert.ReferenceIdeal.S65536x512 .f32) :
    Cert.ReferenceIdeal.RefTerm.countT (F := Ideal) Y = fun _ => Cert.Spec.Cnt (Cert.Spec.rowsA Y) := by
  funext i
  show Host.reduceAdd (F := Ideal)
      (mulf (Cert.ReferenceIdeal.RefTerm.maskT (F := Ideal) Y)
        (addf (broadcastInDim S65536 ![] bcast_S_S65536 (constant (F := Ideal) S_ .f32 0x3F800000#32) : FVec Ideal S65536 .f32)
          (Cert.ReferenceIdeal.RefTerm.posT (F := Ideal) Y)))
      (constant (F := Ideal) S_ .f32 0x00000000#32) reducesTo_S65536_S_d0 h_S_ i = _
  rw [sumRows_apply]
  unfold Cert.Spec.Cnt Cert.Spec.rc
  refine Finset.sum_congr rfl fun r _ => ?_
  rw [mulf_apply, addf_apply, maskT_apply, posT_apply, bcastRows_apply, Ideal.ofBits_one_f32]

/-! ## The first loss and the result -/

/-- The host's negation at an index negates the element. -/
theorem hostNegf_apply {s : Shape} {φ : FTy} (a : FVec Ideal s φ) (i : s.Idx) : Host.negf a i = -(a i) := rfl

/-- The first loss's operations over any mask, terms and divisor: minus the sum of the products, over the divisor. -/
theorem loss1_shape (m t : FVec Ideal S65536 .f32) (c : FVec Ideal S_ .f32) (i : S_.Idx) :
    Host.divf (Host.negf (Host.reduceAdd (F := Ideal) (mulf m t) (constant (F := Ideal) S_ .f32 0x00000000#32)
        reducesTo_S65536_S_d0 h_S_)) c i
      = Ideal.div (-(∑ r : Fin 65536, m (ix1 r) * t (ix1 r))) (c i) := by
  rw [hostDivf_apply, hostNegf_apply, sumRows_apply]
  rfl

/-- The first loss, given each row's term: minus the masked terms' sum, over the count. -/
theorem loss1T_eq_of (X Y : FVec Ideal Cert.ReferenceIdeal.S65536x512 .f32)
    (hterm : ∀ r : Fin 65536, Cert.ReferenceIdeal.RefTerm.termT (F := Ideal) X Y (ix1 r)
      = Cert.Spec.term (Cert.Spec.rowsA X r) (Cert.Spec.rowsA Y r)) :
    Cert.ReferenceIdeal.RefTerm.loss1T (F := Ideal) X Y
      = fun _ => Ideal.div (-(Cert.Spec.S1 (Cert.Spec.rowsA X) (Cert.Spec.rowsA Y))) (Cert.Spec.Cnt (Cert.Spec.rowsA Y)) := by
  funext i
  have hsum : ∑ r : Fin 65536, Cert.ReferenceIdeal.RefTerm.maskT (F := Ideal) Y (ix1 r)
        * Cert.ReferenceIdeal.RefTerm.termT (F := Ideal) X Y (ix1 r)
      = Cert.Spec.S1 (Cert.Spec.rowsA X) (Cert.Spec.rowsA Y) := by
    unfold Cert.Spec.S1 Cert.Spec.r1
    exact Finset.sum_congr rfl fun r _ => by rw [maskT_apply, hterm]
  have hcnt : Cert.ReferenceIdeal.RefTerm.countT (F := Ideal) Y i = Cert.Spec.Cnt (Cert.Spec.rowsA Y) :=
    congrFun (countT_eq Y) i
  unfold Cert.ReferenceIdeal.RefTerm.loss1T
  generalize Cert.ReferenceIdeal.RefTerm.maskT (F := Ideal) Y = m at hsum ⊢
  generalize Cert.ReferenceIdeal.RefTerm.termT (F := Ideal) X Y = t at hsum ⊢
  generalize Cert.ReferenceIdeal.RefTerm.countT (F := Ideal) Y = c at hcnt ⊢
  show Host.divf (Host.negf (Host.reduceAdd (F := Ideal) (mulf m t) (constant (F := Ideal) S_ .f32 0x00000000#32)
        reducesTo_S65536_S_d0 h_S_)) c i = _
  rw [loss1_shape, hsum, hcnt]

/-- The first loss: minus the masked terms' sum, over the count. -/
theorem loss1T_eq (X Y : FVec Ideal Cert.ReferenceIdeal.S65536x512 .f32) :
    Cert.ReferenceIdeal.RefTerm.loss1T (F := Ideal) X Y
      = fun _ => Ideal.div (-(Cert.Spec.S1 (Cert.Spec.rowsA X) (Cert.Spec.rowsA Y))) (Cert.Spec.Cnt (Cert.Spec.rowsA Y)) :=
  loss1T_eq_of X Y (Cert.ReferenceIdeal.RefVal3.termT_apply X Y (clipT_apply Y))

/-- The reference's result is the specification's. -/
theorem refTerm_eq (X Y : FVec Ideal Cert.ReferenceIdeal.S65536x512 .f32) :
    Cert.ReferenceIdeal.RefTerm.refTerm (F := Ideal) X Y
      = fun _ => Cert.Spec.refVal (Cert.Spec.rowsA X) (Cert.Spec.rowsA Y) := by
  funext i
  have h1 : Cert.ReferenceIdeal.RefTerm.loss1T (F := Ideal) X Y i
      = Ideal.div (-(Cert.Spec.S1 (Cert.Spec.rowsA X) (Cert.Spec.rowsA Y))) (Cert.Spec.Cnt (Cert.Spec.rowsA Y)) :=
    congrFun (loss1T_eq X Y) i
  have h2 : Cert.ReferenceIdeal.RefTerm.loss2T (F := Ideal) X Y i
      = Ideal.div (Cert.Spec.S2r (Cert.Spec.rowsA X) (Cert.Spec.rowsA Y)) Cert.Spec.NB :=
    congrFun (Cert.ReferenceIdeal.RefVal2.loss2T_eq X Y (clipT_apply Y)) i
  unfold Cert.ReferenceIdeal.RefTerm.refTerm
  generalize Cert.ReferenceIdeal.RefTerm.loss1T (F := Ideal) X Y = a at h1 ⊢
  generalize Cert.ReferenceIdeal.RefTerm.loss2T (F := Ideal) X Y = b at h2 ⊢
  rw [addf_apply, h1, h2]
  unfold Cert.Spec.refVal
  rfl

end Cert.ReferenceIdeal.RefVal

end
-- ==== Proof.lean ====
/-
  The certificate's proof: the kernel and the reference compute one loss of the logits X and the labels Y, both
  [65536, 512], on the extended reals.

  Per row, with column 0 the threshold class and its label cleared: the row's label mass pos and its positivity mask;
  term = logsig(-x0) + sum_j label_j * logsig(x_j); the first loss is -(sum_r mask * term) / (sum_r mask * (1 + pos)).
  With z_j = x_j - label_j * 1e30, the row's second loss is logsumexp(z) - z0, and the loss adds its mean over the rows.

  The kernel walks the rows in 2 x 32 tiles of 1024, three scalar accumulators per core holding the tile sums, and
  its host tail combines the two cores' totals; the reference sums over all rows at once. Addition on the extended
  reals is commutative and associative, so the groupings agree with no side condition. Two spellings differ: the
  kernel's (m + L) - z0 against the reference's -((z0 - m) - L) for the second loss, equal once the entries are real
  (the precondition's finiteness), and -(S1 / Cnt) against (-S1) / Cnt, equal off Cnt = 0 (the precondition's last
  conjunct: where Cnt = 0 the reference itself is 0/0).

  The frames of the two kernel programs are the generated ones; the reference's frame is its run with the result
  dropped. No rewrite was applied when the kernel was idealized, so that conjunct is trivial.
-/
import proofs.«127174_j41180146434453_1_alg».proof.Defs
import proofs.«127174_j41180146434453_1_alg».proof.Proof.Gen.Kernel.Frame
import proofs.«127174_j41180146434453_1_alg».proof.Proof.Gen.KernelIdeal.Frame
import proofs.«127174_j41180146434453_1_alg».proof.Proof.Gen.ReferenceIdeal
import proofs.«127174_j41180146434453_1_alg».proof.Proof.Gen.Pre_finite_inputs
import proofs.«127174_j41180146434453_1_alg».proof.Proof.Spec
import proofs.«127174_j41180146434453_1_alg».proof.Proof.PreFacts
import proofs.«127174_j41180146434453_1_alg».proof.Proof.KVal
import proofs.«127174_j41180146434453_1_alg».proof.Proof.RefRun
import proofs.«127174_j41180146434453_1_alg».proof.Proof.RefVal

noncomputable section

namespace Cert.Proof

open Idealize.ShloMosaic Idealize.SL.Sem

/-- The reference's run ends with its result at the loss as the reference spells it, the arguments kept:
    its run's composed term, read at the ideal instance. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v32)
          = (fun _ => Cert.Spec.refVal (Cert.Spec.rowsA (m ((c.tc : Thread _ _).loc Cert.ReferenceIdeal.main_arg0))) (Cert.Spec.rowsA (m ((c.tc : Thread _ _).loc Cert.ReferenceIdeal.main_arg1))))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)) :=
  (θ_run Cert.ReferenceIdeal.defs _ _).mono (fun _ h c => ⟨(h c).1.trans (Cert.ReferenceIdeal.RefVal.refTerm_eq _ _), (h c).2⟩)
    (Cert.ReferenceIdeal.RefRun.run (F := Ideal) m ρ)

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (ref_run m ρ)

/-- Both programs run; the kernel ends at the loss as it spells it, the reference at its own spelling of arguments
    that agree, and under the precondition (real entries, a nonzero divisor) the two spellings are one value. -/
theorem algebraic : Cert.algebraic_KernelIdeal_ReferenceIdeal := by
  intro m ρ m' ρ' hpre hagree
  refine ⟨_, Cert.KernelIdeal.KVal.run m ρ, ?_⟩
  refine (θ_run Cert.ReferenceIdeal.defs _ _).mono (fun r h c => ⟨(h c).1.trans ?_, (h c).2⟩) (ref_run m' ρ')
  rw [(hagree c).1, (hagree c).2]
  funext _
  exact (Cert.Spec.main _ _ (Cert.PreFacts.real0 _ _ (hpre c)) (Cert.PreFacts.real1 _ _ (hpre c))
    (Cert.PreFacts.count_ne_of _ _ (hpre c) (Cert.ReferenceIdeal.RefVal.countT_eq _))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
